-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S50000x4x4 : Shape := ⟨3, ![50000, 4, 4]⟩
abbrev S2x800000 : Shape := ⟨2, ![2, 800000]⟩
abbrev S16x64 : Shape := ⟨2, ![16, 64]⟩
abbrev S64 : Shape := ⟨1, ![64]⟩
abbrev S4x128x64 : Shape := ⟨3, ![4, 128, 64]⟩
abbrev S4x64 : Shape := ⟨2, ![4, 64]⟩
abbrev S4x64x64 : Shape := ⟨3, ![4, 64, 64]⟩
abbrev S64x16 : Shape := ⟨2, ![64, 16]⟩
abbrev S16 : Shape := ⟨1, ![16]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S50000x4x4 : S_.BroadcastsInDim S50000x4x4 (![] : Fin 0 → Fin S50000x4x4.rank)
  reducesTo_S50000x4x4_S_d0_1_2 : S50000x4x4.ReducesTo [0, 1, 2] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg2 : IVec S2x800000 32) (main_arg12 : FVec F S16 .f32) (main_v48 : IVec S_ 1) (main_v49 : FVec F S64x16 .f32) (main_v50 : FVec F S64x16 .f32) : IVec S_ 1 :=
  let main_v51 : IVec S64x16 1 := cmpf .olt main_v49 main_v50
  let main_c_19 : IVec S_ 1 := constantI S_ 1 1#1
  let main_v52 : IVec S_ 1 := (fun x v => Host.reduce IntOp.andi x v reducesTo_S64x16_S_d0_1 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_c_22 : IVec S_ 32 := constantI S_ 32 0#32
  let main_v59 : IVec S2x800000 32 := broadcastInDim S2x800000 ![] bcast_S_S2x800000 main_c_22
  let main_v60 : IVec S2x800000 1 := cmpi .sge main_arg2 main_v59
  let main_c_23 : IVec S_ 32 := constantI S_ 32 50000#32
  let main_v61 : IVec S2x800000 32 := broadcastInDim S2x800000 ![] bcast_S_S2x800000 main_c_23
  let main_v62 : IVec S2x800000 1 := cmpi .slt main_arg2 main_v61
  let main_v63 : IVec S2x800000 1 := andi main_v60 main_v62
  let main_c_24 : IVec S_ 1 := constantI S_ 1 1#1
  let main_v64 : IVec S_ 1 := (fun x v => Host.reduce IntOp.andi x v reducesTo_S2x800000_S_d0_1 h_S_) main_v63 main_c_24
  let main_v65 : IVec S_ 1 := andi main_v58 main_v64
  main_v65

def fn_part2 {F : FTy → Type} [FloatOps F] (main_arg2 : IVec S2x800000 32) (main_arg8 : FVec F S4x64 .f32) (main_arg9 : FVec F S4x64x64 .f32) (main_arg10 : FVec F S4x64 .f32) (main_arg11 : FVec F S64x16 .f32) (main_arg12 : FVec F S16 .f32) (main_v33 : IVec S_ 1) : IVec S_ 1 :=
  let main_v34 : FVec F S4x64 .f32 := Host.absf main_arg8
  let main_cst_12 : FVec F S_ .f32 := constant S_ .f32 0x7F800000#32
  let main_v35 : FVec F S4x64 .f32 := broadcastInDim S4x64 ![] bcast_S_S4x64 main_cst_12
  let main_v36 : IVec S4x64 1 := cmpf .olt main_v34 main_v35
  let main_c_13 : IVec S_ 1 := constantI S_ 1 1#1
  let main_v37 : IVec S_ 1 := (fun x v => Host.reduce IntOp.andi x v reducesTo_S4x64_S_d0_1 h_S_) main_v36 main_c_13
  let main_v38 : IVec S_ 1 := andi main_v33 main_v37
  let main_v39 : FVec F S4x64x64 .f32 := Host.absf main_arg9
  let main_cst_14 : FVec F S_ .f32 := constant S_ .f32 0x7F800000#32
  let main_v40 : FVec F S4x64x64 .f32 := broadcastInDim S4x64x64 ![] bcast_S_S4x64x64 main_cst_14
  let main_v41 : IVec S4x64x64 1 := cmpf .olt main_v39 main_v40
  let main_c_15 : IVec S_ 1 := constantI S_ 1 1#1
  let main_v42 : IVec S_ 1 := (fun x v => Host.reduce IntOp.andi x v reducesTo_S4x64x64_S_d0_1_2 h_S_) main_v41 main_c_15
  let main_v43 : IVec S_ 1 := andi main_v38 main_v42
  let main_v44 : FVec F S4x64 .f32 := Host.absf main_arg10
  let main_cst_16 : FVec F S_ .f32 := constant S_ .f32 0x7F800000#32
  let main_v45 : FVec F S4x64 .f32 := broadcastInDim S4x64 ![] bcast_S_S4x64 main_cst_16
  let main_v46 : IVec S4x64 1 := cmpf .olt main_v44 main_v45
  let main_c_17 : IVec S_ 1 := constantI S_ 1 1#1
  let main_v47 : IVec S_ 1 := (fun x v => Host.reduce IntOp.andi x v reducesTo_S4x64_S_d0_1 h_S_) main_v46 main_c_17
  let main_v48 : IVec S_ 1 := andi main_v43 main_v47
  let main_v49 : FVec F S64x16 .f32 := Host.absf main_arg11
  let main_cst_18 : FVec F S_ .f32 := constant S_ .f32 0x7F800000#32
  let main_v50 : FVec F S64x16 .f32 := broadcastInDim S64x16 ![] bcast_S_S64x16 main_cst_18
  fn_part3 (F := F) main_arg2 main_arg12 main_v48 main_v49 main_v50

def fn_part1 {F : FTy → Type} [FloatOps F] (main_arg2 : IVec S2x800000 32) (main_arg5 : FVec F S4x128x64 .f32) (main_arg6 : FVec F S4x64 .f32) (main_arg7 : FVec F S4x64x64 .f32) (main_arg8 : FVec F S4x64 .f32) (main_arg9 : FVec F S4x64x64 .f32) (main_arg10 : FVec F S4x64 .f32) (main_arg11 : FVec F S64x16 .f32) (main_arg12 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4x128x64 .f32 := Host.absf main_arg5
  let main_cst_6 : FVec F S_ .f32 := constant S_ .f32 0x7F800000#32
  let main_v20 : FVec F S4x128x64 .f32 := broadcastInDim S4x128x64 ![] bcast_S_S4x128x64 main_cst_6
  let main_v21 : IVec S4x128x64 1 := cmpf .olt main_v19 main_v20
  let main_c_7 : IVec S_ 1 := constantI S_ 1 1#1
  let main_v22 : IVec S_ 1 := (fun x v => Host.reduce IntOp.andi x v reducesTo_S4x128x64_S_d0_1_2 h_S_) main_v21 main_c_7
  let main_v23 : IVec S_ 1 := andi main_v18 main_v22
  let main_v24 : FVec F S4x64 .f32 := Host.absf main_arg6
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S4x64x64 .f32 := Host.absf main_arg7
  let main_cst_10 : FVec F S_ .f32 := constant S_ .f32 0x7F800000#32
  let main_v30 : FVec F S4x64x64 .f32 := broadcastInDim S4x64x64 ![] bcast_S_S4x64x64 main_cst_10
  let main_v31 : IVec S4x64x64 1 := cmpf .olt main_v29 main_v30
  let main_c_11 : IVec S_ 1 := constantI S_ 1 1#1
  let main_v32 : IVec S_ 1 := (fun x v => Host.reduce IntOp.andi x v reducesTo_S4x64x64_S_d0_1_2 h_S_) main_v31 main_c_11
  let main_v33 : IVec S_ 1 := andi main_v28 main_v32
  fn_part2 (F := F) main_arg2 main_arg8 main_arg9 main_arg10 main_arg11 main_arg12 main_v33

def fn {F : FTy → Type} [FloatOps F] (main_arg0 : FVec F S50000x16 .f32) (main_arg1 : FVec F S50000x4x4 .f32) (main_arg2 : IVec S2x800000 32) (main_arg3 : FVec F S16x64 .f32) (main_arg4 : FVec F S64 .f32) (main_arg5 : FVec F S4x128x64 .f32) (main_arg6 : FVec F S4x64 .f32) (main_arg7 : FVec F S4x64x64 .f32) (main_arg8 : FVec F S4x64 .f32) (main_arg9 : FVec F S4x64x64 .f32) (main_arg10 : FVec F S4x64 .f32) (main_arg11 : FVec F S64x16 .f32) (main_arg12 : FVec F S16 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S50000x4x4 .f32 := Host.absf main_arg1
  let main_cst_0 : FVec F S_ .f32 := constant S_ .f32 0x7F800000#32
  let main_v5 : FVec F S50000x4x4 .f32 := broadcastInDim S50000x4x4 ![] bcast_S_S50000x4x4 main_cst_0
  let main_v6 : IVec S50000x4x4 1 := cmpf .olt main_v4 main_v5
  let main_c_1 : IVec S_ 1 := constantI S_ 1 1#1
  let main_v7 : IVec S_ 1 := (fun x v => Host.reduce IntOp.andi x v reducesTo_S50000x4x4_S_d0_1_2 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_arg7 main_arg8 main_arg9 main_arg10 main_arg11 main_arg12 main_v13 main_v16
-- ==== Kernel.lean ====
abbrev S50000x16 : Shape := ⟨2, ![50000, 16]⟩
abbrev S50000x4x4 : Shape := ⟨3, ![50000, 4, 4]⟩
abbrev S2x800000 : Shape := ⟨2, ![2, 800000]⟩
abbrev S16x64 : Shape := ⟨2, ![16, 64]⟩
abbrev S64 : Shape := ⟨1, ![64]⟩
abbrev S4x128x64 : Shape := ⟨3, ![4, 128, 64]⟩
abbrev S4x64 : Shape := ⟨2, ![4, 64]⟩
abbrev S4x64x64 : Shape := ⟨3, ![4, 64, 64]⟩
abbrev S64x16 : Shape := ⟨2, ![64, 16]⟩
abbrev S16 : Shape := ⟨1, ![16]⟩
abbrev S1x800000 : Shape := ⟨2, ![1, 800000]⟩
abbrev S800000 : Shape := ⟨1, ![800000]⟩
abbrev S50000x64 : Shape := ⟨2, ![50000, 64]⟩
abbrev S10000x16 : Shape := ⟨2, ![10000, 16]⟩
abbrev S10000x64 : Shape := ⟨2, ![10000, 64]⟩
abbrev S1x64 : Shape := ⟨2, ![1, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S1x128x64 : Shape := ⟨3, ![1, 128, 64]⟩
abbrev S128x64 : Shape := ⟨2, ![128, 64]⟩
abbrev S64x64 : Shape := ⟨2, ![64, 64]⟩
abbrev S1x64x64 : Shape := ⟨3, ![1, 64, 64]⟩
abbrev S8000x64 : Shape := ⟨2, ![8000, 64]⟩
abbrev S1x16 : Shape := ⟨2, ![1, 16]⟩

abbrev nBuf : Space → Nat
  | .hbm => 279
  | .vmem => 64
  | .smem => 0
  | _ => 0

abbrev hbmTy0_0 (i : Nat) : BufTy := match i % 128 with
  | 0 => ⟨S50000x16, .f32⟩
  | 1 => ⟨S50000x4x4, .f32⟩
  | 2 => ⟨S2x800000, .i32⟩
  | 3 => ⟨S16x64, .f32⟩
  | 4 => ⟨S64, .f32⟩
  | 5 => ⟨S4x128x64, .f32⟩
  | 6 => ⟨S4x64, .f32⟩
  | 7 => ⟨S4x64x64, .f32⟩
  | 8 => ⟨S4x64, .f32⟩
  | 9 => ⟨S4x64x64, .f32⟩
  | 10 => ⟨S4x64, .f32⟩
  | 11 => ⟨S64x16, .f32⟩
  | 12 => ⟨S16, .f32⟩
  | 13 => ⟨S1x800000, .i32⟩
  | 14 => ⟨S800000, .i32⟩
  | 15 => ⟨S1x800000, .i32⟩
  | 16 => ⟨S800000, .i32⟩
  | 17 => ⟨S50000x64, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S1, .i32⟩
  | 27 => ⟨S_, .i32⟩
  | 28 => ⟨S800000x1, .i32⟩
  | 29 => ⟨S800000x1, .i1⟩
  | 30 => ⟨S1x1, .i32⟩
  | 31 => ⟨S800000x1, .i32⟩
  | 32 => ⟨S800000x1, .i1⟩
  | 33 => ⟨S800000x1, .i1⟩
  | 34 => ⟨S_, .i1⟩
  | 35 => ⟨S800000, .i1⟩
  | 36 => ⟨S800000x64, .f32⟩
  | 37 => ⟨S800000x64, .i1⟩
  | 38 => ⟨S_, .f32⟩
  | 39 => ⟨S800000x64, .f32⟩
  | 40 => ⟨S800000x64, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S1, .i32⟩
  | 50 => ⟨S_, .i32⟩
  | 51 => ⟨S800000x1, .i32⟩
  | 52 => ⟨S800000x1, .i1⟩
  | 53 => ⟨S1x1, .i32⟩
  | 54 => ⟨S800000x1, .i32⟩
  | 55 => ⟨S800000x1, .i1⟩
  | 56 => ⟨S800000x1, .i1⟩
  | 57 => ⟨S_, .i1⟩
  | 58 => ⟨S800000, .i1⟩
  | 59 => ⟨S800000x64, .f32⟩
  | 60 => ⟨S800000x64, .i1⟩
  | 61 => ⟨S_, .f32⟩
  | 62 => ⟨S800000x64, .f32⟩
  | 63 => ⟨S800000x64, .f32⟩
  | 64 => ⟨S1x128x64, .f32⟩
  | 65 => ⟨S128x64, .f32⟩
  | 66 => ⟨S64x64, .f32⟩
  | 67 => ⟨S64x64, .f32⟩
  | 68 => ⟨S1x64, .f32⟩
  | 69 => ⟨S64, .f32⟩
  | 70 => ⟨S1x64x64, .f32⟩
  | 71 => ⟨S64x64, .f32⟩
  | 72 => ⟨S1x64, .f32⟩
  | 73 => ⟨S64, .f32⟩
  | 74 => ⟨S1x64x64, .f32⟩
  | 75 => ⟨S64x64, .f32⟩
  | 76 => ⟨S1x64, .f32⟩
  | 77 => ⟨S64, .f32⟩
  | 78 => ⟨S800000x64, .f32⟩
  | 79 => ⟨S_, .f32⟩
  | 80 => ⟨S50000x64, .f32⟩
  | 81 => ⟨S800000x1, .i32⟩
  | 82 => ⟨S50000x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S1, .i32⟩
  | 92 => ⟨S_, .i32⟩
  | 93 => ⟨S800000x1, .i32⟩
  | 94 => ⟨S800000x1, .i1⟩
  | 95 => ⟨S1x1, .i32⟩
  | 96 => ⟨S800000x1, .i32⟩
  | 97 => ⟨S800000x1, .i1⟩
  | 98 => ⟨S800000x1, .i1⟩
  | 99 => ⟨S_, .i1⟩
  | 100 => ⟨S800000, .i1⟩
  | 101 => ⟨S800000x64, .f32⟩
  | 102 => ⟨S800000x64, .i1⟩
  | 103 => ⟨S_, .f32⟩
  | 104 => ⟨S800000x64, .f32⟩
  | 105 => ⟨S800000x64, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S1, .i32⟩
  | 115 => ⟨S_, .i32⟩
  | 116 => ⟨S800000x1, .i32⟩
  | 117 => ⟨S800000x1, .i1⟩
  | 118 => ⟨S1x1, .i32⟩
  | 119 => ⟨S800000x1, .i32⟩
  | 120 => ⟨S800000x1, .i1⟩
  | 121 => ⟨S800000x1, .i1⟩
  | 122 => ⟨S_, .i1⟩
  | 123 => ⟨S800000, .i1⟩
  | 124 => ⟨S800000x64, .f32⟩
  | 125 => ⟨S800000x64, .i1⟩
  | 126 => ⟨S_, .f32⟩
  | 127 => ⟨S800000x64, .f32⟩
  | _ => ⟨S50000x16, .f32⟩

abbrev hbmTy0_1 (i : Nat) : BufTy := match i % 128 with
  | 0 => ⟨S800000x64, .f32⟩
  | 1 => ⟨S1x128x64, .f32⟩
  | 2 => ⟨S128x64, .f32⟩
  | 3 => ⟨S64x64, .f32⟩
  | 4 => ⟨S64x64, .f32⟩
  | 5 => ⟨S1x64, .f32⟩
  | 6 => ⟨S64, .f32⟩
  | 7 => ⟨S1x64x64, .f32⟩
  | 8 => ⟨S64x64, .f32⟩
  | 9 => ⟨S1x64, .f32⟩
  | 10 => ⟨S64, .f32⟩
  | 11 => ⟨S1x64x64, .f32⟩
  | 12 => ⟨S64x64, .f32⟩
  | 13 => ⟨S1x64, .f32⟩
  | 14 => ⟨S64, .f32⟩
  | 15 => ⟨S800000x64, .f32⟩
  | 16 => ⟨S_, .f32⟩
  | 17 => ⟨S50000x64, .f32⟩
  | 18 => ⟨S800000x1, .i32⟩
  | 19 => ⟨S50000x64, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S1, .i32⟩
  | 29 => ⟨S_, .i32⟩
  | 30 => ⟨S800000x1, .i32⟩
  | 31 => ⟨S800000x1, .i1⟩
  | 32 => ⟨S1x1, .i32⟩
  | 33 => ⟨S800000x1, .i32⟩
  | 34 => ⟨S800000x1, .i1⟩
  | 35 => ⟨S800000x1, .i1⟩
  | 36 => ⟨S_, .i1⟩
  | 37 => ⟨S800000, .i1⟩
  | 38 => ⟨S800000x64, .f32⟩
  | 39 => ⟨S800000x64, .i1⟩
  | 40 => ⟨S_, .f32⟩
  | 41 => ⟨S800000x64, .f32⟩
  | 42 => ⟨S800000x64, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S1, .i32⟩
  | 52 => ⟨S_, .i32⟩
  | 53 => ⟨S800000x1, .i32⟩
  | 54 => ⟨S800000x1, .i1⟩
  | 55 => ⟨S1x1, .i32⟩
  | 56 => ⟨S800000x1, .i32⟩
  | 57 => ⟨S800000x1, .i1⟩
  | 58 => ⟨S800000x1, .i1⟩
  | 59 => ⟨S_, .i1⟩
  | 60 => ⟨S800000, .i1⟩
  | 61 => ⟨S800000x64, .f32⟩
  | 62 => ⟨S800000x64, .i1⟩
  | 63 => ⟨S_, .f32⟩
  | 64 => ⟨S800000x64, .f32⟩
  | 65 => ⟨S800000x64, .f32⟩
  | 66 => ⟨S1x128x64, .f32⟩
  | 67 => ⟨S128x64, .f32⟩
  | 68 => ⟨S64x64, .f32⟩
  | 69 => ⟨S64x64, .f32⟩
  | 70 => ⟨S1x64, .f32⟩
  | 71 => ⟨S64, .f32⟩
  | 72 => ⟨S1x64x64, .f32⟩
  | 73 => ⟨S64x64, .f32⟩
  | 74 => ⟨S1x64, .f32⟩
  | 75 => ⟨S64, .f32⟩
  | 76 => ⟨S1x64x64, .f32⟩
  | 77 => ⟨S64x64, .f32⟩
  | 78 => ⟨S1x64, .f32⟩
  | 79 => ⟨S64, .f32⟩
  | 80 => ⟨S800000x64, .f32⟩
  | 81 => ⟨S_, .f32⟩
  | 82 => ⟨S50000x64, .f32⟩
  | 83 => ⟨S800000x1, .i32⟩
  | 84 => ⟨S50000x64, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S1, .i32⟩
  | 94 => ⟨S_, .i32⟩
  | 95 => ⟨S800000x1, .i32⟩
  | 96 => ⟨S800000x1, .i1⟩
  | 97 => ⟨S1x1, .i32⟩
  | 98 => ⟨S800000x1, .i32⟩
  | 99 => ⟨S800000x1, .i1⟩
  | 100 => ⟨S800000x1, .i1⟩
  | 101 => ⟨S_, .i1⟩
  | 102 => ⟨S800000, .i1⟩
  | 103 => ⟨S800000x64, .f32⟩
  | 104 => ⟨S800000x64, .i1⟩
  | 105 => ⟨S_, .f32⟩
  | 106 => ⟨S800000x64, .f32⟩
  | 107 => ⟨S800000x64, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S1, .i32⟩
  | 117 => ⟨S_, .i32⟩
  | 118 => ⟨S800000x1, .i32⟩
  | 119 => ⟨S800000x1, .i1⟩
  | 120 => ⟨S1x1, .i32⟩
  | 121 => ⟨S800000x1, .i32⟩
  | 122 => ⟨S800000x1, .i1⟩
  | 123 => ⟨S800000x1, .i1⟩
  | 124 => ⟨S_, .i1⟩
  | 125 => ⟨S800000, .i1⟩
  | 126 => ⟨S800000x64, .f32⟩
  | 127 => ⟨S800000x64, .i1⟩
  | _ => ⟨S50000x16, .f32⟩

abbrev hbmTy0_2 (i : Nat) : BufTy := match i % 128 with
  | 0 => ⟨S_, .f32⟩
  | 1 => ⟨S800000x64, .f32⟩
  | 2 => ⟨S800000x64, .f32⟩
  | 3 => ⟨S1x128x64, .f32⟩
  | 4 => ⟨S128x64, .f32⟩
  | 5 => ⟨S64x64, .f32⟩
  | 6 => ⟨S64x64, .f32⟩
  | 7 => ⟨S1x64, .f32⟩
  | 8 => ⟨S64, .f32⟩
  | 9 => ⟨S1x64x64, .f32⟩
  | 10 => ⟨S64x64, .f32⟩
  | 11 => ⟨S1x64, .f32⟩
  | 12 => ⟨S64, .f32⟩
  | 13 => ⟨S1x64x64, .f32⟩
  | 14 => ⟨S64x64, .f32⟩
  | 15 => ⟨S1x64, .f32⟩
  | 16 => ⟨S64, .f32⟩
  | 17 => ⟨S800000x64, .f32⟩
  | 18 => ⟨S_, .f32⟩
  | 19 => ⟨S50000x64, .f32⟩
  | 20 => ⟨S800000x1, .i32⟩
  | 21 => ⟨S50000x64, .f32⟩
  | 22 => ⟨S50000x16, .f32⟩
  | _ => ⟨S50000x16, .f32⟩

abbrev hbmTy (i : Nat) : BufTy := match i / 128 with
  | 0 => hbmTy0_0 i
  | 1 => hbmTy0_1 i
  | 2 => hbmTy0_2 i
  | _ => ⟨S50000x16, .f32⟩

abbrev bufTy : (tb : Table) → Fin (tcTables nBuf tb) → BufTy
  | .hbm, ⟨i, _⟩ => hbmTy i
  | .local _ .vmem, ⟨0, _⟩ => ⟨S10000x16, .f32⟩
  | .local _ .vmem, ⟨1, _⟩ => ⟨S10000x16, .f32⟩
  | .local _ .vmem, ⟨2, _⟩ => ⟨S16x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S8000x64, .f32⟩
  | .local _ .vmem, ⟨7, _⟩ => ⟨S8000x64, .f32⟩
  | .local _ .vmem, ⟨8, _⟩ => ⟨S8000x64, .f32⟩
  | .local _ .vmem, ⟨9, _⟩ => ⟨S8000x64, .f32⟩
  | .local _ .vmem, ⟨10, _⟩ => ⟨S64x64, .f32⟩
  | .local _ .vmem, ⟨11, _⟩ => ⟨S64x64, .f32⟩
  | .local _ .vmem, ⟨12, _⟩ => ⟨S64, .f32⟩
  | .local _ .vmem, ⟨13, _⟩ => ⟨S64x64, .f32⟩
  | .local _ .vmem, ⟨14, _⟩ => ⟨S64, .f32⟩
  | .local _ .vmem, ⟨15, _⟩ => ⟨S64x64, .f32⟩
  | .local _ .vmem, ⟨16, _⟩ => ⟨S64, .f32⟩
  | .local _ .vmem, ⟨17, _⟩ => ⟨S8000x64, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | .local _ .vmem, ⟨22, _⟩ => ⟨S8000x64, .f32⟩
  | .local _ .vmem, ⟨23, _⟩ => ⟨S64x64, .f32⟩
  | .local _ .vmem, ⟨24, _⟩ => ⟨S64x64, .f32⟩
  | .local _ .vmem, ⟨25, _⟩ => ⟨S64, .f32⟩
  | .local _ .vmem, ⟨26, _⟩ => ⟨S64x64, .f32⟩
  | .local _ .vmem, ⟨27, _⟩ => ⟨S64, .f32⟩
  | .local _ .vmem, ⟨28, _⟩ => ⟨S64x64, .f32⟩
  | .local _ .vmem, ⟨29, _⟩ => ⟨S64, .f32⟩
  | .local _ .vmem, ⟨30, _⟩ => ⟨S8000x64, .f32⟩
  | .local _ .vmem, ⟨31, _⟩ => ⟨S8000x64, .f32⟩
  | .local _ .vmem, ⟨32, _⟩ => ⟨S8000x64, .f32⟩
  | .local _ .vmem, ⟨33, _⟩ => ⟨S8000x64, .f32⟩
  | .local _ .vmem, ⟨34, _⟩ => ⟨S8000x64, .f32⟩
  | .local _ .vmem, ⟨35, _⟩ => ⟨S8000x64, .f32⟩
  | .local _ .vmem, ⟨36, _⟩ => ⟨S64x64, .f32⟩
  | .local _ .vmem, ⟨37, _⟩ => ⟨S64x64, .f32⟩
  | .local _ .vmem, ⟨38, _⟩ => ⟨S64, .f32⟩
  | .local _ .vmem, ⟨39, _⟩ => ⟨S64x64, .f32⟩
  | .local _ .vmem, ⟨40, _⟩ => ⟨S64, .f32⟩
  | .local _ .vmem, ⟨41, _⟩ => ⟨S64x64, .f32⟩
  | .local _ .vmem, ⟨42, _⟩ => ⟨S64, .f32⟩
  | .local _ .vmem, ⟨43, _⟩ => ⟨S8000x64, .f32⟩
  | .local _ .vmem, ⟨44, _⟩ => ⟨S8000x64, .f32⟩
  | .local _ .vmem, ⟨45, _⟩ => ⟨S8000x64, .f32⟩
  | .local _ .vmem, ⟨46, _⟩ => ⟨S8000x64, .f32⟩
  | .local _ .vmem, ⟨47, _⟩ => ⟨S8000x64, .f32⟩
  | .local _ .vmem, ⟨48, _⟩ => ⟨S8000x64, .f32⟩
  | .local _ .vmem, ⟨49, _⟩ => ⟨S64x64, .f32⟩
  | .local _ .vmem, ⟨50, _⟩ => ⟨S64x64, .f32⟩
  | .local _ .vmem, ⟨51, _⟩ => ⟨S64, .f32⟩
  | .local _ .vmem, ⟨52, _⟩ => ⟨S64x64, .f32⟩
  | .local _ .vmem, ⟨53, _⟩ => ⟨S64, .f32⟩
  | .local _ .vmem, ⟨54, _⟩ => ⟨S64x64, .f32⟩
  | .local _ .vmem, ⟨55, _⟩ => ⟨S64, .f32⟩
  | .local _ .vmem, ⟨56, _⟩ => ⟨S8000x64, .f32⟩
  | .local _ .vmem, ⟨57, _⟩ => ⟨S8000x64, .f32⟩
  | .local _ .vmem, ⟨58, _⟩ => ⟨S10000x64, .f32⟩
  | .local _ .vmem, ⟨59, _⟩ => ⟨S10000x64, .f32⟩
  | .local _ .vmem, ⟨60, _⟩ => ⟨S64x16, .f32⟩
  | .local _ .vmem, ⟨61, _⟩ => ⟨S16, .f32⟩
  | .local _ .vmem, ⟨62, _⟩ => ⟨S10000x16, .f32⟩
  | .local _ .vmem, ⟨63, _⟩ => ⟨S10000x16, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v5 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_cst : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_call2_c : Ref sig .tc := ⟨.hbm, 83, rfl⟩
abbrev main_call2_v0 : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_c_1 : Ref sig .tc := ⟨.hbm, 91, rfl⟩
abbrev main_call2_c_2 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_3 : Ref sig .tc := ⟨.hbm, 99, rfl⟩
abbrev main_call2_v12 : Ref sig .tc := ⟨.hbm, 100, rfl⟩
abbrev main_call2_v13 : Ref sig .tc := ⟨.hbm, 101, rfl⟩
abbrev main_call2_v14 : Ref sig .tc := ⟨.hbm, 102, rfl⟩
abbrev main_call2_cst : Ref sig .tc := ⟨.hbm, 103, rfl⟩
abbrev main_call2_v15 : Ref sig .tc := ⟨.hbm, 104, rfl⟩
abbrev main_v25 : Ref sig .tc := ⟨.hbm, 105, rfl⟩
abbrev main_call3_c : Ref sig .tc := ⟨.hbm, 106, rfl⟩
abbrev main_call3_v0 : Ref sig .tc := ⟨.hbm, 107, rfl⟩
abbrev main_call3_v1 : Ref sig .tc := ⟨.hbm, 108, rfl⟩
abbrev main_call3_c_0 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_c_1 : Ref sig .tc := ⟨.hbm, 114, rfl⟩
abbrev main_call3_c_2 : Ref sig .tc := ⟨.hbm, 115, rfl⟩
abbrev main_call3_v6 : Ref sig .tc := ⟨.hbm, 116, rfl⟩
abbrev main_call3_v7 : Ref sig .tc := ⟨.hbm, 117, rfl⟩
abbrev main_call3_v8 : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_c_3 : Ref sig .tc := ⟨.hbm, 122, rfl⟩
abbrev main_call3_v12 : Ref sig .tc := ⟨.hbm, 123, rfl⟩
abbrev main_call3_v13 : Ref sig .tc := ⟨.hbm, 124, rfl⟩
abbrev main_call3_v14 : Ref sig .tc := ⟨.hbm, 125, rfl⟩
abbrev main_call3_cst : Ref sig .tc := ⟨.hbm, 126, rfl⟩
abbrev main_call3_v15 : Ref sig .tc := ⟨.hbm, 127, rfl⟩
abbrev main_v26 : Ref sig .tc := ⟨.hbm, 128, rfl⟩
abbrev main_v27 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev main_v35 : Ref sig .tc := ⟨.hbm, 137, rfl⟩
abbrev main_v36 : Ref sig .tc := ⟨.hbm, 138, rfl⟩
abbrev main_v37 : Ref sig .tc := ⟨.hbm, 139, rfl⟩
abbrev main_v38 : Ref sig .tc := ⟨.hbm, 140, rfl⟩
abbrev main_v39 : Ref sig .tc := ⟨.hbm, 141, rfl⟩
abbrev main_v40 : Ref sig .tc := ⟨.hbm, 142, rfl⟩
abbrev main_v41 : Ref sig .tc := ⟨.hbm, 143, rfl⟩
abbrev main_cst_0 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_call4_c : Ref sig .tc := ⟨.hbm, 148, rfl⟩
abbrev main_call4_v0 : Ref sig .tc := ⟨.hbm, 149, rfl⟩
abbrev main_call4_v1 : Ref sig .tc := ⟨.hbm, 150, rfl⟩
abbrev main_call4_c_0 : Ref sig .tc := ⟨.hbm, 151, rfl⟩
abbrev main_call4_v2 : Ref sig .tc := ⟨.hbm, 152, rfl⟩
abbrev main_call4_v3 : Ref sig .tc := ⟨.hbm, 153, rfl⟩
abbrev main_call4_v4 : Ref sig .tc := ⟨.hbm, 154, rfl⟩
abbrev main_call4_v5 : Ref sig .tc := ⟨.hbm, 155, rfl⟩
abbrev main_call4_c_1 : Ref sig .tc := ⟨.hbm, 156, rfl⟩
abbrev main_call4_c_2 : Ref sig .tc := ⟨.hbm, 157, rfl⟩
abbrev main_call4_v6 : Ref sig .tc := ⟨.hbm, 158, rfl⟩
abbrev main_call4_v7 : Ref sig .tc := ⟨.hbm, 159, rfl⟩
abbrev main_call4_v8 : Ref sig .tc := ⟨.hbm, 160, rfl⟩
abbrev main_call4_v9 : Ref sig .tc := ⟨.hbm, 161, rfl⟩
abbrev main_call4_v10 : Ref sig .tc := ⟨.hbm, 162, rfl⟩
abbrev main_call4_v11 : Ref sig .tc := ⟨.hbm, 163, rfl⟩
abbrev main_call4_c_3 : Ref sig .tc := ⟨.hbm, 164, rfl⟩
abbrev main_call4_v12 : Ref sig .tc := ⟨.hbm, 165, rfl⟩
abbrev main_call4_v13 : Ref sig .tc := ⟨.hbm, 166, rfl⟩
abbrev main_call4_v14 : Ref sig .tc := ⟨.hbm, 167, rfl⟩
abbrev main_call4_cst : Ref sig .tc := ⟨.hbm, 168, rfl⟩
abbrev main_call4_v15 : Ref sig .tc := ⟨.hbm, 169, rfl⟩
abbrev main_v45 : Ref sig .tc := ⟨.hbm, 170, rfl⟩
abbrev main_call5_c : Ref sig .tc := ⟨.hbm, 171, rfl⟩
abbrev main_call5_v0 : Ref sig .tc := ⟨.hbm, 172, rfl⟩
abbrev main_call5_v1 : Ref sig .tc := ⟨.hbm, 173, rfl⟩
abbrev main_call5_c_0 : Ref sig .tc := ⟨.hbm, 174, rfl⟩
abbrev main_call5_v2 : Ref sig .tc := ⟨.hbm, 175, rfl⟩
abbrev main_call5_v3 : Ref sig .tc := ⟨.hbm, 176, rfl⟩
abbrev main_call5_v4 : Ref sig .tc := ⟨.hbm, 177, rfl⟩
abbrev main_call5_v5 : Ref sig .tc := ⟨.hbm, 178, rfl⟩
abbrev main_call5_c_1 : Ref sig .tc := ⟨.hbm, 179, rfl⟩
abbrev main_call5_c_2 : Ref sig .tc := ⟨.hbm, 180, rfl⟩
abbrev main_call5_v6 : Ref sig .tc := ⟨.hbm, 181, rfl⟩
abbrev main_call5_v7 : Ref sig .tc := ⟨.hbm, 182, rfl⟩
abbrev main_call5_v8 : Ref sig .tc := ⟨.hbm, 183, rfl⟩
abbrev main_call5_v9 : Ref sig .tc := ⟨.hbm, 184, rfl⟩
abbrev main_call5_v10 : Ref sig .tc := ⟨.hbm, 185, rfl⟩
abbrev main_call5_v11 : Ref sig .tc := ⟨.hbm, 186, rfl⟩
abbrev main_call5_c_3 : Ref sig .tc := ⟨.hbm, 187, rfl⟩
abbrev main_call5_v12 : Ref sig .tc := ⟨.hbm, 188, rfl⟩
abbrev main_call5_v13 : Ref sig .tc := ⟨.hbm, 189, rfl⟩
abbrev main_call5_v14 : Ref sig .tc := ⟨.hbm, 190, rfl⟩
abbrev main_call5_cst : Ref sig .tc := ⟨.hbm, 191, rfl⟩
abbrev main_call5_v15 : Ref sig .tc := ⟨.hbm, 192, rfl⟩
abbrev main_v46 : Ref sig .tc := ⟨.hbm, 193, rfl⟩
abbrev main_v47 : Ref sig .tc := ⟨.hbm, 194, rfl⟩
abbrev main_v48 : Ref sig .tc := ⟨.hbm, 195, rfl⟩
abbrev main_v49 : Ref sig .tc := ⟨.hbm, 196, rfl⟩
abbrev main_v50 : Ref sig .tc := ⟨.hbm, 197, rfl⟩
abbrev main_v51 : Ref sig .tc := ⟨.hbm, 198, rfl⟩
abbrev main_v52 : Ref sig .tc := ⟨.hbm, 199, rfl⟩
abbrev main_v53 : Ref sig .tc := ⟨.hbm, 200, rfl⟩
abbrev main_v54 : Ref sig .tc := ⟨.hbm, 201, rfl⟩
abbrev main_v55 : Ref sig .tc := ⟨.hbm, 202, rfl⟩
abbrev main_v56 : Ref sig .tc := ⟨.hbm, 203, rfl⟩
abbrev main_v57 : Ref sig .tc := ⟨.hbm, 204, rfl⟩
abbrev main_v58 : Ref sig .tc := ⟨.hbm, 205, rfl⟩
abbrev main_v59 : Ref sig .tc := ⟨.hbm, 206, rfl⟩
abbrev main_v60 : Ref sig .tc := ⟨.hbm, 207, rfl⟩
abbrev main_v61 : Ref sig .tc := ⟨.hbm, 208, rfl⟩
abbrev main_cst_1 : Ref sig .tc := ⟨.hbm, 209, rfl⟩
abbrev main_v62 : Ref sig .tc := ⟨.hbm, 210, rfl⟩
abbrev main_v63 : Ref sig .tc := ⟨.hbm, 211, rfl⟩
abbrev main_v64 : Ref sig .tc := ⟨.hbm, 212, rfl⟩
abbrev main_call6_c : Ref sig .tc := ⟨.hbm, 213, rfl⟩
abbrev main_call6_v0 : Ref sig .tc := ⟨.hbm, 214, rfl⟩
abbrev main_call6_v1 : Ref sig .tc := ⟨.hbm, 215, rfl⟩
abbrev main_call6_c_0 : Ref sig .tc := ⟨.hbm, 216, rfl⟩
abbrev main_call6_v2 : Ref sig .tc := ⟨.hbm, 217, rfl⟩
abbrev main_call6_v3 : Ref sig .tc := ⟨.hbm, 218, rfl⟩
abbrev main_call6_v4 : Ref sig .tc := ⟨.hbm, 219, rfl⟩
abbrev main_call6_v5 : Ref sig .tc := ⟨.hbm, 220, rfl⟩
abbrev main_call6_c_1 : Ref sig .tc := ⟨.hbm, 221, rfl⟩
abbrev main_call6_c_2 : Ref sig .tc := ⟨.hbm, 222, rfl⟩
abbrev main_call6_v6 : Ref sig .tc := ⟨.hbm, 223, rfl⟩
abbrev main_call6_v7 : Ref sig .tc := ⟨.hbm, 224, rfl⟩
abbrev main_call6_v8 : Ref sig .tc := ⟨.hbm, 225, rfl⟩
abbrev main_call6_v9 : Ref sig .tc := ⟨.hbm, 226, rfl⟩
abbrev main_call6_v10 : Ref sig .tc := ⟨.hbm, 227, rfl⟩
abbrev main_call6_v11 : Ref sig .tc := ⟨.hbm, 228, rfl⟩
abbrev main_call6_c_3 : Ref sig .tc := ⟨.hbm, 229, rfl⟩
abbrev main_call6_v12 : Ref sig .tc := ⟨.hbm, 230, rfl⟩
abbrev main_call6_v13 : Ref sig .tc := ⟨.hbm, 231, rfl⟩
abbrev main_call6_v14 : Ref sig .tc := ⟨.hbm, 232, rfl⟩
abbrev main_call6_cst : Ref sig .tc := ⟨.hbm, 233, rfl⟩
abbrev main_call6_v15 : Ref sig .tc := ⟨.hbm, 234, rfl⟩
abbrev main_v65 : Ref sig .tc := ⟨.hbm, 235, rfl⟩
abbrev main_call7_c : Ref sig .tc := ⟨.hbm, 236, rfl⟩
abbrev main_call7_v0 : Ref sig .tc := ⟨.hbm, 237, rfl⟩
abbrev main_call7_v1 : Ref sig .tc := ⟨.hbm, 238, rfl⟩
abbrev main_call7_c_0 : Ref sig .tc := ⟨.hbm, 239, rfl⟩
abbrev main_call7_v2 : Ref sig .tc := ⟨.hbm, 240, rfl⟩
abbrev main_call7_v3 : Ref sig .tc := ⟨.hbm, 241, rfl⟩
abbrev main_call7_v4 : Ref sig .tc := ⟨.hbm, 242, rfl⟩
abbrev main_call7_v5 : Ref sig .tc := ⟨.hbm, 243, rfl⟩
abbrev main_call7_c_1 : Ref sig .tc := ⟨.hbm, 244, rfl⟩
abbrev main_call7_c_2 : Ref sig .tc := ⟨.hbm, 245, rfl⟩
abbrev main_call7_v6 : Ref sig .tc := ⟨.hbm, 246, rfl⟩
abbrev main_call7_v7 : Ref sig .tc := ⟨.hbm, 247, rfl⟩
abbrev main_call7_v8 : Ref sig .tc := ⟨.hbm, 248, rfl⟩
abbrev main_call7_v9 : Ref sig .tc := ⟨.hbm, 249, rfl⟩
abbrev main_call7_v10 : Ref sig .tc := ⟨.hbm, 250, rfl⟩
abbrev main_call7_v11 : Ref sig .tc := ⟨.hbm, 251, rfl⟩
abbrev main_call7_c_3 : Ref sig .tc := ⟨.hbm, 252, rfl⟩
abbrev main_call7_v12 : Ref sig .tc := ⟨.hbm, 253, rfl⟩
abbrev main_call7_v13 : Ref sig .tc := ⟨.hbm, 254, rfl⟩
abbrev main_call7_v14 : Ref sig .tc := ⟨.hbm, 255, rfl⟩
abbrev main_call7_cst : Ref sig .tc := ⟨.hbm, 256, rfl⟩
abbrev main_call7_v15 : Ref sig .tc := ⟨.hbm, 257, rfl⟩
abbrev main_v66 : Ref sig .tc := ⟨.hbm, 258, rfl⟩
abbrev main_v67 : Ref sig .tc := ⟨.hbm, 259, rfl⟩
abbrev main_v68 : Ref sig .tc := ⟨.hbm, 260, rfl⟩
abbrev main_v69 : Ref sig .tc := ⟨.hbm, 261, rfl⟩
abbrev main_v70 : Ref sig .tc := ⟨.hbm, 262, rfl⟩
abbrev main_v71 : Ref sig .tc := ⟨.hbm, 263, rfl⟩
abbrev main_v72 : Ref sig .tc := ⟨.hbm, 264, rfl⟩
abbrev main_v73 : Ref sig .tc := ⟨.hbm, 265, rfl⟩
abbrev main_v74 : Ref sig .tc := ⟨.hbm, 266, rfl⟩
abbrev main_v75 : Ref sig .tc := ⟨.hbm, 267, rfl⟩
abbrev main_v76 : Ref sig .tc := ⟨.hbm, 268, rfl⟩
abbrev main_v77 : Ref sig .tc := ⟨.hbm, 269, rfl⟩
abbrev main_v78 : Ref sig .tc := ⟨.hbm, 270, rfl⟩
abbrev main_v79 : Ref sig .tc := ⟨.hbm, 271, rfl⟩
abbrev main_v80 : Ref sig .tc := ⟨.hbm, 272, rfl⟩
abbrev main_v81 : Ref sig .tc := ⟨.hbm, 273, rfl⟩
abbrev main_cst_2 : Ref sig .tc := ⟨.hbm, 274, rfl⟩
abbrev main_v82 : Ref sig .tc := ⟨.hbm, 275, rfl⟩
abbrev main_v83 : Ref sig .tc := ⟨.hbm, 276, rfl⟩
abbrev main_v84 : Ref sig .tc := ⟨.hbm, 277, rfl⟩
abbrev main_v85 : Ref sig .tc := ⟨.hbm, 278, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg9_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg9_0 : Ref sig .tc := ⟨.vmem, 43, rfl⟩
abbrev cc3_stg9_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg1_1 : Ref sig .tc := ⟨.vmem, 48, rfl⟩
abbrev cc4_stg2_0 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg7_0 : Ref sig .tc := ⟨.vmem, 54, rfl⟩
abbrev cc4_stg8_0 : Ref sig .tc := ⟨.vmem, 55, rfl⟩
abbrev cc4_stg9_0 : Ref sig .tc := ⟨.vmem, 56, rfl⟩
abbrev cc4_stg9_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg3_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem9_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem9_0 : DmaSem sig := 43
abbrev cc3_sem9_1 : DmaSem sig := 44
abbrev cc4_sem0_0 : DmaSem sig := 45
abbrev cc4_sem0_1 : DmaSem sig := 46
abbrev cc4_sem1_0 : DmaSem sig := 47
abbrev cc4_sem1_1 : DmaSem sig := 48
abbrev cc4_sem2_0 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem7_0 : DmaSem sig := 54
abbrev cc4_sem8_0 : DmaSem sig := 55
abbrev cc4_sem9_0 : DmaSem sig := 56
abbrev cc4_sem9_1 : DmaSem sig := 57
abbrev cc5_sem0_0 : DmaSem sig := 58
abbrev cc5_sem0_1 : DmaSem sig := 59
abbrev cc5_sem1_0 : DmaSem sig := 60
abbrev cc5_sem2_0 : DmaSem sig := 61
abbrev cc5_sem3_0 : DmaSem sig := 62
abbrev cc5_sem3_1 : DmaSem sig := 63

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S8000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S8000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S8000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S8000x64 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S4x128x64_S1x128x64_0_0_0 : S4x128x64.Slices ![0, 0, 0] S1x128x64
  shapeCasts_S1x128x64_S128x64 : S1x128x64.ShapeCasts S128x64
  slices_S128x64_S64x64_0_0 : S128x64.Slices ![0, 0] S64x64
  slices_S128x64_S64x64_64_0 : S128x64.Slices ![64, 0] S64x64
  slices_S4x64_S1x64_0_0 : S4x64.Slices ![0, 0] S1x64
  shapeCasts_S1x64_S64 : S1x64.ShapeCasts S64
  slices_S4x64x64_S1x64x64_0_0_0 : S4x64x64.Slices ![0, 0, 0] S1x64x64
  shapeCasts_S1x64x64_S64x64 : S1x64x64.ShapeCasts S64x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64_S64 : S64.ShapeCasts S64
  broadcasts_S1x64_S8000x64 : S1x64.Broadcasts S8000x64
  bcast_S_S50000x64 : S_.BroadcastsInDim S50000x64 (![] : Fin 0 → Fin S50000x64.rank)
  slices_S4x128x64_S1x128x64_1_0_0 : S4x128x64.Slices ![1, 0, 0] S1x128x64
  slices_S4x64_S1x64_1_0 : S4x64.Slices ![1, 0] S1x64
  slices_S4x64x64_S1x64x64_1_0_0 : S4x64x64.Slices ![1, 0, 0] S1x64x64
  slices_S4x128x64_S1x128x64_2_0_0 : S4x128x64.Slices ![2, 0, 0] S1x128x64
  slices_S4x64_S1x64_2_0 : S4x64.Slices ![2, 0] S1x64
  slices_S4x64x64_S1x64x64_2_0_0 : S4x64x64.Slices ![2, 0, 0] S1x64x64
  slices_S4x128x64_S1x128x64_3_0_0 : S4x128x64.Slices ![3, 0, 0] S1x128x64
  slices_S4x64_S1x64_3_0 : S4x64.Slices ![3, 0] S1x64
  slices_S4x64x64_S1x64x64_3_0_0 : S4x64x64.Slices ![3, 0, 0] S1x64x64
  shapeCasts_S10000x64_S10000x64 : S10000x64.ShapeCasts S10000x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  dot_S10000x16_S16x64_S10000x64_1_0_0_1_n_n_wf : DotDims.WF S10000x16 S16x64 S10000x64 [1] [0] [0] [1] [] []
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S50000x16.size a
  hwx0_0 : ∀ i : grid0.Coords, EltTy.bits .f32 = 32 ∨ (Rect.block (s := S50000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .f32 = 32 ∨ (Rect.block (s := S800000x64) S8000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8000x64.size a ≤ S800000x64.size a
  hwx1_9 : ∀ i : grid1.Coords, EltTy.bits .f32 = 32 ∨ (Rect.block (s := S800000x64) S8000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S800000x64.size a
  hwx2_0 : ∀ i : grid2.Coords, EltTy.bits .f32 = 32 ∨ (Rect.block (s := S800000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S800000x64.size a
  hwx2_1 : ∀ i : grid2.Coords, EltTy.bits .f32 = 32 ∨ (Rect.block (s := S800000x64) S8000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64.size a ≤ S64.size a
  hwx2_8 : ∀ i : grid2.Coords, EltTy.bits .f32 = 32 ∨ (Rect.block (s := S64) S64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S8000x64.size a ≤ S800000x64.size a
  hwx2_9 : ∀ i : grid2.Coords, EltTy.bits .f32 = 32 ∨ (Rect.block (s := S800000x64) S8000x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S800000x64.size a
  hwx3_0 : ∀ i : grid3.Coords, EltTy.bits .f32 = 32 ∨ (Rect.block (s := S800000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S800000x64.size a
  hwx3_1 : ∀ i : grid3.Coords, EltTy.bits .f32 = 32 ∨ (Rect.block (s := S800000x64) S8000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64.size a ≤ S64.size a
  hwx3_8 : ∀ i : grid3.Coords, EltTy.bits .f32 = 32 ∨ (Rect.block (s := S64) S64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S8000x64.size a ≤ S800000x64.size a
  hwx3_9 : ∀ i : grid3.Coords, EltTy.bits .f32 = 32 ∨ (Rect.block (s := S800000x64) S8000x64.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S800000x64.size a
  hwx4_0 : ∀ i : grid4.Coords, EltTy.bits .f32 = 32 ∨ (Rect.block (s := S800000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x64.size a ≤ S800000x64.size a
  hwx4_1 : ∀ i : grid4.Coords, EltTy.bits .f32 = 32 ∨ (Rect.block (s := S800000x64) S8000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64.size a ≤ S64.size a
  hwx4_6 : ∀ i : grid4.Coords, EltTy.bits .f32 = 32 ∨ (Rect.block (s := S64) S64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x64.size a ≤ S64x64.size a
  hwx4_7 : ∀ i : grid4.Coords, EltTy.bits .f32 = 32 ∨ (Rect.block (s := S64x64) S64x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64.size a ≤ S64.size a
  hwx4_8 : ∀ i : grid4.Coords, EltTy.bits .f32 = 32 ∨ (Rect.block (s := S64) S64.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S8000x64.size a ≤ S800000x64.size a
  hwx4_9 : ∀ i : grid4.Coords, EltTy.bits .f32 = 32 ∨ (Rect.block (s := S800000x64) S8000x64.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x16.size a ≤ S64x16.size a
  hwx5_1 : ∀ i : grid5.Coords, EltTy.bits .f32 = 32 ∨ (Rect.block (s := S64x16) S64x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S16.size a ≤ S16.size a
  hwx5_2 : ∀ i : grid5.Coords, EltTy.bits .f32 = 32 ∨ (Rect.block (s := S16) S16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x16.size a ≤ S50000x16.size a
  hwx5_3 : ∀ i : grid5.Coords, EltTy.bits .f32 = 32 ∨ (Rect.block (s := S50000x16) S10000x16.size (cc5_transform_3 i) (hinb5_3 i)).WholeWords (EltTy.packing .f32)

variable [Facts₀]

def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21) S8000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v25) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v38) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v40) S64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v41) S8000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v45) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v56) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v58) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v60) S64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v61) S8000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v65) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S8000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v69) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v74) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v76) S64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v78) S64x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v80) S64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v81) S8000x64.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v84) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S64x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S10000x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x16 : Shape := ⟨2, ![50000, 16]⟩
abbrev S50000x4x4 : Shape := ⟨3, ![50000, 4, 4]⟩
abbrev S2x800000 : Shape := ⟨2, ![2, 800000]⟩
abbrev S16x64 : Shape := ⟨2, ![16, 64]⟩
abbrev S64 : Shape := ⟨1, ![64]⟩
abbrev S4x128x64 : Shape := ⟨3, ![4, 128, 64]⟩
abbrev S4x64 : Shape := ⟨2, ![4, 64]⟩
abbrev S4x64x64 : Shape := ⟨3, ![4, 64, 64]⟩
abbrev S64x16 : Shape := ⟨2, ![64, 16]⟩
abbrev S16 : Shape := ⟨1, ![16]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x128x64 : Shape := ⟨3, ![1, 128, 64]⟩
abbrev S128x64 : Shape := ⟨2, ![128, 64]⟩
abbrev S1x64x64 : Shape := ⟨3, ![1, 64, 64]⟩
abbrev S64x64 : Shape := ⟨2, ![64, 64]⟩
abbrev S1x16 : Shape := ⟨2, ![1, 16]⟩

abbrev nBuf : Space → Nat
  | .hbm => 237
  | .vmem => 0
  | .smem => 0
  | _ => 0

abbrev hbmTy0_0 (i : Nat) : BufTy := match i % 128 with
  | 0 => ⟨S50000x16, .f32⟩
  | 1 => ⟨S50000x4x4, .f32⟩
  | 2 => ⟨S2x800000, .i32⟩
  | 3 => ⟨S16x64, .f32⟩
  | 4 => ⟨S64, .f32⟩
  | 5 => ⟨S4x128x64, .f32⟩
  | 6 => ⟨S4x64, .f32⟩
  | 7 => ⟨S4x64x64, .f32⟩
  | 8 => ⟨S4x64, .f32⟩
  | 9 => ⟨S4x64x64, .f32⟩
  | 10 => ⟨S4x64, .f32⟩
  | 11 => ⟨S64x16, .f32⟩
  | 12 => ⟨S16, .f32⟩
  | 13 => ⟨S1x800000, .i32⟩
  | 14 => ⟨S800000, .i32⟩
  | 15 => ⟨S1x800000, .i32⟩
  | 16 => ⟨S800000, .i32⟩
  | 17 => ⟨S50000x64, .f32⟩
  | 18 => ⟨S1x64, .f32⟩
  | 19 => ⟨S50000x64, .f32⟩
  | 20 => ⟨S50000x64, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S800000x128, .f32⟩
  | 40 => ⟨S1x128x64, .f32⟩
  | 41 => ⟨S128x64, .f32⟩
  | 42 => ⟨S800000x64, .f32⟩
  | 43 => ⟨S1x64, .f32⟩
  | 44 => ⟨S64, .f32⟩
  | 45 => ⟨S1x64, .f32⟩
  | 46 => ⟨S800000x64, .f32⟩
  | 47 => ⟨S800000x64, .f32⟩
  | 48 => ⟨S_, .f32⟩
  | 49 => ⟨S800000x64, .f32⟩
  | 50 => ⟨S800000x64, .f32⟩
  | 51 => ⟨S1x64x64, .f32⟩
  | 52 => ⟨S64x64, .f32⟩
  | 53 => ⟨S800000x64, .f32⟩
  | 54 => ⟨S1x64, .f32⟩
  | 55 => ⟨S64, .f32⟩
  | 56 => ⟨S1x64, .f32⟩
  | 57 => ⟨S800000x64, .f32⟩
  | 58 => ⟨S800000x64, .f32⟩
  | 59 => ⟨S_, .f32⟩
  | 60 => ⟨S800000x64, .f32⟩
  | 61 => ⟨S800000x64, .f32⟩
  | 62 => ⟨S1x64x64, .f32⟩
  | 63 => ⟨S64x64, .f32⟩
  | 64 => ⟨S800000x64, .f32⟩
  | 65 => ⟨S1x64, .f32⟩
  | 66 => ⟨S64, .f32⟩
  | 67 => ⟨S1x64, .f32⟩
  | 68 => ⟨S800000x64, .f32⟩
  | 69 => ⟨S800000x64, .f32⟩
  | 70 => ⟨S_, .f32⟩
  | 71 => ⟨S50000x64, .f32⟩
  | 72 => ⟨S800000x1, .i32⟩
  | 73 => ⟨S50000x64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x64, .f32⟩
  | 92 => ⟨S800000x128, .f32⟩
  | 93 => ⟨S1x128x64, .f32⟩
  | 94 => ⟨S128x64, .f32⟩
  | 95 => ⟨S800000x64, .f32⟩
  | 96 => ⟨S1x64, .f32⟩
  | 97 => ⟨S64, .f32⟩
  | 98 => ⟨S1x64, .f32⟩
  | 99 => ⟨S800000x64, .f32⟩
  | 100 => ⟨S800000x64, .f32⟩
  | 101 => ⟨S_, .f32⟩
  | 102 => ⟨S800000x64, .f32⟩
  | 103 => ⟨S800000x64, .f32⟩
  | 104 => ⟨S1x64x64, .f32⟩
  | 105 => ⟨S64x64, .f32⟩
  | 106 => ⟨S800000x64, .f32⟩
  | 107 => ⟨S1x64, .f32⟩
  | 108 => ⟨S64, .f32⟩
  | 109 => ⟨S1x64, .f32⟩
  | 110 => ⟨S800000x64, .f32⟩
  | 111 => ⟨S800000x64, .f32⟩
  | 112 => ⟨S_, .f32⟩
  | 113 => ⟨S800000x64, .f32⟩
  | 114 => ⟨S800000x64, .f32⟩
  | 115 => ⟨S1x64x64, .f32⟩
  | 116 => ⟨S64x64, .f32⟩
  | 117 => ⟨S800000x64, .f32⟩
  | 118 => ⟨S1x64, .f32⟩
  | 119 => ⟨S64, .f32⟩
  | 120 => ⟨S1x64, .f32⟩
  | 121 => ⟨S800000x64, .f32⟩
  | 122 => ⟨S800000x64, .f32⟩
  | 123 => ⟨S_, .f32⟩
  | 124 => ⟨S50000x64, .f32⟩
  | 125 => ⟨S800000x1, .i32⟩
  | 126 => ⟨S50000x64, .f32⟩
  | 127 => ⟨S_, .i32⟩
  | _ => ⟨S50000x16, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x64, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x64, .f32⟩
  | 17 => ⟨S800000x128, .f32⟩
  | 18 => ⟨S1x128x64, .f32⟩
  | 19 => ⟨S128x64, .f32⟩
  | 20 => ⟨S800000x64, .f32⟩
  | 21 => ⟨S1x64, .f32⟩
  | 22 => ⟨S64, .f32⟩
  | 23 => ⟨S1x64, .f32⟩
  | 24 => ⟨S800000x64, .f32⟩
  | 25 => ⟨S800000x64, .f32⟩
  | 26 => ⟨S_, .f32⟩
  | 27 => ⟨S800000x64, .f32⟩
  | 28 => ⟨S800000x64, .f32⟩
  | 29 => ⟨S1x64x64, .f32⟩
  | 30 => ⟨S64x64, .f32⟩
  | 31 => ⟨S800000x64, .f32⟩
  | 32 => ⟨S1x64, .f32⟩
  | 33 => ⟨S64, .f32⟩
  | 34 => ⟨S1x64, .f32⟩
  | 35 => ⟨S800000x64, .f32⟩
  | 36 => ⟨S800000x64, .f32⟩
  | 37 => ⟨S_, .f32⟩
  | 38 => ⟨S800000x64, .f32⟩
  | 39 => ⟨S800000x64, .f32⟩
  | 40 => ⟨S1x64x64, .f32⟩
  | 41 => ⟨S64x64, .f32⟩
  | 42 => ⟨S800000x64, .f32⟩
  | 43 => ⟨S1x64, .f32⟩
  | 44 => ⟨S64, .f32⟩
  | 45 => ⟨S1x64, .f32⟩
  | 46 => ⟨S800000x64, .f32⟩
  | 47 => ⟨S800000x64, .f32⟩
  | 48 => ⟨S_, .f32⟩
  | 49 => ⟨S50000x64, .f32⟩
  | 50 => ⟨S800000x1, .i32⟩
  | 51 => ⟨S50000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x64, .f32⟩
  | 70 => ⟨S800000x128, .f32⟩
  | 71 => ⟨S1x128x64, .f32⟩
  | 72 => ⟨S128x64, .f32⟩
  | 73 => ⟨S800000x64, .f32⟩
  | 74 => ⟨S1x64, .f32⟩
  | 75 => ⟨S64, .f32⟩
  | 76 => ⟨S1x64, .f32⟩
  | 77 => ⟨S800000x64, .f32⟩
  | 78 => ⟨S800000x64, .f32⟩
  | 79 => ⟨S_, .f32⟩
  | 80 => ⟨S800000x64, .f32⟩
  | 81 => ⟨S800000x64, .f32⟩
  | 82 => ⟨S1x64x64, .f32⟩
  | 83 => ⟨S64x64, .f32⟩
  | 84 => ⟨S800000x64, .f32⟩
  | 85 => ⟨S1x64, .f32⟩
  | 86 => ⟨S64, .f32⟩
  | 87 => ⟨S1x64, .f32⟩
  | 88 => ⟨S800000x64, .f32⟩
  | 89 => ⟨S800000x64, .f32⟩
  | 90 => ⟨S_, .f32⟩
  | 91 => ⟨S800000x64, .f32⟩
  | 92 => ⟨S800000x64, .f32⟩
  | 93 => ⟨S1x64x64, .f32⟩
  | 94 => ⟨S64x64, .f32⟩
  | 95 => ⟨S800000x64, .f32⟩
  | 96 => ⟨S1x64, .f32⟩
  | 97 => ⟨S64, .f32⟩
  | 98 => ⟨S1x64, .f32⟩
  | 99 => ⟨S800000x64, .f32⟩
  | 100 => ⟨S800000x64, .f32⟩
  | 101 => ⟨S_, .f32⟩
  | 102 => ⟨S50000x64, .f32⟩
  | 103 => ⟨S800000x1, .i32⟩
  | 104 => ⟨S50000x64, .f32⟩
  | 105 => ⟨S50000x16, .f32⟩
  | 106 => ⟨S1x16, .f32⟩
  | 107 => ⟨S50000x16, .f32⟩
  | 108 => ⟨S50000x16, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call1_cst : Ref sig .tc := ⟨.hbm, 59, rfl⟩
abbrev main_call1_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_3 : Ref sig .tc := ⟨.hbm, 74, rfl⟩
abbrev main_v52 : Ref sig .tc := ⟨.hbm, 75, rfl⟩
abbrev main_v53 : Ref sig .tc := ⟨.hbm, 76, rfl⟩
abbrev main_c_4 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_5 : Ref sig .tc := ⟨.hbm, 83, rfl⟩
abbrev main_v59 : Ref sig .tc := ⟨.hbm, 84, rfl⟩
abbrev main_v60 : Ref sig .tc := ⟨.hbm, 85, rfl⟩
abbrev main_c_6 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_call2_cst : Ref sig .tc := ⟨.hbm, 101, rfl⟩
abbrev main_call2_v0 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call3_cst : Ref sig .tc := ⟨.hbm, 112, rfl⟩
abbrev main_call3_v0 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_7 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_8 : Ref sig .tc := ⟨.hbm, 127, rfl⟩
abbrev main_v96 : Ref sig .tc := ⟨.hbm, 128, rfl⟩
abbrev main_v97 : Ref sig .tc := ⟨.hbm, 129, rfl⟩
abbrev main_c_9 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_10 : Ref sig .tc := ⟨.hbm, 136, rfl⟩
abbrev main_v103 : Ref sig .tc := ⟨.hbm, 137, rfl⟩
abbrev main_v104 : Ref sig .tc := ⟨.hbm, 138, rfl⟩
abbrev main_c_11 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_call4_cst : Ref sig .tc := ⟨.hbm, 154, rfl⟩
abbrev main_call4_v0 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_call5_cst : Ref sig .tc := ⟨.hbm, 165, rfl⟩
abbrev main_call5_v0 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_cst_12 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_c_13 : Ref sig .tc := ⟨.hbm, 180, rfl⟩
abbrev main_v140 : Ref sig .tc := ⟨.hbm, 181, rfl⟩
abbrev main_v141 : Ref sig .tc := ⟨.hbm, 182, rfl⟩
abbrev main_c_14 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_c_15 : Ref sig .tc := ⟨.hbm, 189, rfl⟩
abbrev main_v147 : Ref sig .tc := ⟨.hbm, 190, rfl⟩
abbrev main_v148 : Ref sig .tc := ⟨.hbm, 191, rfl⟩
abbrev main_c_16 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_call6_cst : Ref sig .tc := ⟨.hbm, 207, rfl⟩
abbrev main_call6_v0 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_call7_cst : Ref sig .tc := ⟨.hbm, 218, rfl⟩
abbrev main_call7_v0 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_cst_17 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  slices_S4x64x64_S1x64x64_0_0_0 : S4x64x64.Slices ![0, 0, 0] S1x64x64
  shapeCasts_S1x64x64_S64x64 : S1x64x64.ShapeCasts S64x64
  bcast_S_S50000x64 : S_.BroadcastsInDim S50000x64 (![] : Fin 0 → Fin S50000x64.rank)
  slices_S4x128x64_S1x128x64_1_0_0 : S4x128x64.Slices ![1, 0, 0] S1x128x64
  slices_S4x64_S1x64_1_0 : S4x64.Slices ![1, 0] S1x64
  slices_S4x64x64_S1x64x64_1_0_0 : S4x64x64.Slices ![1, 0, 0] S1x64x64
  slices_S4x128x64_S1x128x64_2_0_0 : S4x128x64.Slices ![2, 0, 0] S1x128x64
  slices_S4x64_S1x64_2_0 : S4x64.Slices ![2, 0] S1x64
  slices_S4x64x64_S1x64x64_2_0_0 : S4x64x64.Slices ![2, 0, 0] S1x64x64
  slices_S4x128x64_S1x128x64_3_0_0 : S4x128x64.Slices ![3, 0, 0] S1x128x64
  slices_S4x64_S1x64_3_0 : S4x64.Slices ![3, 0] S1x64
  slices_S4x64x64_S1x64x64_3_0_0 : S4x64x64.Slices ![3, 0, 0] S1x64x64
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  dot_S50000x16_S16x64_S50000x64_1_0_0_1_n_n_wf : DotDims.WF S50000x16 S16x64 S50000x64 [1] [0] [0] [1] [] []
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x64_S64x16_S50000x16_1_0_0_1_n_n_wf : DotDims.WF S50000x64 S64x16 S50000x16 [1] [0] [0] [1] [] []

variable [Facts₀]

def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf

class Facts : Prop extends Facts₀ where

variable [Facts]
-- ==== Proof.Keep.lean ====
/- For each stretch of host operations between two kernel regions: the buffers the stretch writes, and that every
   OTHER buffer holds after the stretch what it held before it; for each kernel region: a buffer that is none of the
   region's arrays holds after the region what it held before. With these a buffer's contents at any point of the
   program are traced back to the operation that last wrote it, or to the launch. -/
import proofs.«430343_j38053410242952_1_alg».proof.Proof.Gen.KernelIdeal.Frame
import Idealize.ShloMosaic.Lib.StableHlo.Run

set_option maxRecDepth 16384

noncomputable section

namespace Cert.KernelIdeal.Keep

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The buffers `hostOps0` writes. -/
def writes_hostOps0 : List (Ref sig .tc) := [main_v0, main_v1, main_v2, main_v3]
theorem sub_hostOps0 : (hostOps0 : List (HloOp τ sig (Elt F))).Forall fun op => op.writes ⊆ (writes_hostOps0.map (Proc.devRef (τ := τ) .tc)).toFinset := by
  simp only [hostOps0, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer `hostOps0` does not write holds at boundary 1 what it held at boundary 0. -/
theorem keep1 (c : Dev nD) {b : Ref sig .tc} (hb : b ∉ writes_hostOps0) : W1 m ρ c (Proc.devRef .tc b) = W0 m ρ c (Proc.devRef .tc b) :=
  StableHlo.after_of_writes_sub hostOps0 _ sub_hostOps0 hb

/-- The buffers `hostOps1` writes. -/
def writes_hostOps1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v5]
theorem sub_hostOps1 : (hostOps1 : List (HloOp τ sig (Elt F))).Forall fun op => op.writes ⊆ (writes_hostOps1.map (Proc.devRef (τ := τ) .tc)).toFinset := by
  simp only [hostOps1, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer `hostOps1` does not write holds at boundary 3 what it held at boundary 2. -/
theorem keep3 (c : Dev nD) {b : Ref sig .tc} (hb : b ∉ writes_hostOps1) : W3 m ρ c (Proc.devRef .tc b) = W2 m ρ c (Proc.devRef .tc b) :=
  StableHlo.after_of_writes_sub hostOps1 _ sub_hostOps1 hb

/-- The buffers `hostOps1_1` writes. -/
def writes_hostOps1_1 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v6]
theorem sub_hostOps1_1 : (hostOps1_1 : List (HloOp τ sig (Elt F))).Forall fun op => op.writes ⊆ (writes_hostOps1_1.map (Proc.devRef (τ := τ) .tc)).toFinset := by
  simp only [hostOps1_1, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer `hostOps1_1` does not write holds at boundary 4 what it held at boundary 3. -/
theorem keep4 (c : Dev nD) {b : Ref sig .tc} (hb : b ∉ writes_hostOps1_1) : W4 m ρ c (Proc.devRef .tc b) = W3 m ρ c (Proc.devRef .tc b) :=
  StableHlo.after_of_writes_sub hostOps1_1 _ sub_hostOps1_1 hb

/-- The buffers `hostOps1_2` writes. -/
def writes_hostOps1_2 : List (Ref sig .tc) := [main_v7, main_v8, main_v9, main_v10, main_v11, main_v12, main_v13, main_v14, main_v15, main_v16, main_v17, main_v18, main_v19, main_v20]
theorem sub_hostOps1_2 : (hostOps1_2 : List (HloOp τ sig (Elt F))).Forall fun op => op.writes ⊆ (writes_hostOps1_2.map (Proc.devRef (τ := τ) .tc)).toFinset := by
  simp only [hostOps1_2, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer `hostOps1_2` does not write holds at boundary 5 what it held at boundary 4. -/
theorem keep5 (c : Dev nD) {b : Ref sig .tc} (hb : b ∉ writes_hostOps1_2) : W5 m ρ c (Proc.devRef .tc b) = W4 m ρ c (Proc.devRef .tc b) :=
  StableHlo.after_of_writes_sub hostOps1_2 _ sub_hostOps1_2 hb

/-- The buffers `hostOps2` writes. -/
def writes_hostOps2 : List (Ref sig .tc) := [main_cst, main_v22, main_v23, main_v24]
theorem sub_hostOps2 : (hostOps2 : List (HloOp τ sig (Elt F))).Forall fun op => op.writes ⊆ (writes_hostOps2.map (Proc.devRef (τ := τ) .tc)).toFinset := by
  simp only [hostOps2, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer `hostOps2` does not write holds at boundary 7 what it held at boundary 6. -/
theorem keep7 (c : Dev nD) {b : Ref sig .tc} (hb : b ∉ writes_hostOps2) : W7 m ρ c (Proc.devRef .tc b) = W6 m ρ c (Proc.devRef .tc b) :=
  StableHlo.after_of_writes_sub hostOps2 _ sub_hostOps2 hb

/-- The buffers `hostOps2_1` writes. -/
def writes_hostOps2_1 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v25]
theorem sub_hostOps2_1 : (hostOps2_1 : List (HloOp τ sig (Elt F))).Forall fun op => op.writes ⊆ (writes_hostOps2_1.map (Proc.devRef (τ := τ) .tc)).toFinset := by
  simp only [hostOps2_1, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer `hostOps2_1` does not write holds at boundary 8 what it held at boundary 7. -/
theorem keep8 (c : Dev nD) {b : Ref sig .tc} (hb : b ∉ writes_hostOps2_1) : W8 m ρ c (Proc.devRef .tc b) = W7 m ρ c (Proc.devRef .tc b) :=
  StableHlo.after_of_writes_sub hostOps2_1 _ sub_hostOps2_1 hb

/-- The buffers `hostOps2_2` writes. -/
def writes_hostOps2_2 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v26]
theorem sub_hostOps2_2 : (hostOps2_2 : List (HloOp τ sig (Elt F))).Forall fun op => op.writes ⊆ (writes_hostOps2_2.map (Proc.devRef (τ := τ) .tc)).toFinset := by
  simp only [hostOps2_2, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer `hostOps2_2` does not write holds at boundary 9 what it held at boundary 8. -/
theorem keep9 (c : Dev nD) {b : Ref sig .tc} (hb : b ∉ writes_hostOps2_2) : W9 m ρ c (Proc.devRef .tc b) = W8 m ρ c (Proc.devRef .tc b) :=
  StableHlo.after_of_writes_sub hostOps2_2 _ sub_hostOps2_2 hb

/-- The buffers `hostOps2_3` writes. -/
def writes_hostOps2_3 : List (Ref sig .tc) := [main_v27, main_v28, main_v29, main_v30, main_v31, main_v32, main_v33, main_v34, main_v35, main_v36, main_v37, main_v38, main_v39, main_v40]
theorem sub_hostOps2_3 : (hostOps2_3 : List (HloOp τ sig (Elt F))).Forall fun op => op.writes ⊆ (writes_hostOps2_3.map (Proc.devRef (τ := τ) .tc)).toFinset := by
  simp only [hostOps2_3, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer `hostOps2_3` does not write holds at boundary 10 what it held at boundary 9. -/
theorem keep10 (c : Dev nD) {b : Ref sig .tc} (hb : b ∉ writes_hostOps2_3) : W10 m ρ c (Proc.devRef .tc b) = W9 m ρ c (Proc.devRef .tc b) :=
  StableHlo.after_of_writes_sub hostOps2_3 _ sub_hostOps2_3 hb

/-- The buffers `hostOps3` writes. -/
def writes_hostOps3 : List (Ref sig .tc) := [main_cst_0, main_v42, main_v43, main_v44]
theorem sub_hostOps3 : (hostOps3 : List (HloOp τ sig (Elt F))).Forall fun op => op.writes ⊆ (writes_hostOps3.map (Proc.devRef (τ := τ) .tc)).toFinset := by
  simp only [hostOps3, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer `hostOps3` does not write holds at boundary 12 what it held at boundary 11. -/
theorem keep12 (c : Dev nD) {b : Ref sig .tc} (hb : b ∉ writes_hostOps3) : W12 m ρ c (Proc.devRef .tc b) = W11 m ρ c (Proc.devRef .tc b) :=
  StableHlo.after_of_writes_sub hostOps3 _ sub_hostOps3 hb

/-- The buffers `hostOps3_1` writes. -/
def writes_hostOps3_1 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v45]
theorem sub_hostOps3_1 : (hostOps3_1 : List (HloOp τ sig (Elt F))).Forall fun op => op.writes ⊆ (writes_hostOps3_1.map (Proc.devRef (τ := τ) .tc)).toFinset := by
  simp only [hostOps3_1, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer `hostOps3_1` does not write holds at boundary 13 what it held at boundary 12. -/
theorem keep13 (c : Dev nD) {b : Ref sig .tc} (hb : b ∉ writes_hostOps3_1) : W13 m ρ c (Proc.devRef .tc b) = W12 m ρ c (Proc.devRef .tc b) :=
  StableHlo.after_of_writes_sub hostOps3_1 _ sub_hostOps3_1 hb

/-- The buffers `hostOps3_2` writes. -/
def writes_hostOps3_2 : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v46]
theorem sub_hostOps3_2 : (hostOps3_2 : List (HloOp τ sig (Elt F))).Forall fun op => op.writes ⊆ (writes_hostOps3_2.map (Proc.devRef (τ := τ) .tc)).toFinset := by
  simp only [hostOps3_2, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer `hostOps3_2` does not write holds at boundary 14 what it held at boundary 13. -/
theorem keep14 (c : Dev nD) {b : Ref sig .tc} (hb : b ∉ writes_hostOps3_2) : W14 m ρ c (Proc.devRef .tc b) = W13 m ρ c (Proc.devRef .tc b) :=
  StableHlo.after_of_writes_sub hostOps3_2 _ sub_hostOps3_2 hb

/-- The buffers `hostOps3_3` writes. -/
def writes_hostOps3_3 : List (Ref sig .tc) := [main_v47, main_v48, main_v49, main_v50, main_v51, main_v52, main_v53, main_v54, main_v55, main_v56, main_v57, main_v58, main_v59, main_v60]
theorem sub_hostOps3_3 : (hostOps3_3 : List (HloOp τ sig (Elt F))).Forall fun op => op.writes ⊆ (writes_hostOps3_3.map (Proc.devRef (τ := τ) .tc)).toFinset := by
  simp only [hostOps3_3, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer `hostOps3_3` does not write holds at boundary 15 what it held at boundary 14. -/
theorem keep15 (c : Dev nD) {b : Ref sig .tc} (hb : b ∉ writes_hostOps3_3) : W15 m ρ c (Proc.devRef .tc b) = W14 m ρ c (Proc.devRef .tc b) :=
  StableHlo.after_of_writes_sub hostOps3_3 _ sub_hostOps3_3 hb

/-- The buffers `hostOps4` writes. -/
def writes_hostOps4 : List (Ref sig .tc) := [main_cst_1, main_v62, main_v63, main_v64]
theorem sub_hostOps4 : (hostOps4 : List (HloOp τ sig (Elt F))).Forall fun op => op.writes ⊆ (writes_hostOps4.map (Proc.devRef (τ := τ) .tc)).toFinset := by
  simp only [hostOps4, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer `hostOps4` does not write holds at boundary 17 what it held at boundary 16. -/
theorem keep17 (c : Dev nD) {b : Ref sig .tc} (hb : b ∉ writes_hostOps4) : W17 m ρ c (Proc.devRef .tc b) = W16 m ρ c (Proc.devRef .tc b) :=
  StableHlo.after_of_writes_sub hostOps4 _ sub_hostOps4 hb

/-- The buffers `hostOps4_1` writes. -/
def writes_hostOps4_1 : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v65]
theorem sub_hostOps4_1 : (hostOps4_1 : List (HloOp τ sig (Elt F))).Forall fun op => op.writes ⊆ (writes_hostOps4_1.map (Proc.devRef (τ := τ) .tc)).toFinset := by
  simp only [hostOps4_1, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer `hostOps4_1` does not write holds at boundary 18 what it held at boundary 17. -/
theorem keep18 (c : Dev nD) {b : Ref sig .tc} (hb : b ∉ writes_hostOps4_1) : W18 m ρ c (Proc.devRef .tc b) = W17 m ρ c (Proc.devRef .tc b) :=
  StableHlo.after_of_writes_sub hostOps4_1 _ sub_hostOps4_1 hb

/-- The buffers `hostOps4_2` writes. -/
def writes_hostOps4_2 : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v66]
theorem sub_hostOps4_2 : (hostOps4_2 : List (HloOp τ sig (Elt F))).Forall fun op => op.writes ⊆ (writes_hostOps4_2.map (Proc.devRef (τ := τ) .tc)).toFinset := by
  simp only [hostOps4_2, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer `hostOps4_2` does not write holds at boundary 19 what it held at boundary 18. -/
theorem keep19 (c : Dev nD) {b : Ref sig .tc} (hb : b ∉ writes_hostOps4_2) : W19 m ρ c (Proc.devRef .tc b) = W18 m ρ c (Proc.devRef .tc b) :=
  StableHlo.after_of_writes_sub hostOps4_2 _ sub_hostOps4_2 hb

/-- The buffers `hostOps4_3` writes. -/
def writes_hostOps4_3 : List (Ref sig .tc) := [main_v67, main_v68, main_v69, main_v70, main_v71, main_v72, main_v73, main_v74, main_v75, main_v76, main_v77, main_v78, main_v79, main_v80]
theorem sub_hostOps4_3 : (hostOps4_3 : List (HloOp τ sig (Elt F))).Forall fun op => op.writes ⊆ (writes_hostOps4_3.map (Proc.devRef (τ := τ) .tc)).toFinset := by
  simp only [hostOps4_3, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer `hostOps4_3` does not write holds at boundary 20 what it held at boundary 19. -/
theorem keep20 (c : Dev nD) {b : Ref sig .tc} (hb : b ∉ writes_hostOps4_3) : W20 m ρ c (Proc.devRef .tc b) = W19 m ρ c (Proc.devRef .tc b) :=
  StableHlo.after_of_writes_sub hostOps4_3 _ sub_hostOps4_3 hb

/-- The buffers `hostOps5` writes. -/
def writes_hostOps5 : List (Ref sig .tc) := [main_cst_2, main_v82, main_v83, main_v84]
theorem sub_hostOps5 : (hostOps5 : List (HloOp τ sig (Elt F))).Forall fun op => op.writes ⊆ (writes_hostOps5.map (Proc.devRef (τ := τ) .tc)).toFinset := by
  simp only [hostOps5, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer `hostOps5` does not write holds at boundary 22 what it held at boundary 21. -/
theorem keep22 (c : Dev nD) {b : Ref sig .tc} (hb : b ∉ writes_hostOps5) : W22 m ρ c (Proc.devRef .tc b) = W21 m ρ c (Proc.devRef .tc b) :=
  StableHlo.after_of_writes_sub hostOps5 _ sub_hostOps5 hb

/-- A buffer that is none of region 0's arrays holds at boundary 2 what it held at boundary 1. -/
theorem keep2 (c : Dev nD) {b : Ref sig .tc} (hb : ∀ w, Pipeline.arrRef spec0 w ≠ b) : W2 m ρ c (Proc.devRef .tc b) = W1 m ρ c (Proc.devRef .tc b) :=
  W2_of_ne m ρ c b hb

/-- A buffer that is none of region 1's arrays holds at boundary 6 what it held at boundary 5. -/
theorem keep6 (c : Dev nD) {b : Ref sig .tc} (hb : ∀ w, Pipeline.arrRef spec1 w ≠ b) : W6 m ρ c (Proc.devRef .tc b) = W5 m ρ c (Proc.devRef .tc b) :=
  W6_of_ne m ρ c b hb

/-- A buffer that is none of region 2's arrays holds at boundary 11 what it held at boundary 10. -/
theorem keep11 (c : Dev nD) {b : Ref sig .tc} (hb : ∀ w, Pipeline.arrRef spec2 w ≠ b) : W11 m ρ c (Proc.devRef .tc b) = W10 m ρ c (Proc.devRef .tc b) :=
  W11_of_ne m ρ c b hb

/-- A buffer that is none of region 3's arrays holds at boundary 16 what it held at boundary 15. -/
theorem keep16 (c : Dev nD) {b : Ref sig .tc} (hb : ∀ w, Pipeline.arrRef spec3 w ≠ b) : W16 m ρ c (Proc.devRef .tc b) = W15 m ρ c (Proc.devRef .tc b) :=
  W16_of_ne m ρ c b hb

/-- A buffer that is none of region 4's arrays holds at boundary 21 what it held at boundary 20. -/
theorem keep21 (c : Dev nD) {b : Ref sig .tc} (hb : ∀ w, Pipeline.arrRef spec4 w ≠ b) : W21 m ρ c (Proc.devRef .tc b) = W20 m ρ c (Proc.devRef .tc b) :=
  W21_of_ne m ρ c b hb

/-- A buffer that is none of region 5's arrays holds at boundary 23 what it held at boundary 22. -/
theorem keep23 (c : Dev nD) {b : Ref sig .tc} (hb : ∀ w, Pipeline.arrRef spec5 w ≠ b) : W23 m ρ c (Proc.devRef .tc b) = W22 m ρ c (Proc.devRef .tc b) :=
  W23_of_ne m ρ c b hb

/-! ## The edge lists and the arguments at every boundary -/

theorem v1_at1 (c : Dev nD) : W1 m ρ c (Proc.devRef .tc main_v1) = W1 m ρ c (Proc.devRef .tc main_v1) := rfl
theorem v1_at2 (c : Dev nD) : W2 m ρ c (Proc.devRef .tc main_v1) = W1 m ρ c (Proc.devRef .tc main_v1) :=
  (keep2 m ρ c (by decide)).trans (v1_at1 m ρ c)
theorem v1_at3 (c : Dev nD) : W3 m ρ c (Proc.devRef .tc main_v1) = W1 m ρ c (Proc.devRef .tc main_v1) :=
  (keep3 m ρ c (by decide)).trans (v1_at2 m ρ c)
theorem v1_at4 (c : Dev nD) : W4 m ρ c (Proc.devRef .tc main_v1) = W1 m ρ c (Proc.devRef .tc main_v1) :=
  (keep4 m ρ c (by decide)).trans (v1_at3 m ρ c)
theorem v1_at5 (c : Dev nD) : W5 m ρ c (Proc.devRef .tc main_v1) = W1 m ρ c (Proc.devRef .tc main_v1) :=
  (keep5 m ρ c (by decide)).trans (v1_at4 m ρ c)
theorem v1_at6 (c : Dev nD) : W6 m ρ c (Proc.devRef .tc main_v1) = W1 m ρ c (Proc.devRef .tc main_v1) :=
  (keep6 m ρ c (by decide)).trans (v1_at5 m ρ c)
theorem v1_at7 (c : Dev nD) : W7 m ρ c (Proc.devRef .tc main_v1) = W1 m ρ c (Proc.devRef .tc main_v1) :=
  (keep7 m ρ c (by decide)).trans (v1_at6 m ρ c)
theorem v1_at8 (c : Dev nD) : W8 m ρ c (Proc.devRef .tc main_v1) = W1 m ρ c (Proc.devRef .tc main_v1) :=
  (keep8 m ρ c (by decide)).trans (v1_at7 m ρ c)
theorem v1_at9 (c : Dev nD) : W9 m ρ c (Proc.devRef .tc main_v1) = W1 m ρ c (Proc.devRef .tc main_v1) :=
  (keep9 m ρ c (by decide)).trans (v1_at8 m ρ c)
theorem v1_at10 (c : Dev nD) : W10 m ρ c (Proc.devRef .tc main_v1) = W1 m ρ c (Proc.devRef .tc main_v1) :=
  (keep10 m ρ c (by decide)).trans (v1_at9 m ρ c)
theorem v1_at11 (c : Dev nD) : W11 m ρ c (Proc.devRef .tc main_v1) = W1 m ρ c (Proc.devRef .tc main_v1) :=
  (keep11 m ρ c (by decide)).trans (v1_at10 m ρ c)
theorem v1_at12 (c : Dev nD) : W12 m ρ c (Proc.devRef .tc main_v1) = W1 m ρ c (Proc.devRef .tc main_v1) :=
  (keep12 m ρ c (by decide)).trans (v1_at11 m ρ c)
theorem v1_at13 (c : Dev nD) : W13 m ρ c (Proc.devRef .tc main_v1) = W1 m ρ c (Proc.devRef .tc main_v1) :=
  (keep13 m ρ c (by decide)).trans (v1_at12 m ρ c)
theorem v1_at14 (c : Dev nD) : W14 m ρ c (Proc.devRef .tc main_v1) = W1 m ρ c (Proc.devRef .tc main_v1) :=
  (keep14 m ρ c (by decide)).trans (v1_at13 m ρ c)
theorem v1_at15 (c : Dev nD) : W15 m ρ c (Proc.devRef .tc main_v1) = W1 m ρ c (Proc.devRef .tc main_v1) :=
  (keep15 m ρ c (by decide)).trans (v1_at14 m ρ c)
theorem v1_at16 (c : Dev nD) : W16 m ρ c (Proc.devRef .tc main_v1) = W1 m ρ c (Proc.devRef .tc main_v1) :=
  (keep16 m ρ c (by decide)).trans (v1_at15 m ρ c)
theorem v1_at17 (c : Dev nD) : W17 m ρ c (Proc.devRef .tc main_v1) = W1 m ρ c (Proc.devRef .tc main_v1) :=
  (keep17 m ρ c (by decide)).trans (v1_at16 m ρ c)
theorem v1_at18 (c : Dev nD) : W18 m ρ c (Proc.devRef .tc main_v1) = W1 m ρ c (Proc.devRef .tc main_v1) :=
  (keep18 m ρ c (by decide)).trans (v1_at17 m ρ c)
theorem v1_at19 (c : Dev nD) : W19 m ρ c (Proc.devRef .tc main_v1) = W1 m ρ c (Proc.devRef .tc main_v1) :=
  (keep19 m ρ c (by decide)).trans (v1_at18 m ρ c)
theorem v1_at20 (c : Dev nD) : W20 m ρ c (Proc.devRef .tc main_v1) = W1 m ρ c (Proc.devRef .tc main_v1) :=
  (keep20 m ρ c (by decide)).trans (v1_at19 m ρ c)
theorem v1_at21 (c : Dev nD) : W21 m ρ c (Proc.devRef .tc main_v1) = W1 m ρ c (Proc.devRef .tc main_v1) :=
  (keep21 m ρ c (by decide)).trans (v1_at20 m ρ c)
theorem v1_at22 (c : Dev nD) : W22 m ρ c (Proc.devRef .tc main_v1) = W1 m ρ c (Proc.devRef .tc main_v1) :=
  (keep22 m ρ c (by decide)).trans (v1_at21 m ρ c)
theorem v1_at23 (c : Dev nD) : W23 m ρ c (Proc.devRef .tc main_v1) = W1 m ρ c (Proc.devRef .tc main_v1) :=
  (keep23 m ρ c (by decide)).trans (v1_at22 m ρ c)

theorem v3_at1 (c : Dev nD) : W1 m ρ c (Proc.devRef .tc main_v3) = W1 m ρ c (Proc.devRef .tc main_v3) := rfl
theorem v3_at2 (c : Dev nD) : W2 m ρ c (Proc.devRef .tc main_v3) = W1 m ρ c (Proc.devRef .tc main_v3) :=
  (keep2 m ρ c (by decide)).trans (v3_at1 m ρ c)
theorem v3_at3 (c : Dev nD) : W3 m ρ c (Proc.devRef .tc main_v3) = W1 m ρ c (Proc.devRef .tc main_v3) :=
  (keep3 m ρ c (by decide)).trans (v3_at2 m ρ c)
theorem v3_at4 (c : Dev nD) : W4 m ρ c (Proc.devRef .tc main_v3) = W1 m ρ c (Proc.devRef .tc main_v3) :=
  (keep4 m ρ c (by decide)).trans (v3_at3 m ρ c)
theorem v3_at5 (c : Dev nD) : W5 m ρ c (Proc.devRef .tc main_v3) = W1 m ρ c (Proc.devRef .tc main_v3) :=
  (keep5 m ρ c (by decide)).trans (v3_at4 m ρ c)
theorem v3_at6 (c : Dev nD) : W6 m ρ c (Proc.devRef .tc main_v3) = W1 m ρ c (Proc.devRef .tc main_v3) :=
  (keep6 m ρ c (by decide)).trans (v3_at5 m ρ c)
theorem v3_at7 (c : Dev nD) : W7 m ρ c (Proc.devRef .tc main_v3) = W1 m ρ c (Proc.devRef .tc main_v3) :=
  (keep7 m ρ c (by decide)).trans (v3_at6 m ρ c)
theorem v3_at8 (c : Dev nD) : W8 m ρ c (Proc.devRef .tc main_v3) = W1 m ρ c (Proc.devRef .tc main_v3) :=
  (keep8 m ρ c (by decide)).trans (v3_at7 m ρ c)
theorem v3_at9 (c : Dev nD) : W9 m ρ c (Proc.devRef .tc main_v3) = W1 m ρ c (Proc.devRef .tc main_v3) :=
  (keep9 m ρ c (by decide)).trans (v3_at8 m ρ c)
theorem v3_at10 (c : Dev nD) : W10 m ρ c (Proc.devRef .tc main_v3) = W1 m ρ c (Proc.devRef .tc main_v3) :=
  (keep10 m ρ c (by decide)).trans (v3_at9 m ρ c)
theorem v3_at11 (c : Dev nD) : W11 m ρ c (Proc.devRef .tc main_v3) = W1 m ρ c (Proc.devRef .tc main_v3) :=
  (keep11 m ρ c (by decide)).trans (v3_at10 m ρ c)
theorem v3_at12 (c : Dev nD) : W12 m ρ c (Proc.devRef .tc main_v3) = W1 m ρ c (Proc.devRef .tc main_v3) :=
  (keep12 m ρ c (by decide)).trans (v3_at11 m ρ c)
theorem v3_at13 (c : Dev nD) : W13 m ρ c (Proc.devRef .tc main_v3) = W1 m ρ c (Proc.devRef .tc main_v3) :=
  (keep13 m ρ c (by decide)).trans (v3_at12 m ρ c)
theorem v3_at14 (c : Dev nD) : W14 m ρ c (Proc.devRef .tc main_v3) = W1 m ρ c (Proc.devRef .tc main_v3) :=
  (keep14 m ρ c (by decide)).trans (v3_at13 m ρ c)
theorem v3_at15 (c : Dev nD) : W15 m ρ c (Proc.devRef .tc main_v3) = W1 m ρ c (Proc.devRef .tc main_v3) :=
  (keep15 m ρ c (by decide)).trans (v3_at14 m ρ c)
theorem v3_at16 (c : Dev nD) : W16 m ρ c (Proc.devRef .tc main_v3) = W1 m ρ c (Proc.devRef .tc main_v3) :=
  (keep16 m ρ c (by decide)).trans (v3_at15 m ρ c)
theorem v3_at17 (c : Dev nD) : W17 m ρ c (Proc.devRef .tc main_v3) = W1 m ρ c (Proc.devRef .tc main_v3) :=
  (keep17 m ρ c (by decide)).trans (v3_at16 m ρ c)
theorem v3_at18 (c : Dev nD) : W18 m ρ c (Proc.devRef .tc main_v3) = W1 m ρ c (Proc.devRef .tc main_v3) :=
  (keep18 m ρ c (by decide)).trans (v3_at17 m ρ c)
theorem v3_at19 (c : Dev nD) : W19 m ρ c (Proc.devRef .tc main_v3) = W1 m ρ c (Proc.devRef .tc main_v3) :=
  (keep19 m ρ c (by decide)).trans (v3_at18 m ρ c)
theorem v3_at20 (c : Dev nD) : W20 m ρ c (Proc.devRef .tc main_v3) = W1 m ρ c (Proc.devRef .tc main_v3) :=
  (keep20 m ρ c (by decide)).trans (v3_at19 m ρ c)
theorem v3_at21 (c : Dev nD) : W21 m ρ c (Proc.devRef .tc main_v3) = W1 m ρ c (Proc.devRef .tc main_v3) :=
  (keep21 m ρ c (by decide)).trans (v3_at20 m ρ c)
theorem v3_at22 (c : Dev nD) : W22 m ρ c (Proc.devRef .tc main_v3) = W1 m ρ c (Proc.devRef .tc main_v3) :=
  (keep22 m ρ c (by decide)).trans (v3_at21 m ρ c)
theorem v3_at23 (c : Dev nD) : W23 m ρ c (Proc.devRef .tc main_v3) = W1 m ρ c (Proc.devRef .tc main_v3) :=
  (keep23 m ρ c (by decide)).trans (v3_at22 m ρ c)

theorem arg0_at0 (c : Dev nD) : W0 m ρ c (Proc.devRef .tc main_arg0) = m ((c : Thread nD τ).loc main_arg0) := rfl
theorem arg0_at1 (c : Dev nD) : W1 m ρ c (Proc.devRef .tc main_arg0) = m ((c : Thread nD τ).loc main_arg0) :=
  (keep1 m ρ c (by decide)).trans (arg0_at0 m ρ c)

theorem arg1_at0 (c : Dev nD) : W0 m ρ c (Proc.devRef .tc main_arg1) = m ((c : Thread nD τ).loc main_arg1) := rfl
theorem arg1_at1 (c : Dev nD) : W1 m ρ c (Proc.devRef .tc main_arg1) = m ((c : Thread nD τ).loc main_arg1) :=
  (keep1 m ρ c (by decide)).trans (arg1_at0 m ρ c)
theorem arg1_at2 (c : Dev nD) : W2 m ρ c (Proc.devRef .tc main_arg1) = m ((c : Thread nD τ).loc main_arg1) :=
  (keep2 m ρ c (by decide)).trans (arg1_at1 m ρ c)
theorem arg1_at3 (c : Dev nD) : W3 m ρ c (Proc.devRef .tc main_arg1) = m ((c : Thread nD τ).loc main_arg1) :=
  (keep3 m ρ c (by decide)).trans (arg1_at2 m ρ c)
theorem arg1_at4 (c : Dev nD) : W4 m ρ c (Proc.devRef .tc main_arg1) = m ((c : Thread nD τ).loc main_arg1) :=
  (keep4 m ρ c (by decide)).trans (arg1_at3 m ρ c)
theorem arg1_at5 (c : Dev nD) : W5 m ρ c (Proc.devRef .tc main_arg1) = m ((c : Thread nD τ).loc main_arg1) :=
  (keep5 m ρ c (by decide)).trans (arg1_at4 m ρ c)
theorem arg1_at6 (c : Dev nD) : W6 m ρ c (Proc.devRef .tc main_arg1) = m ((c : Thread nD τ).loc main_arg1) :=
  (keep6 m ρ c (by decide)).trans (arg1_at5 m ρ c)
theorem arg1_at7 (c : Dev nD) : W7 m ρ c (Proc.devRef .tc main_arg1) = m ((c : Thread nD τ).loc main_arg1) :=
  (keep7 m ρ c (by decide)).trans (arg1_at6 m ρ c)
theorem arg1_at8 (c : Dev nD) : W8 m ρ c (Proc.devRef .tc main_arg1) = m ((c : Thread nD τ).loc main_arg1) :=
  (keep8 m ρ c (by decide)).trans (arg1_at7 m ρ c)
theorem arg1_at9 (c : Dev nD) : W9 m ρ c (Proc.devRef .tc main_arg1) = m ((c : Thread nD τ).loc main_arg1) :=
  (keep9 m ρ c (by decide)).trans (arg1_at8 m ρ c)
theorem arg1_at10 (c : Dev nD) : W10 m ρ c (Proc.devRef .tc main_arg1) = m ((c : Thread nD τ).loc main_arg1) :=
  (keep10 m ρ c (by decide)).trans (arg1_at9 m ρ c)
theorem arg1_at11 (c : Dev nD) : W11 m ρ c (Proc.devRef .tc main_arg1) = m ((c : Thread nD τ).loc main_arg1) :=
  (keep11 m ρ c (by decide)).trans (arg1_at10 m ρ c)
theorem arg1_at12 (c : Dev nD) : W12 m ρ c (Proc.devRef .tc main_arg1) = m ((c : Thread nD τ).loc main_arg1) :=
  (keep12 m ρ c (by decide)).trans (arg1_at11 m ρ c)
theorem arg1_at13 (c : Dev nD) : W13 m ρ c (Proc.devRef .tc main_arg1) = m ((c : Thread nD τ).loc main_arg1) :=
  (keep13 m ρ c (by decide)).trans (arg1_at12 m ρ c)
theorem arg1_at14 (c : Dev nD) : W14 m ρ c (Proc.devRef .tc main_arg1) = m ((c : Thread nD τ).loc main_arg1) :=
  (keep14 m ρ c (by decide)).trans (arg1_at13 m ρ c)
theorem arg1_at15 (c : Dev nD) : W15 m ρ c (Proc.devRef .tc main_arg1) = m ((c : Thread nD τ).loc main_arg1) :=
  (keep15 m ρ c (by decide)).trans (arg1_at14 m ρ c)
theorem arg1_at16 (c : Dev nD) : W16 m ρ c (Proc.devRef .tc main_arg1) = m ((c : Thread nD τ).loc main_arg1) :=
  (keep16 m ρ c (by decide)).trans (arg1_at15 m ρ c)
theorem arg1_at17 (c : Dev nD) : W17 m ρ c (Proc.devRef .tc main_arg1) = m ((c : Thread nD τ).loc main_arg1) :=
  (keep17 m ρ c (by decide)).trans (arg1_at16 m ρ c)
theorem arg1_at18 (c : Dev nD) : W18 m ρ c (Proc.devRef .tc main_arg1) = m ((c : Thread nD τ).loc main_arg1) :=
  (keep18 m ρ c (by decide)).trans (arg1_at17 m ρ c)
theorem arg1_at19 (c : Dev nD) : W19 m ρ c (Proc.devRef .tc main_arg1) = m ((c : Thread nD τ).loc main_arg1) :=
  (keep19 m ρ c (by decide)).trans (arg1_at18 m ρ c)
theorem arg1_at20 (c : Dev nD) : W20 m ρ c (Proc.devRef .tc main_arg1) = m ((c : Thread nD τ).loc main_arg1) :=
  (keep20 m ρ c (by decide)).trans (arg1_at19 m ρ c)
theorem arg1_at21 (c : Dev nD) : W21 m ρ c (Proc.devRef .tc main_arg1) = m ((c : Thread nD τ).loc main_arg1) :=
  (keep21 m ρ c (by decide)).trans (arg1_at20 m ρ c)
theorem arg1_at22 (c : Dev nD) : W22 m ρ c (Proc.devRef .tc main_arg1) = m ((c : Thread nD τ).loc main_arg1) :=
  (keep22 m ρ c (by decide)).trans (arg1_at21 m ρ c)
theorem arg1_at23 (c : Dev nD) : W23 m ρ c (Proc.devRef .tc main_arg1) = m ((c : Thread nD τ).loc main_arg1) :=
  (keep23 m ρ c (by decide)).trans (arg1_at22 m ρ c)

theorem arg2_at0 (c : Dev nD) : W0 m ρ c (Proc.devRef .tc main_arg2) = m ((c : Thread nD τ).loc main_arg2) := rfl
theorem arg2_at1 (c : Dev nD) : W1 m ρ c (Proc.devRef .tc main_arg2) = m ((c : Thread nD τ).loc main_arg2) :=
  (keep1 m ρ c (by decide)).trans (arg2_at0 m ρ c)
theorem arg2_at2 (c : Dev nD) : W2 m ρ c (Proc.devRef .tc main_arg2) = m ((c : Thread nD τ).loc main_arg2) :=
  (keep2 m ρ c (by decide)).trans (arg2_at1 m ρ c)
theorem arg2_at3 (c : Dev nD) : W3 m ρ c (Proc.devRef .tc main_arg2) = m ((c : Thread nD τ).loc main_arg2) :=
  (keep3 m ρ c (by decide)).trans (arg2_at2 m ρ c)
theorem arg2_at4 (c : Dev nD) : W4 m ρ c (Proc.devRef .tc main_arg2) = m ((c : Thread nD τ).loc main_arg2) :=
  (keep4 m ρ c (by decide)).trans (arg2_at3 m ρ c)
theorem arg2_at5 (c : Dev nD) : W5 m ρ c (Proc.devRef .tc main_arg2) = m ((c : Thread nD τ).loc main_arg2) :=
  (keep5 m ρ c (by decide)).trans (arg2_at4 m ρ c)
theorem arg2_at6 (c : Dev nD) : W6 m ρ c (Proc.devRef .tc main_arg2) = m ((c : Thread nD τ).loc main_arg2) :=
  (keep6 m ρ c (by decide)).trans (arg2_at5 m ρ c)
theorem arg2_at7 (c : Dev nD) : W7 m ρ c (Proc.devRef .tc main_arg2) = m ((c : Thread nD τ).loc main_arg2) :=
  (keep7 m ρ c (by decide)).trans (arg2_at6 m ρ c)
theorem arg2_at8 (c : Dev nD) : W8 m ρ c (Proc.devRef .tc main_arg2) = m ((c : Thread nD τ).loc main_arg2) :=
  (keep8 m ρ c (by decide)).trans (arg2_at7 m ρ c)
theorem arg2_at9 (c : Dev nD) : W9 m ρ c (Proc.devRef .tc main_arg2) = m ((c : Thread nD τ).loc main_arg2) :=
  (keep9 m ρ c (by decide)).trans (arg2_at8 m ρ c)
theorem arg2_at10 (c : Dev nD) : W10 m ρ c (Proc.devRef .tc main_arg2) = m ((c : Thread nD τ).loc main_arg2) :=
  (keep10 m ρ c (by decide)).trans (arg2_at9 m ρ c)
theorem arg2_at11 (c : Dev nD) : W11 m ρ c (Proc.devRef .tc main_arg2) = m ((c : Thread nD τ).loc main_arg2) :=
  (keep11 m ρ c (by decide)).trans (arg2_at10 m ρ c)
theorem arg2_at12 (c : Dev nD) : W12 m ρ c (Proc.devRef .tc main_arg2) = m ((c : Thread nD τ).loc main_arg2) :=
  (keep12 m ρ c (by decide)).trans (arg2_at11 m ρ c)
theorem arg2_at13 (c : Dev nD) : W13 m ρ c (Proc.devRef .tc main_arg2) = m ((c : Thread nD τ).loc main_arg2) :=
  (keep13 m ρ c (by decide)).trans (arg2_at12 m ρ c)
theorem arg2_at14 (c : Dev nD) : W14 m ρ c (Proc.devRef .tc main_arg2) = m ((c : Thread nD τ).loc main_arg2) :=
  (keep14 m ρ c (by decide)).trans (arg2_at13 m ρ c)
theorem arg2_at15 (c : Dev nD) : W15 m ρ c (Proc.devRef .tc main_arg2) = m ((c : Thread nD τ).loc main_arg2) :=
  (keep15 m ρ c (by decide)).trans (arg2_at14 m ρ c)
theorem arg2_at16 (c : Dev nD) : W16 m ρ c (Proc.devRef .tc main_arg2) = m ((c : Thread nD τ).loc main_arg2) :=
  (keep16 m ρ c (by decide)).trans (arg2_at15 m ρ c)
theorem arg2_at17 (c : Dev nD) : W17 m ρ c (Proc.devRef .tc main_arg2) = m ((c : Thread nD τ).loc main_arg2) :=
  (keep17 m ρ c (by decide)).trans (arg2_at16 m ρ c)
theorem arg2_at18 (c : Dev nD) : W18 m ρ c (Proc.devRef .tc main_arg2) = m ((c : Thread nD τ).loc main_arg2) :=
  (keep18 m ρ c (by decide)).trans (arg2_at17 m ρ c)
theorem arg2_at19 (c : Dev nD) : W19 m ρ c (Proc.devRef .tc main_arg2) = m ((c : Thread nD τ).loc main_arg2) :=
  (keep19 m ρ c (by decide)).trans (arg2_at18 m ρ c)
theorem arg2_at20 (c : Dev nD) : W20 m ρ c (Proc.devRef .tc main_arg2) = m ((c : Thread nD τ).loc main_arg2) :=
  (keep20 m ρ c (by decide)).trans (arg2_at19 m ρ c)
theorem arg2_at21 (c : Dev nD) : W21 m ρ c (Proc.devRef .tc main_arg2) = m ((c : Thread nD τ).loc main_arg2) :=
  (keep21 m ρ c (by decide)).trans (arg2_at20 m ρ c)
theorem arg2_at22 (c : Dev nD) : W22 m ρ c (Proc.devRef .tc main_arg2) = m ((c : Thread nD τ).loc main_arg2) :=
  (keep22 m ρ c (by decide)).trans (arg2_at21 m ρ c)
theorem arg2_at23 (c : Dev nD) : W23 m ρ c (Proc.devRef .tc main_arg2) = m ((c : Thread nD τ).loc main_arg2) :=
  (keep23 m ρ c (by decide)).trans (arg2_at22 m ρ c)

theorem arg3_at0 (c : Dev nD) : W0 m ρ c (Proc.devRef .tc main_arg3) = m ((c : Thread nD τ).loc main_arg3) := rfl
theorem arg3_at1 (c : Dev nD) : W1 m ρ c (Proc.devRef .tc main_arg3) = m ((c : Thread nD τ).loc main_arg3) :=
  (keep1 m ρ c (by decide)).trans (arg3_at0 m ρ c)

theorem arg4_at0 (c : Dev nD) : W0 m ρ c (Proc.devRef .tc main_arg4) = m ((c : Thread nD τ).loc main_arg4) := rfl
theorem arg4_at1 (c : Dev nD) : W1 m ρ c (Proc.devRef .tc main_arg4) = m ((c : Thread nD τ).loc main_arg4) :=
  (keep1 m ρ c (by decide)).trans (arg4_at0 m ρ c)

theorem arg5_at0 (c : Dev nD) : W0 m ρ c (Proc.devRef .tc main_arg5) = m ((c : Thread nD τ).loc main_arg5) := rfl
theorem arg5_at1 (c : Dev nD) : W1 m ρ c (Proc.devRef .tc main_arg5) = m ((c : Thread nD τ).loc main_arg5) :=
  (keep1 m ρ c (by decide)).trans (arg5_at0 m ρ c)
theorem arg5_at2 (c : Dev nD) : W2 m ρ c (Proc.devRef .tc main_arg5) = m ((c : Thread nD τ).loc main_arg5) :=
  (keep2 m ρ c (by decide)).trans (arg5_at1 m ρ c)
theorem arg5_at3 (c : Dev nD) : W3 m ρ c (Proc.devRef .tc main_arg5) = m ((c : Thread nD τ).loc main_arg5) :=
  (keep3 m ρ c (by decide)).trans (arg5_at2 m ρ c)
theorem arg5_at4 (c : Dev nD) : W4 m ρ c (Proc.devRef .tc main_arg5) = m ((c : Thread nD τ).loc main_arg5) :=
  (keep4 m ρ c (by decide)).trans (arg5_at3 m ρ c)
theorem arg5_at5 (c : Dev nD) : W5 m ρ c (Proc.devRef .tc main_arg5) = m ((c : Thread nD τ).loc main_arg5) :=
  (keep5 m ρ c (by decide)).trans (arg5_at4 m ρ c)
theorem arg5_at6 (c : Dev nD) : W6 m ρ c (Proc.devRef .tc main_arg5) = m ((c : Thread nD τ).loc main_arg5) :=
  (keep6 m ρ c (by decide)).trans (arg5_at5 m ρ c)
theorem arg5_at7 (c : Dev nD) : W7 m ρ c (Proc.devRef .tc main_arg5) = m ((c : Thread nD τ).loc main_arg5) :=
  (keep7 m ρ c (by decide)).trans (arg5_at6 m ρ c)
theorem arg5_at8 (c : Dev nD) : W8 m ρ c (Proc.devRef .tc main_arg5) = m ((c : Thread nD τ).loc main_arg5) :=
  (keep8 m ρ c (by decide)).trans (arg5_at7 m ρ c)
theorem arg5_at9 (c : Dev nD) : W9 m ρ c (Proc.devRef .tc main_arg5) = m ((c : Thread nD τ).loc main_arg5) :=
  (keep9 m ρ c (by decide)).trans (arg5_at8 m ρ c)
theorem arg5_at10 (c : Dev nD) : W10 m ρ c (Proc.devRef .tc main_arg5) = m ((c : Thread nD τ).loc main_arg5) :=
  (keep10 m ρ c (by decide)).trans (arg5_at9 m ρ c)
theorem arg5_at11 (c : Dev nD) : W11 m ρ c (Proc.devRef .tc main_arg5) = m ((c : Thread nD τ).loc main_arg5) :=
  (keep11 m ρ c (by decide)).trans (arg5_at10 m ρ c)
theorem arg5_at12 (c : Dev nD) : W12 m ρ c (Proc.devRef .tc main_arg5) = m ((c : Thread nD τ).loc main_arg5) :=
  (keep12 m ρ c (by decide)).trans (arg5_at11 m ρ c)
theorem arg5_at13 (c : Dev nD) : W13 m ρ c (Proc.devRef .tc main_arg5) = m ((c : Thread nD τ).loc main_arg5) :=
  (keep13 m ρ c (by decide)).trans (arg5_at12 m ρ c)
theorem arg5_at14 (c : Dev nD) : W14 m ρ c (Proc.devRef .tc main_arg5) = m ((c : Thread nD τ).loc main_arg5) :=
  (keep14 m ρ c (by decide)).trans (arg5_at13 m ρ c)
theorem arg5_at15 (c : Dev nD) : W15 m ρ c (Proc.devRef .tc main_arg5) = m ((c : Thread nD τ).loc main_arg5) :=
  (keep15 m ρ c (by decide)).trans (arg5_at14 m ρ c)
theorem arg5_at16 (c : Dev nD) : W16 m ρ c (Proc.devRef .tc main_arg5) = m ((c : Thread nD τ).loc main_arg5) :=
  (keep16 m ρ c (by decide)).trans (arg5_at15 m ρ c)
theorem arg5_at17 (c : Dev nD) : W17 m ρ c (Proc.devRef .tc main_arg5) = m ((c : Thread nD τ).loc main_arg5) :=
  (keep17 m ρ c (by decide)).trans (arg5_at16 m ρ c)
theorem arg5_at18 (c : Dev nD) : W18 m ρ c (Proc.devRef .tc main_arg5) = m ((c : Thread nD τ).loc main_arg5) :=
  (keep18 m ρ c (by decide)).trans (arg5_at17 m ρ c)
theorem arg5_at19 (c : Dev nD) : W19 m ρ c (Proc.devRef .tc main_arg5) = m ((c : Thread nD τ).loc main_arg5) :=
  (keep19 m ρ c (by decide)).trans (arg5_at18 m ρ c)
theorem arg5_at20 (c : Dev nD) : W20 m ρ c (Proc.devRef .tc main_arg5) = m ((c : Thread nD τ).loc main_arg5) :=
  (keep20 m ρ c (by decide)).trans (arg5_at19 m ρ c)
theorem arg5_at21 (c : Dev nD) : W21 m ρ c (Proc.devRef .tc main_arg5) = m ((c : Thread nD τ).loc main_arg5) :=
  (keep21 m ρ c (by decide)).trans (arg5_at20 m ρ c)
theorem arg5_at22 (c : Dev nD) : W22 m ρ c (Proc.devRef .tc main_arg5) = m ((c : Thread nD τ).loc main_arg5) :=
  (keep22 m ρ c (by decide)).trans (arg5_at21 m ρ c)
theorem arg5_at23 (c : Dev nD) : W23 m ρ c (Proc.devRef .tc main_arg5) = m ((c : Thread nD τ).loc main_arg5) :=
  (keep23 m ρ c (by decide)).trans (arg5_at22 m ρ c)

theorem arg6_at0 (c : Dev nD) : W0 m ρ c (Proc.devRef .tc main_arg6) = m ((c : Thread nD τ).loc main_arg6) := rfl
theorem arg6_at1 (c : Dev nD) : W1 m ρ c (Proc.devRef .tc main_arg6) = m ((c : Thread nD τ).loc main_arg6) :=
  (keep1 m ρ c (by decide)).trans (arg6_at0 m ρ c)
theorem arg6_at2 (c : Dev nD) : W2 m ρ c (Proc.devRef .tc main_arg6) = m ((c : Thread nD τ).loc main_arg6) :=
  (keep2 m ρ c (by decide)).trans (arg6_at1 m ρ c)
theorem arg6_at3 (c : Dev nD) : W3 m ρ c (Proc.devRef .tc main_arg6) = m ((c : Thread nD τ).loc main_arg6) :=
  (keep3 m ρ c (by decide)).trans (arg6_at2 m ρ c)
theorem arg6_at4 (c : Dev nD) : W4 m ρ c (Proc.devRef .tc main_arg6) = m ((c : Thread nD τ).loc main_arg6) :=
  (keep4 m ρ c (by decide)).trans (arg6_at3 m ρ c)
theorem arg6_at5 (c : Dev nD) : W5 m ρ c (Proc.devRef .tc main_arg6) = m ((c : Thread nD τ).loc main_arg6) :=
  (keep5 m ρ c (by decide)).trans (arg6_at4 m ρ c)
theorem arg6_at6 (c : Dev nD) : W6 m ρ c (Proc.devRef .tc main_arg6) = m ((c : Thread nD τ).loc main_arg6) :=
  (keep6 m ρ c (by decide)).trans (arg6_at5 m ρ c)
theorem arg6_at7 (c : Dev nD) : W7 m ρ c (Proc.devRef .tc main_arg6) = m ((c : Thread nD τ).loc main_arg6) :=
  (keep7 m ρ c (by decide)).trans (arg6_at6 m ρ c)
theorem arg6_at8 (c : Dev nD) : W8 m ρ c (Proc.devRef .tc main_arg6) = m ((c : Thread nD τ).loc main_arg6) :=
  (keep8 m ρ c (by decide)).trans (arg6_at7 m ρ c)
theorem arg6_at9 (c : Dev nD) : W9 m ρ c (Proc.devRef .tc main_arg6) = m ((c : Thread nD τ).loc main_arg6) :=
  (keep9 m ρ c (by decide)).trans (arg6_at8 m ρ c)
theorem arg6_at10 (c : Dev nD) : W10 m ρ c (Proc.devRef .tc main_arg6) = m ((c : Thread nD τ).loc main_arg6) :=
  (keep10 m ρ c (by decide)).trans (arg6_at9 m ρ c)
theorem arg6_at11 (c : Dev nD) : W11 m ρ c (Proc.devRef .tc main_arg6) = m ((c : Thread nD τ).loc main_arg6) :=
  (keep11 m ρ c (by decide)).trans (arg6_at10 m ρ c)
theorem arg6_at12 (c : Dev nD) : W12 m ρ c (Proc.devRef .tc main_arg6) = m ((c : Thread nD τ).loc main_arg6) :=
  (keep12 m ρ c (by decide)).trans (arg6_at11 m ρ c)
theorem arg6_at13 (c : Dev nD) : W13 m ρ c (Proc.devRef .tc main_arg6) = m ((c : Thread nD τ).loc main_arg6) :=
  (keep13 m ρ c (by decide)).trans (arg6_at12 m ρ c)
theorem arg6_at14 (c : Dev nD) : W14 m ρ c (Proc.devRef .tc main_arg6) = m ((c : Thread nD τ).loc main_arg6) :=
  (keep14 m ρ c (by decide)).trans (arg6_at13 m ρ c)
theorem arg6_at15 (c : Dev nD) : W15 m ρ c (Proc.devRef .tc main_arg6) = m ((c : Thread nD τ).loc main_arg6) :=
  (keep15 m ρ c (by decide)).trans (arg6_at14 m ρ c)
theorem arg6_at16 (c : Dev nD) : W16 m ρ c (Proc.devRef .tc main_arg6) = m ((c : Thread nD τ).loc main_arg6) :=
  (keep16 m ρ c (by decide)).trans (arg6_at15 m ρ c)
theorem arg6_at17 (c : Dev nD) : W17 m ρ c (Proc.devRef .tc main_arg6) = m ((c : Thread nD τ).loc main_arg6) :=
  (keep17 m ρ c (by decide)).trans (arg6_at16 m ρ c)
theorem arg6_at18 (c : Dev nD) : W18 m ρ c (Proc.devRef .tc main_arg6) = m ((c : Thread nD τ).loc main_arg6) :=
  (keep18 m ρ c (by decide)).trans (arg6_at17 m ρ c)
theorem arg6_at19 (c : Dev nD) : W19 m ρ c (Proc.devRef .tc main_arg6) = m ((c : Thread nD τ).loc main_arg6) :=
  (keep19 m ρ c (by decide)).trans (arg6_at18 m ρ c)
theorem arg6_at20 (c : Dev nD) : W20 m ρ c (Proc.devRef .tc main_arg6) = m ((c : Thread nD τ).loc main_arg6) :=
  (keep20 m ρ c (by decide)).trans (arg6_at19 m ρ c)
theorem arg6_at21 (c : Dev nD) : W21 m ρ c (Proc.devRef .tc main_arg6) = m ((c : Thread nD τ).loc main_arg6) :=
  (keep21 m ρ c (by decide)).trans (arg6_at20 m ρ c)
theorem arg6_at22 (c : Dev nD) : W22 m ρ c (Proc.devRef .tc main_arg6) = m ((c : Thread nD τ).loc main_arg6) :=
  (keep22 m ρ c (by decide)).trans (arg6_at21 m ρ c)
theorem arg6_at23 (c : Dev nD) : W23 m ρ c (Proc.devRef .tc main_arg6) = m ((c : Thread nD τ).loc main_arg6) :=
  (keep23 m ρ c (by decide)).trans (arg6_at22 m ρ c)

theorem arg7_at0 (c : Dev nD) : W0 m ρ c (Proc.devRef .tc main_arg7) = m ((c : Thread nD τ).loc main_arg7) := rfl
theorem arg7_at1 (c : Dev nD) : W1 m ρ c (Proc.devRef .tc main_arg7) = m ((c : Thread nD τ).loc main_arg7) :=
  (keep1 m ρ c (by decide)).trans (arg7_at0 m ρ c)
theorem arg7_at2 (c : Dev nD) : W2 m ρ c (Proc.devRef .tc main_arg7) = m ((c : Thread nD τ).loc main_arg7) :=
  (keep2 m ρ c (by decide)).trans (arg7_at1 m ρ c)
theorem arg7_at3 (c : Dev nD) : W3 m ρ c (Proc.devRef .tc main_arg7) = m ((c : Thread nD τ).loc main_arg7) :=
  (keep3 m ρ c (by decide)).trans (arg7_at2 m ρ c)
theorem arg7_at4 (c : Dev nD) : W4 m ρ c (Proc.devRef .tc main_arg7) = m ((c : Thread nD τ).loc main_arg7) :=
  (keep4 m ρ c (by decide)).trans (arg7_at3 m ρ c)
theorem arg7_at5 (c : Dev nD) : W5 m ρ c (Proc.devRef .tc main_arg7) = m ((c : Thread nD τ).loc main_arg7) :=
  (keep5 m ρ c (by decide)).trans (arg7_at4 m ρ c)
theorem arg7_at6 (c : Dev nD) : W6 m ρ c (Proc.devRef .tc main_arg7) = m ((c : Thread nD τ).loc main_arg7) :=
  (keep6 m ρ c (by decide)).trans (arg7_at5 m ρ c)
theorem arg7_at7 (c : Dev nD) : W7 m ρ c (Proc.devRef .tc main_arg7) = m ((c : Thread nD τ).loc main_arg7) :=
  (keep7 m ρ c (by decide)).trans (arg7_at6 m ρ c)
theorem arg7_at8 (c : Dev nD) : W8 m ρ c (Proc.devRef .tc main_arg7) = m ((c : Thread nD τ).loc main_arg7) :=
  (keep8 m ρ c (by decide)).trans (arg7_at7 m ρ c)
theorem arg7_at9 (c : Dev nD) : W9 m ρ c (Proc.devRef .tc main_arg7) = m ((c : Thread nD τ).loc main_arg7) :=
  (keep9 m ρ c (by decide)).trans (arg7_at8 m ρ c)
theorem arg7_at10 (c : Dev nD) : W10 m ρ c (Proc.devRef .tc main_arg7) = m ((c : Thread nD τ).loc main_arg7) :=
  (keep10 m ρ c (by decide)).trans (arg7_at9 m ρ c)
theorem arg7_at11 (c : Dev nD) : W11 m ρ c (Proc.devRef .tc main_arg7) = m ((c : Thread nD τ).loc main_arg7) :=
  (keep11 m ρ c (by decide)).trans (arg7_at10 m ρ c)
theorem arg7_at12 (c : Dev nD) : W12 m ρ c (Proc.devRef .tc main_arg7) = m ((c : Thread nD τ).loc main_arg7) :=
  (keep12 m ρ c (by decide)).trans (arg7_at11 m ρ c)
theorem arg7_at13 (c : Dev nD) : W13 m ρ c (Proc.devRef .tc main_arg7) = m ((c : Thread nD τ).loc main_arg7) :=
  (keep13 m ρ c (by decide)).trans (arg7_at12 m ρ c)
theorem arg7_at14 (c : Dev nD) : W14 m ρ c (Proc.devRef .tc main_arg7) = m ((c : Thread nD τ).loc main_arg7) :=
  (keep14 m ρ c (by decide)).trans (arg7_at13 m ρ c)
theorem arg7_at15 (c : Dev nD) : W15 m ρ c (Proc.devRef .tc main_arg7) = m ((c : Thread nD τ).loc main_arg7) :=
  (keep15 m ρ c (by decide)).trans (arg7_at14 m ρ c)
theorem arg7_at16 (c : Dev nD) : W16 m ρ c (Proc.devRef .tc main_arg7) = m ((c : Thread nD τ).loc main_arg7) :=
  (keep16 m ρ c (by decide)).trans (arg7_at15 m ρ c)
theorem arg7_at17 (c : Dev nD) : W17 m ρ c (Proc.devRef .tc main_arg7) = m ((c : Thread nD τ).loc main_arg7) :=
  (keep17 m ρ c (by decide)).trans (arg7_at16 m ρ c)
theorem arg7_at18 (c : Dev nD) : W18 m ρ c (Proc.devRef .tc main_arg7) = m ((c : Thread nD τ).loc main_arg7) :=
  (keep18 m ρ c (by decide)).trans (arg7_at17 m ρ c)
theorem arg7_at19 (c : Dev nD) : W19 m ρ c (Proc.devRef .tc main_arg7) = m ((c : Thread nD τ).loc main_arg7) :=
  (keep19 m ρ c (by decide)).trans (arg7_at18 m ρ c)
theorem arg7_at20 (c : Dev nD) : W20 m ρ c (Proc.devRef .tc main_arg7) = m ((c : Thread nD τ).loc main_arg7) :=
  (keep20 m ρ c (by decide)).trans (arg7_at19 m ρ c)
theorem arg7_at21 (c : Dev nD) : W21 m ρ c (Proc.devRef .tc main_arg7) = m ((c : Thread nD τ).loc main_arg7) :=
  (keep21 m ρ c (by decide)).trans (arg7_at20 m ρ c)
theorem arg7_at22 (c : Dev nD) : W22 m ρ c (Proc.devRef .tc main_arg7) = m ((c : Thread nD τ).loc main_arg7) :=
  (keep22 m ρ c (by decide)).trans (arg7_at21 m ρ c)
theorem arg7_at23 (c : Dev nD) : W23 m ρ c (Proc.devRef .tc main_arg7) = m ((c : Thread nD τ).loc main_arg7) :=
  (keep23 m ρ c (by decide)).trans (arg7_at22 m ρ c)

theorem arg8_at0 (c : Dev nD) : W0 m ρ c (Proc.devRef .tc main_arg8) = m ((c : Thread nD τ).loc main_arg8) := rfl
theorem arg8_at1 (c : Dev nD) : W1 m ρ c (Proc.devRef .tc main_arg8) = m ((c : Thread nD τ).loc main_arg8) :=
  (keep1 m ρ c (by decide)).trans (arg8_at0 m ρ c)
theorem arg8_at2 (c : Dev nD) : W2 m ρ c (Proc.devRef .tc main_arg8) = m ((c : Thread nD τ).loc main_arg8) :=
  (keep2 m ρ c (by decide)).trans (arg8_at1 m ρ c)
theorem arg8_at3 (c : Dev nD) : W3 m ρ c (Proc.devRef .tc main_arg8) = m ((c : Thread nD τ).loc main_arg8) :=
  (keep3 m ρ c (by decide)).trans (arg8_at2 m ρ c)
theorem arg8_at4 (c : Dev nD) : W4 m ρ c (Proc.devRef .tc main_arg8) = m ((c : Thread nD τ).loc main_arg8) :=
  (keep4 m ρ c (by decide)).trans (arg8_at3 m ρ c)
theorem arg8_at5 (c : Dev nD) : W5 m ρ c (Proc.devRef .tc main_arg8) = m ((c : Thread nD τ).loc main_arg8) :=
  (keep5 m ρ c (by decide)).trans (arg8_at4 m ρ c)
theorem arg8_at6 (c : Dev nD) : W6 m ρ c (Proc.devRef .tc main_arg8) = m ((c : Thread nD τ).loc main_arg8) :=
  (keep6 m ρ c (by decide)).trans (arg8_at5 m ρ c)
theorem arg8_at7 (c : Dev nD) : W7 m ρ c (Proc.devRef .tc main_arg8) = m ((c : Thread nD τ).loc main_arg8) :=
  (keep7 m ρ c (by decide)).trans (arg8_at6 m ρ c)
theorem arg8_at8 (c : Dev nD) : W8 m ρ c (Proc.devRef .tc main_arg8) = m ((c : Thread nD τ).loc main_arg8) :=
  (keep8 m ρ c (by decide)).trans (arg8_at7 m ρ c)
theorem arg8_at9 (c : Dev nD) : W9 m ρ c (Proc.devRef .tc main_arg8) = m ((c : Thread nD τ).loc main_arg8) :=
  (keep9 m ρ c (by decide)).trans (arg8_at8 m ρ c)
theorem arg8_at10 (c : Dev nD) : W10 m ρ c (Proc.devRef .tc main_arg8) = m ((c : Thread nD τ).loc main_arg8) :=
  (keep10 m ρ c (by decide)).trans (arg8_at9 m ρ c)
theorem arg8_at11 (c : Dev nD) : W11 m ρ c (Proc.devRef .tc main_arg8) = m ((c : Thread nD τ).loc main_arg8) :=
  (keep11 m ρ c (by decide)).trans (arg8_at10 m ρ c)
theorem arg8_at12 (c : Dev nD) : W12 m ρ c (Proc.devRef .tc main_arg8) = m ((c : Thread nD τ).loc main_arg8) :=
  (keep12 m ρ c (by decide)).trans (arg8_at11 m ρ c)
theorem arg8_at13 (c : Dev nD) : W13 m ρ c (Proc.devRef .tc main_arg8) = m ((c : Thread nD τ).loc main_arg8) :=
  (keep13 m ρ c (by decide)).trans (arg8_at12 m ρ c)
theorem arg8_at14 (c : Dev nD) : W14 m ρ c (Proc.devRef .tc main_arg8) = m ((c : Thread nD τ).loc main_arg8) :=
  (keep14 m ρ c (by decide)).trans (arg8_at13 m ρ c)
theorem arg8_at15 (c : Dev nD) : W15 m ρ c (Proc.devRef .tc main_arg8) = m ((c : Thread nD τ).loc main_arg8) :=
  (keep15 m ρ c (by decide)).trans (arg8_at14 m ρ c)
theorem arg8_at16 (c : Dev nD) : W16 m ρ c (Proc.devRef .tc main_arg8) = m ((c : Thread nD τ).loc main_arg8) :=
  (keep16 m ρ c (by decide)).trans (arg8_at15 m ρ c)
theorem arg8_at17 (c : Dev nD) : W17 m ρ c (Proc.devRef .tc main_arg8) = m ((c : Thread nD τ).loc main_arg8) :=
  (keep17 m ρ c (by decide)).trans (arg8_at16 m ρ c)
theorem arg8_at18 (c : Dev nD) : W18 m ρ c (Proc.devRef .tc main_arg8) = m ((c : Thread nD τ).loc main_arg8) :=
  (keep18 m ρ c (by decide)).trans (arg8_at17 m ρ c)
theorem arg8_at19 (c : Dev nD) : W19 m ρ c (Proc.devRef .tc main_arg8) = m ((c : Thread nD τ).loc main_arg8) :=
  (keep19 m ρ c (by decide)).trans (arg8_at18 m ρ c)
theorem arg8_at20 (c : Dev nD) : W20 m ρ c (Proc.devRef .tc main_arg8) = m ((c : Thread nD τ).loc main_arg8) :=
  (keep20 m ρ c (by decide)).trans (arg8_at19 m ρ c)
theorem arg8_at21 (c : Dev nD) : W21 m ρ c (Proc.devRef .tc main_arg8) = m ((c : Thread nD τ).loc main_arg8) :=
  (keep21 m ρ c (by decide)).trans (arg8_at20 m ρ c)
theorem arg8_at22 (c : Dev nD) : W22 m ρ c (Proc.devRef .tc main_arg8) = m ((c : Thread nD τ).loc main_arg8) :=
  (keep22 m ρ c (by decide)).trans (arg8_at21 m ρ c)
theorem arg8_at23 (c : Dev nD) : W23 m ρ c (Proc.devRef .tc main_arg8) = m ((c : Thread nD τ).loc main_arg8) :=
  (keep23 m ρ c (by decide)).trans (arg8_at22 m ρ c)

theorem arg9_at0 (c : Dev nD) : W0 m ρ c (Proc.devRef .tc main_arg9) = m ((c : Thread nD τ).loc main_arg9) := rfl
theorem arg9_at1 (c : Dev nD) : W1 m ρ c (Proc.devRef .tc main_arg9) = m ((c : Thread nD τ).loc main_arg9) :=
  (keep1 m ρ c (by decide)).trans (arg9_at0 m ρ c)
theorem arg9_at2 (c : Dev nD) : W2 m ρ c (Proc.devRef .tc main_arg9) = m ((c : Thread nD τ).loc main_arg9) :=
  (keep2 m ρ c (by decide)).trans (arg9_at1 m ρ c)
theorem arg9_at3 (c : Dev nD) : W3 m ρ c (Proc.devRef .tc main_arg9) = m ((c : Thread nD τ).loc main_arg9) :=
  (keep3 m ρ c (by decide)).trans (arg9_at2 m ρ c)
theorem arg9_at4 (c : Dev nD) : W4 m ρ c (Proc.devRef .tc main_arg9) = m ((c : Thread nD τ).loc main_arg9) :=
  (keep4 m ρ c (by decide)).trans (arg9_at3 m ρ c)
theorem arg9_at5 (c : Dev nD) : W5 m ρ c (Proc.devRef .tc main_arg9) = m ((c : Thread nD τ).loc main_arg9) :=
  (keep5 m ρ c (by decide)).trans (arg9_at4 m ρ c)
theorem arg9_at6 (c : Dev nD) : W6 m ρ c (Proc.devRef .tc main_arg9) = m ((c : Thread nD τ).loc main_arg9) :=
  (keep6 m ρ c (by decide)).trans (arg9_at5 m ρ c)
theorem arg9_at7 (c : Dev nD) : W7 m ρ c (Proc.devRef .tc main_arg9) = m ((c : Thread nD τ).loc main_arg9) :=
  (keep7 m ρ c (by decide)).trans (arg9_at6 m ρ c)
theorem arg9_at8 (c : Dev nD) : W8 m ρ c (Proc.devRef .tc main_arg9) = m ((c : Thread nD τ).loc main_arg9) :=
  (keep8 m ρ c (by decide)).trans (arg9_at7 m ρ c)
theorem arg9_at9 (c : Dev nD) : W9 m ρ c (Proc.devRef .tc main_arg9) = m ((c : Thread nD τ).loc main_arg9) :=
  (keep9 m ρ c (by decide)).trans (arg9_at8 m ρ c)
theorem arg9_at10 (c : Dev nD) : W10 m ρ c (Proc.devRef .tc main_arg9) = m ((c : Thread nD τ).loc main_arg9) :=
  (keep10 m ρ c (by decide)).trans (arg9_at9 m ρ c)
theorem arg9_at11 (c : Dev nD) : W11 m ρ c (Proc.devRef .tc main_arg9) = m ((c : Thread nD τ).loc main_arg9) :=
  (keep11 m ρ c (by decide)).trans (arg9_at10 m ρ c)
theorem arg9_at12 (c : Dev nD) : W12 m ρ c (Proc.devRef .tc main_arg9) = m ((c : Thread nD τ).loc main_arg9) :=
  (keep12 m ρ c (by decide)).trans (arg9_at11 m ρ c)
theorem arg9_at13 (c : Dev nD) : W13 m ρ c (Proc.devRef .tc main_arg9) = m ((c : Thread nD τ).loc main_arg9) :=
  (keep13 m ρ c (by decide)).trans (arg9_at12 m ρ c)
theorem arg9_at14 (c : Dev nD) : W14 m ρ c (Proc.devRef .tc main_arg9) = m ((c : Thread nD τ).loc main_arg9) :=
  (keep14 m ρ c (by decide)).trans (arg9_at13 m ρ c)
theorem arg9_at15 (c : Dev nD) : W15 m ρ c (Proc.devRef .tc main_arg9) = m ((c : Thread nD τ).loc main_arg9) :=
  (keep15 m ρ c (by decide)).trans (arg9_at14 m ρ c)
theorem arg9_at16 (c : Dev nD) : W16 m ρ c (Proc.devRef .tc main_arg9) = m ((c : Thread nD τ).loc main_arg9) :=
  (keep16 m ρ c (by decide)).trans (arg9_at15 m ρ c)
theorem arg9_at17 (c : Dev nD) : W17 m ρ c (Proc.devRef .tc main_arg9) = m ((c : Thread nD τ).loc main_arg9) :=
  (keep17 m ρ c (by decide)).trans (arg9_at16 m ρ c)
theorem arg9_at18 (c : Dev nD) : W18 m ρ c (Proc.devRef .tc main_arg9) = m ((c : Thread nD τ).loc main_arg9) :=
  (keep18 m ρ c (by decide)).trans (arg9_at17 m ρ c)
theorem arg9_at19 (c : Dev nD) : W19 m ρ c (Proc.devRef .tc main_arg9) = m ((c : Thread nD τ).loc main_arg9) :=
  (keep19 m ρ c (by decide)).trans (arg9_at18 m ρ c)
theorem arg9_at20 (c : Dev nD) : W20 m ρ c (Proc.devRef .tc main_arg9) = m ((c : Thread nD τ).loc main_arg9) :=
  (keep20 m ρ c (by decide)).trans (arg9_at19 m ρ c)
theorem arg9_at21 (c : Dev nD) : W21 m ρ c (Proc.devRef .tc main_arg9) = m ((c : Thread nD τ).loc main_arg9) :=
  (keep21 m ρ c (by decide)).trans (arg9_at20 m ρ c)
theorem arg9_at22 (c : Dev nD) : W22 m ρ c (Proc.devRef .tc main_arg9) = m ((c : Thread nD τ).loc main_arg9) :=
  (keep22 m ρ c (by decide)).trans (arg9_at21 m ρ c)
theorem arg9_at23 (c : Dev nD) : W23 m ρ c (Proc.devRef .tc main_arg9) = m ((c : Thread nD τ).loc main_arg9) :=
  (keep23 m ρ c (by decide)).trans (arg9_at22 m ρ c)

theorem arg10_at0 (c : Dev nD) : W0 m ρ c (Proc.devRef .tc main_arg10) = m ((c : Thread nD τ).loc main_arg10) := rfl
theorem arg10_at1 (c : Dev nD) : W1 m ρ c (Proc.devRef .tc main_arg10) = m ((c : Thread nD τ).loc main_arg10) :=
  (keep1 m ρ c (by decide)).trans (arg10_at0 m ρ c)
theorem arg10_at2 (c : Dev nD) : W2 m ρ c (Proc.devRef .tc main_arg10) = m ((c : Thread nD τ).loc main_arg10) :=
  (keep2 m ρ c (by decide)).trans (arg10_at1 m ρ c)
theorem arg10_at3 (c : Dev nD) : W3 m ρ c (Proc.devRef .tc main_arg10) = m ((c : Thread nD τ).loc main_arg10) :=
  (keep3 m ρ c (by decide)).trans (arg10_at2 m ρ c)
theorem arg10_at4 (c : Dev nD) : W4 m ρ c (Proc.devRef .tc main_arg10) = m ((c : Thread nD τ).loc main_arg10) :=
  (keep4 m ρ c (by decide)).trans (arg10_at3 m ρ c)
theorem arg10_at5 (c : Dev nD) : W5 m ρ c (Proc.devRef .tc main_arg10) = m ((c : Thread nD τ).loc main_arg10) :=
  (keep5 m ρ c (by decide)).trans (arg10_at4 m ρ c)
theorem arg10_at6 (c : Dev nD) : W6 m ρ c (Proc.devRef .tc main_arg10) = m ((c : Thread nD τ).loc main_arg10) :=
  (keep6 m ρ c (by decide)).trans (arg10_at5 m ρ c)
theorem arg10_at7 (c : Dev nD) : W7 m ρ c (Proc.devRef .tc main_arg10) = m ((c : Thread nD τ).loc main_arg10) :=
  (keep7 m ρ c (by decide)).trans (arg10_at6 m ρ c)
theorem arg10_at8 (c : Dev nD) : W8 m ρ c (Proc.devRef .tc main_arg10) = m ((c : Thread nD τ).loc main_arg10) :=
  (keep8 m ρ c (by decide)).trans (arg10_at7 m ρ c)
theorem arg10_at9 (c : Dev nD) : W9 m ρ c (Proc.devRef .tc main_arg10) = m ((c : Thread nD τ).loc main_arg10) :=
  (keep9 m ρ c (by decide)).trans (arg10_at8 m ρ c)
theorem arg10_at10 (c : Dev nD) : W10 m ρ c (Proc.devRef .tc main_arg10) = m ((c : Thread nD τ).loc main_arg10) :=
  (keep10 m ρ c (by decide)).trans (arg10_at9 m ρ c)
theorem arg10_at11 (c : Dev nD) : W11 m ρ c (Proc.devRef .tc main_arg10) = m ((c : Thread nD τ).loc main_arg10) :=
  (keep11 m ρ c (by decide)).trans (arg10_at10 m ρ c)
theorem arg10_at12 (c : Dev nD) : W12 m ρ c (Proc.devRef .tc main_arg10) = m ((c : Thread nD τ).loc main_arg10) :=
  (keep12 m ρ c (by decide)).trans (arg10_at11 m ρ c)
theorem arg10_at13 (c : Dev nD) : W13 m ρ c (Proc.devRef .tc main_arg10) = m ((c : Thread nD τ).loc main_arg10) :=
  (keep13 m ρ c (by decide)).trans (arg10_at12 m ρ c)
theorem arg10_at14 (c : Dev nD) : W14 m ρ c (Proc.devRef .tc main_arg10) = m ((c : Thread nD τ).loc main_arg10) :=
  (keep14 m ρ c (by decide)).trans (arg10_at13 m ρ c)
theorem arg10_at15 (c : Dev nD) : W15 m ρ c (Proc.devRef .tc main_arg10) = m ((c : Thread nD τ).loc main_arg10) :=
  (keep15 m ρ c (by decide)).trans (arg10_at14 m ρ c)
theorem arg10_at16 (c : Dev nD) : W16 m ρ c (Proc.devRef .tc main_arg10) = m ((c : Thread nD τ).loc main_arg10) :=
  (keep16 m ρ c (by decide)).trans (arg10_at15 m ρ c)
theorem arg10_at17 (c : Dev nD) : W17 m ρ c (Proc.devRef .tc main_arg10) = m ((c : Thread nD τ).loc main_arg10) :=
  (keep17 m ρ c (by decide)).trans (arg10_at16 m ρ c)
theorem arg10_at18 (c : Dev nD) : W18 m ρ c (Proc.devRef .tc main_arg10) = m ((c : Thread nD τ).loc main_arg10) :=
  (keep18 m ρ c (by decide)).trans (arg10_at17 m ρ c)
theorem arg10_at19 (c : Dev nD) : W19 m ρ c (Proc.devRef .tc main_arg10) = m ((c : Thread nD τ).loc main_arg10) :=
  (keep19 m ρ c (by decide)).trans (arg10_at18 m ρ c)
theorem arg10_at20 (c : Dev nD) : W20 m ρ c (Proc.devRef .tc main_arg10) = m ((c : Thread nD τ).loc main_arg10) :=
  (keep20 m ρ c (by decide)).trans (arg10_at19 m ρ c)
theorem arg10_at21 (c : Dev nD) : W21 m ρ c (Proc.devRef .tc main_arg10) = m ((c : Thread nD τ).loc main_arg10) :=
  (keep21 m ρ c (by decide)).trans (arg10_at20 m ρ c)
theorem arg10_at22 (c : Dev nD) : W22 m ρ c (Proc.devRef .tc main_arg10) = m ((c : Thread nD τ).loc main_arg10) :=
  (keep22 m ρ c (by decide)).trans (arg10_at21 m ρ c)
theorem arg10_at23 (c : Dev nD) : W23 m ρ c (Proc.devRef .tc main_arg10) = m ((c : Thread nD τ).loc main_arg10) :=
  (keep23 m ρ c (by decide)).trans (arg10_at22 m ρ c)

theorem arg11_at0 (c : Dev nD) : W0 m ρ c (Proc.devRef .tc main_arg11) = m ((c : Thread nD τ).loc main_arg11) := rfl
theorem arg11_at1 (c : Dev nD) : W1 m ρ c (Proc.devRef .tc main_arg11) = m ((c : Thread nD τ).loc main_arg11) :=
  (keep1 m ρ c (by decide)).trans (arg11_at0 m ρ c)
theorem arg11_at2 (c : Dev nD) : W2 m ρ c (Proc.devRef .tc main_arg11) = m ((c : Thread nD τ).loc main_arg11) :=
  (keep2 m ρ c (by decide)).trans (arg11_at1 m ρ c)
theorem arg11_at3 (c : Dev nD) : W3 m ρ c (Proc.devRef .tc main_arg11) = m ((c : Thread nD τ).loc main_arg11) :=
  (keep3 m ρ c (by decide)).trans (arg11_at2 m ρ c)
theorem arg11_at4 (c : Dev nD) : W4 m ρ c (Proc.devRef .tc main_arg11) = m ((c : Thread nD τ).loc main_arg11) :=
  (keep4 m ρ c (by decide)).trans (arg11_at3 m ρ c)
theorem arg11_at5 (c : Dev nD) : W5 m ρ c (Proc.devRef .tc main_arg11) = m ((c : Thread nD τ).loc main_arg11) :=
  (keep5 m ρ c (by decide)).trans (arg11_at4 m ρ c)
theorem arg11_at6 (c : Dev nD) : W6 m ρ c (Proc.devRef .tc main_arg11) = m ((c : Thread nD τ).loc main_arg11) :=
  (keep6 m ρ c (by decide)).trans (arg11_at5 m ρ c)
theorem arg11_at7 (c : Dev nD) : W7 m ρ c (Proc.devRef .tc main_arg11) = m ((c : Thread nD τ).loc main_arg11) :=
  (keep7 m ρ c (by decide)).trans (arg11_at6 m ρ c)
theorem arg11_at8 (c : Dev nD) : W8 m ρ c (Proc.devRef .tc main_arg11) = m ((c : Thread nD τ).loc main_arg11) :=
  (keep8 m ρ c (by decide)).trans (arg11_at7 m ρ c)
theorem arg11_at9 (c : Dev nD) : W9 m ρ c (Proc.devRef .tc main_arg11) = m ((c : Thread nD τ).loc main_arg11) :=
  (keep9 m ρ c (by decide)).trans (arg11_at8 m ρ c)
theorem arg11_at10 (c : Dev nD) : W10 m ρ c (Proc.devRef .tc main_arg11) = m ((c : Thread nD τ).loc main_arg11) :=
  (keep10 m ρ c (by decide)).trans (arg11_at9 m ρ c)
theorem arg11_at11 (c : Dev nD) : W11 m ρ c (Proc.devRef .tc main_arg11) = m ((c : Thread nD τ).loc main_arg11) :=
  (keep11 m ρ c (by decide)).trans (arg11_at10 m ρ c)
theorem arg11_at12 (c : Dev nD) : W12 m ρ c (Proc.devRef .tc main_arg11) = m ((c : Thread nD τ).loc main_arg11) :=
  (keep12 m ρ c (by decide)).trans (arg11_at11 m ρ c)
theorem arg11_at13 (c : Dev nD) : W13 m ρ c (Proc.devRef .tc main_arg11) = m ((c : Thread nD τ).loc main_arg11) :=
  (keep13 m ρ c (by decide)).trans (arg11_at12 m ρ c)
theorem arg11_at14 (c : Dev nD) : W14 m ρ c (Proc.devRef .tc main_arg11) = m ((c : Thread nD τ).loc main_arg11) :=
  (keep14 m ρ c (by decide)).trans (arg11_at13 m ρ c)
theorem arg11_at15 (c : Dev nD) : W15 m ρ c (Proc.devRef .tc main_arg11) = m ((c : Thread nD τ).loc main_arg11) :=
  (keep15 m ρ c (by decide)).trans (arg11_at14 m ρ c)
theorem arg11_at16 (c : Dev nD) : W16 m ρ c (Proc.devRef .tc main_arg11) = m ((c : Thread nD τ).loc main_arg11) :=
  (keep16 m ρ c (by decide)).trans (arg11_at15 m ρ c)
theorem arg11_at17 (c : Dev nD) : W17 m ρ c (Proc.devRef .tc main_arg11) = m ((c : Thread nD τ).loc main_arg11) :=
  (keep17 m ρ c (by decide)).trans (arg11_at16 m ρ c)
theorem arg11_at18 (c : Dev nD) : W18 m ρ c (Proc.devRef .tc main_arg11) = m ((c : Thread nD τ).loc main_arg11) :=
  (keep18 m ρ c (by decide)).trans (arg11_at17 m ρ c)
theorem arg11_at19 (c : Dev nD) : W19 m ρ c (Proc.devRef .tc main_arg11) = m ((c : Thread nD τ).loc main_arg11) :=
  (keep19 m ρ c (by decide)).trans (arg11_at18 m ρ c)
theorem arg11_at20 (c : Dev nD) : W20 m ρ c (Proc.devRef .tc main_arg11) = m ((c : Thread nD τ).loc main_arg11) :=
  (keep20 m ρ c (by decide)).trans (arg11_at19 m ρ c)
theorem arg11_at21 (c : Dev nD) : W21 m ρ c (Proc.devRef .tc main_arg11) = m ((c : Thread nD τ).loc main_arg11) :=
  (keep21 m ρ c (by decide)).trans (arg11_at20 m ρ c)
theorem arg11_at22 (c : Dev nD) : W22 m ρ c (Proc.devRef .tc main_arg11) = m ((c : Thread nD τ).loc main_arg11) :=
  (keep22 m ρ c (by decide)).trans (arg11_at21 m ρ c)

theorem arg12_at0 (c : Dev nD) : W0 m ρ c (Proc.devRef .tc main_arg12) = m ((c : Thread nD τ).loc main_arg12) := rfl
theorem arg12_at1 (c : Dev nD) : W1 m ρ c (Proc.devRef .tc main_arg12) = m ((c : Thread nD τ).loc main_arg12) :=
  (keep1 m ρ c (by decide)).trans (arg12_at0 m ρ c)
theorem arg12_at2 (c : Dev nD) : W2 m ρ c (Proc.devRef .tc main_arg12) = m ((c : Thread nD τ).loc main_arg12) :=
  (keep2 m ρ c (by decide)).trans (arg12_at1 m ρ c)
theorem arg12_at3 (c : Dev nD) : W3 m ρ c (Proc.devRef .tc main_arg12) = m ((c : Thread nD τ).loc main_arg12) :=
  (keep3 m ρ c (by decide)).trans (arg12_at2 m ρ c)
theorem arg12_at4 (c : Dev nD) : W4 m ρ c (Proc.devRef .tc main_arg12) = m ((c : Thread nD τ).loc main_arg12) :=
  (keep4 m ρ c (by decide)).trans (arg12_at3 m ρ c)
theorem arg12_at5 (c : Dev nD) : W5 m ρ c (Proc.devRef .tc main_arg12) = m ((c : Thread nD τ).loc main_arg12) :=
  (keep5 m ρ c (by decide)).trans (arg12_at4 m ρ c)
theorem arg12_at6 (c : Dev nD) : W6 m ρ c (Proc.devRef .tc main_arg12) = m ((c : Thread nD τ).loc main_arg12) :=
  (keep6 m ρ c (by decide)).trans (arg12_at5 m ρ c)
theorem arg12_at7 (c : Dev nD) : W7 m ρ c (Proc.devRef .tc main_arg12) = m ((c : Thread nD τ).loc main_arg12) :=
  (keep7 m ρ c (by decide)).trans (arg12_at6 m ρ c)
theorem arg12_at8 (c : Dev nD) : W8 m ρ c (Proc.devRef .tc main_arg12) = m ((c : Thread nD τ).loc main_arg12) :=
  (keep8 m ρ c (by decide)).trans (arg12_at7 m ρ c)
theorem arg12_at9 (c : Dev nD) : W9 m ρ c (Proc.devRef .tc main_arg12) = m ((c : Thread nD τ).loc main_arg12) :=
  (keep9 m ρ c (by decide)).trans (arg12_at8 m ρ c)
theorem arg12_at10 (c : Dev nD) : W10 m ρ c (Proc.devRef .tc main_arg12) = m ((c : Thread nD τ).loc main_arg12) :=
  (keep10 m ρ c (by decide)).trans (arg12_at9 m ρ c)
theorem arg12_at11 (c : Dev nD) : W11 m ρ c (Proc.devRef .tc main_arg12) = m ((c : Thread nD τ).loc main_arg12) :=
  (keep11 m ρ c (by decide)).trans (arg12_at10 m ρ c)
theorem arg12_at12 (c : Dev nD) : W12 m ρ c (Proc.devRef .tc main_arg12) = m ((c : Thread nD τ).loc main_arg12) :=
  (keep12 m ρ c (by decide)).trans (arg12_at11 m ρ c)
theorem arg12_at13 (c : Dev nD) : W13 m ρ c (Proc.devRef .tc main_arg12) = m ((c : Thread nD τ).loc main_arg12) :=
  (keep13 m ρ c (by decide)).trans (arg12_at12 m ρ c)
theorem arg12_at14 (c : Dev nD) : W14 m ρ c (Proc.devRef .tc main_arg12) = m ((c : Thread nD τ).loc main_arg12) :=
  (keep14 m ρ c (by decide)).trans (arg12_at13 m ρ c)
theorem arg12_at15 (c : Dev nD) : W15 m ρ c (Proc.devRef .tc main_arg12) = m ((c : Thread nD τ).loc main_arg12) :=
  (keep15 m ρ c (by decide)).trans (arg12_at14 m ρ c)
theorem arg12_at16 (c : Dev nD) : W16 m ρ c (Proc.devRef .tc main_arg12) = m ((c : Thread nD τ).loc main_arg12) :=
  (keep16 m ρ c (by decide)).trans (arg12_at15 m ρ c)
theorem arg12_at17 (c : Dev nD) : W17 m ρ c (Proc.devRef .tc main_arg12) = m ((c : Thread nD τ).loc main_arg12) :=
  (keep17 m ρ c (by decide)).trans (arg12_at16 m ρ c)
theorem arg12_at18 (c : Dev nD) : W18 m ρ c (Proc.devRef .tc main_arg12) = m ((c : Thread nD τ).loc main_arg12) :=
  (keep18 m ρ c (by decide)).trans (arg12_at17 m ρ c)
theorem arg12_at19 (c : Dev nD) : W19 m ρ c (Proc.devRef .tc main_arg12) = m ((c : Thread nD τ).loc main_arg12) :=
  (keep19 m ρ c (by decide)).trans (arg12_at18 m ρ c)
theorem arg12_at20 (c : Dev nD) : W20 m ρ c (Proc.devRef .tc main_arg12) = m ((c : Thread nD τ).loc main_arg12) :=
  (keep20 m ρ c (by decide)).trans (arg12_at19 m ρ c)
theorem arg12_at21 (c : Dev nD) : W21 m ρ c (Proc.devRef .tc main_arg12) = m ((c : Thread nD τ).loc main_arg12) :=
  (keep21 m ρ c (by decide)).trans (arg12_at20 m ρ c)
theorem arg12_at22 (c : Dev nD) : W22 m ρ c (Proc.devRef .tc main_arg12) = m ((c : Thread nD τ).loc main_arg12) :=
  (keep22 m ρ c (by decide)).trans (arg12_at21 m ρ c)

end Cert.KernelIdeal.Keep

end
-- ==== Proof.Spec.lean ====
/-
  The network both programs compute, entry by entry, on the extended reals.

  An affine layer sends a matrix `x` (one row per node or per edge) to `x · w + b`: entry `(p, q)` is the sum over `k` of
  `x (p, k) · w (k, q)`, plus `b q`. The first layer of the message network acts on the concatenation of two rows
  `(a p, c p)`; splitting the weight matrix into its upper and lower halves turns that product into the sum of two
  products, so it is written here directly as `a · wt + c · wb + b`. A rectifier is `max · 0`. The message network is three
  such layers with a rectifier after the first two. Every one of these is ROW-WISE: row `p` of the result is a function
  of row `p` of the operand(s), which is what lets a tiling of the rows compute it block by block.
-/
import Idealize.ShloMosaic.PureOps.Ideal.Laws
import Idealize.ShloMosaic.Lib.ValueIdx

noncomputable section

namespace Cert.MsgNet

open Idealize.ShloMosaic Idealize.ShloMosaic.ValueIdx

/-- A matrix of extended reals. -/
abbrev Mat (M N : ℕ) := FVec Ideal ⟨2, ![M, N]⟩ .f32
/-- A vector of extended reals. -/
abbrev Row (N : ℕ) := FVec Ideal ⟨1, ![N]⟩ .f32

variable {M K N : ℕ}

/-- `x · w + b`. -/
def affine (x : Mat M K) (w : Mat K N) (b : Row N) : Mat M N :=
  fun i => (∑ k : Fin K, x (ix2 (i 0) k) * w (ix2 k (i 1))) + b (ix1 (i 1))

/-- `a · wt + c · wb + b`: the affine layer on the concatenated rows `(a p, c p)`, the weights split in two halves. -/
def affine2 (a c : Mat M K) (wt wb : Mat K N) (b : Row N) : Mat M N :=
  fun i => ((∑ k : Fin K, a (ix2 (i 0) k) * wt (ix2 k (i 1))) + (∑ k : Fin K, c (ix2 (i 0) k) * wb (ix2 k (i 1)))) + b (ix1 (i 1))

/-- The rectifier, entry by entry. -/
def relu (x : Mat M N) : Mat M N := fun i => max (x i) 0

/-- The message network of one block: three affine layers, the first on concatenated rows, a rectifier after the first
    two. -/
def mlp {D : ℕ} (a c : Mat M D) (wt wb : Mat D D) (b0 : Row D) (w1 : Mat D D) (b1 : Row D) (w2 : Mat D D) (b2 : Row D) : Mat M D :=
  affine (relu (affine (relu (affine2 a c wt wb b0)) w1 b1)) w2 b2

/-! ## Row-wise: a result row only reads the operand's row of the same number -/

variable {M' : ℕ}

theorem affine_rows (x : Mat M K) (x' : Mat M' K) (w : Mat K N) (b : Row N) (i : (⟨2, ![M, N]⟩ : Shape).Idx)
    (j : (⟨2, ![M', N]⟩ : Shape).Idx) (hx : ∀ k : Fin K, x' (ix2 (j 0) k) = x (ix2 (i 0) k)) (h1 : (j 1).val = (i 1).val) :
    affine x' w b j = affine x w b i := by
  have e1 : (j 1 : Fin N) = (i 1 : Fin N) := Fin.ext h1
  unfold affine
  simp only [hx]
  rw [show (j 1) = (i 1) from e1]

theorem affine2_rows (a c : Mat M K) (a' c' : Mat M' K) (wt wb : Mat K N) (b : Row N) (i : (⟨2, ![M, N]⟩ : Shape).Idx)
    (j : (⟨2, ![M', N]⟩ : Shape).Idx) (ha : ∀ k : Fin K, a' (ix2 (j 0) k) = a (ix2 (i 0) k))
    (hc : ∀ k : Fin K, c' (ix2 (j 0) k) = c (ix2 (i 0) k)) (h1 : (j 1).val = (i 1).val) :
    affine2 a' c' wt wb b j = affine2 a c wt wb b i := by
  have e1 : (j 1 : Fin N) = (i 1 : Fin N) := Fin.ext h1
  unfold affine2
  simp only [ha, hc]
  rw [show (j 1) = (i 1) from e1]

theorem relu_rows (x : Mat M N) (x' : Mat M' N) (i : (⟨2, ![M, N]⟩ : Shape).Idx) (j : (⟨2, ![M', N]⟩ : Shape).Idx)
    (hx : x' j = x i) : relu x' j = relu x i := by
  unfold relu; rw [hx]

/-- The message network is row-wise: if row `j 0` of `a'`, `c'` is row `i 0` of `a`, `c`, then entry `j` of the one
    network is entry `i` of the other (same column). -/
theorem mlp_rows {D : ℕ} (a c : Mat M D) (a' c' : Mat M' D) (wt wb : Mat D D) (b0 : Row D) (w1 : Mat D D) (b1 : Row D)
    (w2 : Mat D D) (b2 : Row D) (i : (⟨2, ![M, D]⟩ : Shape).Idx) (j : (⟨2, ![M', D]⟩ : Shape).Idx)
    (ha : ∀ k : Fin D, a' (ix2 (j 0) k) = a (ix2 (i 0) k)) (hc : ∀ k : Fin D, c' (ix2 (j 0) k) = c (ix2 (i 0) k))
    (h1 : (j 1).val = (i 1).val) :
    mlp a' c' wt wb b0 w1 b1 w2 b2 j = mlp a c wt wb b0 w1 b1 w2 b2 i := by
  unfold mlp
  refine affine_rows _ _ _ _ i j (fun k => ?_) h1
  refine relu_rows _ _ _ _ ?_
  refine affine_rows _ _ _ _ _ _ (fun k' => ?_) rfl
  refine relu_rows _ _ _ _ ?_
  exact affine2_rows a c a' c' wt wb b0 _ _ ha hc rfl

end Cert.MsgNet

end
-- ==== Proof.Net.lean ====
/-
  The whole network as ONE function of the thirteen arguments, over the operations the two programs share.

  `h₀ = x · W_in + b_in`; four times `h ↦ Σ_{e : dst e = ·} mlp_k (h (src e), h (dst e))` — the rows of `h` at the edges'
  two ends are gathered, the message network of block `k` is applied row by row, and the messages are summed into their
  destination nodes —; then `out = h₄ · W_out + b_out`. The gather of rows (with numpy's wrap of a negative index) and
  the sum into the destination rows are the host operations both programs print, kept here as they are printed: nothing
  below ever looks inside them. The affine layers and the message network are Proof/Spec.lean's entrywise functions.
-/
import proofs.«430343_j38053410242952_1_alg».proof.Proof.Gen.KernelIdeal
import proofs.«430343_j38053410242952_1_alg».proof.Proof.Spec

noncomputable section

namespace Cert.KernelIdeal.Net

open Cert.KernelIdeal Cert.KernelIdeal.Facts₀ Cert.KernelIdeal.Facts Cert.MsgNet Idealize.ShloMosaic

/-- The edges' sources: row 0 of the edge list. -/
def srcOf (ei : IVec S2x800000 32) : IVec S800000 32 :=
  shapeCast S800000 (extractStridedSlice S1x800000 ![0, 0] ei slices_S2x800000_S1x800000_0_0) shapeCasts_S1x800000_S800000
/-- The edges' destinations: row 1 of the edge list. -/
def dstOf (ei : IVec S2x800000 32) : IVec S800000 32 :=
  shapeCast S800000 (extractStridedSlice S1x800000 ![1, 0] ei slices_S2x800000_S1x800000_1_0) shapeCasts_S1x800000_S800000

/-- A list of node numbers as a column of start indices, a negative number first moved up by the number of nodes. -/
def startIdx (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

section AnyValues
/-! The gathers, the scatter-add and the slices of the parameter tables move values and never compute with them: they
    are stated for any reading of the float formats. -/
variable {F : FTy → Type} [FloatOps F]

/-- The rows of `h` at the listed nodes. -/
def rowsAt (h : FVec F S50000x64 .f32) (idx : IVec S800000 32) : FVec F S800000x64 .f32 :=
  Host.gather gather_S50000x64_S800000x1_S800000x64_1_0_n_n_0_1_164 h (startIdx idx)

/-- The same gather as `jnp.take` at its default mode spells it: a row whose (moved-up) node number is outside
    `0 … 49999` is filled with the not-a-number pattern instead. -/
def rowsAtOrFill (h : FVec F S50000x64 .f32) (idx : IVec S800000 32) : FVec F S800000x64 .f32 :=
  select
    (broadcastInDim S800000x64 ![0] bcast_S800000_S800000x64_0
      (Host.reduce IntOp.andi
        (andi (cmpi .sge (startIdx idx) (broadcastInDim S800000x1 ![] bcast_S_S800000x1 (constantI S_ 32 0#32)))
          (cmpi .sle (startIdx idx) (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_))
    (rowsAt h idx)
    (broadcastInDim S800000x64 ![] bcast_S_S800000x64 (constant (F := F) S_ .f32 0x7FC00000#32))

/-- The messages summed into their destination nodes, from zero. -/
def sumInto (dst : IVec S800000 32) (u : FVec F S800000x64 .f32) : FVec F S50000x64 .f32 :=
  Host.scatterAdd scatter_S50000x64_S800000x1_S800000x64_1_0_0_1
    (broadcastInDim S50000x64 ![] bcast_S_S50000x64 (constant (F := F) S_ .f32 0x00000000#32))
    (broadcastInDim S800000x1 ![0] bcast_S800000_S800000x1_0 dst) u

/-- The upper half (rows 0 … 63) of a first-layer weight matrix: it meets the source's features. -/
def topHalf (w : FVec F S128x64 .f32) : FVec F S64x64 .f32 := extractStridedSlice S64x64 ![0, 0] w slices_S128x64_S64x64_0_0
/-- The lower half (rows 64 … 127): it meets the destination's features. -/
def botHalf (w : FVec F S128x64 .f32) : FVec F S64x64 .f32 := extractStridedSlice S64x64 ![64, 0] w slices_S128x64_S64x64_64_0

/-- Block 0's first-layer weights, `[128, 64]`. -/
def pw0_0 (w0 : FVec F S4x128x64 .f32) : FVec F S128x64 .f32 :=
  shapeCast S128x64 (extractStridedSlice S1x128x64 ![0, 0, 0] w0 slices_S4x128x64_S1x128x64_0_0_0) shapeCasts_S1x128x64_S128x64
/-- Row 0 of a `[4, 64]` bias table. -/
def pb_0 (b : FVec F S4x64 .f32) : FVec F S64 .f32 :=
  shapeCast S64 (extractStridedSlice S1x64 ![0, 0] b slices_S4x64_S1x64_0_0) shapeCasts_S1x64_S64
/-- Matrix 0 of a `[4, 64, 64]` weight table. -/
def pw_0 (w : FVec F S4x64x64 .f32) : FVec F S64x64 .f32 :=
  shapeCast S64x64 (extractStridedSlice S1x64x64 ![0, 0, 0] w slices_S4x64x64_S1x64x64_0_0_0) shapeCasts_S1x64x64_S64x64
/-- Block 1's first-layer weights, `[128, 64]`. -/
def pw0_1 (w0 : FVec F S4x128x64 .f32) : FVec F S128x64 .f32 :=
  shapeCast S128x64 (extractStridedSlice S1x128x64 ![1, 0, 0] w0 slices_S4x128x64_S1x128x64_1_0_0) shapeCasts_S1x128x64_S128x64
/-- Row 1 of a `[4, 64]` bias table. -/
def pb_1 (b : FVec F S4x64 .f32) : FVec F S64 .f32 :=
  shapeCast S64 (extractStridedSlice S1x64 ![1, 0] b slices_S4x64_S1x64_1_0) shapeCasts_S1x64_S64
/-- Matrix 1 of a `[4, 64, 64]` weight table. -/
def pw_1 (w : FVec F S4x64x64 .f32) : FVec F S64x64 .f32 :=
  shapeCast S64x64 (extractStridedSlice S1x64x64 ![1, 0, 0] w slices_S4x64x64_S1x64x64_1_0_0) shapeCasts_S1x64x64_S64x64
/-- Block 2's first-layer weights, `[128, 64]`. -/
def pw0_2 (w0 : FVec F S4x128x64 .f32) : FVec F S128x64 .f32 :=
  shapeCast S128x64 (extractStridedSlice S1x128x64 ![2, 0, 0] w0 slices_S4x128x64_S1x128x64_2_0_0) shapeCasts_S1x128x64_S128x64
/-- Row 2 of a `[4, 64]` bias table. -/
def pb_2 (b : FVec F S4x64 .f32) : FVec F S64 .f32 :=
  shapeCast S64 (extractStridedSlice S1x64 ![2, 0] b slices_S4x64_S1x64_2_0) shapeCasts_S1x64_S64
/-- Matrix 2 of a `[4, 64, 64]` weight table. -/
def pw_2 (w : FVec F S4x64x64 .f32) : FVec F S64x64 .f32 :=
  shapeCast S64x64 (extractStridedSlice S1x64x64 ![2, 0, 0] w slices_S4x64x64_S1x64x64_2_0_0) shapeCasts_S1x64x64_S64x64
/-- Block 3's first-layer weights, `[128, 64]`. -/
def pw0_3 (w0 : FVec F S4x128x64 .f32) : FVec F S128x64 .f32 :=
  shapeCast S128x64 (extractStridedSlice S1x128x64 ![3, 0, 0] w0 slices_S4x128x64_S1x128x64_3_0_0) shapeCasts_S1x128x64_S128x64
/-- Row 3 of a `[4, 64]` bias table. -/
def pb_3 (b : FVec F S4x64 .f32) : FVec F S64 .f32 :=
  shapeCast S64 (extractStridedSlice S1x64 ![3, 0] b slices_S4x64_S1x64_3_0) shapeCasts_S1x64_S64
/-- Matrix 3 of a `[4, 64, 64]` weight table. -/
def pw_3 (w : FVec F S4x64x64 .f32) : FVec F S64x64 .f32 :=
  shapeCast S64x64 (extractStridedSlice S1x64x64 ![3, 0, 0] w slices_S4x64x64_S1x64x64_3_0_0) shapeCasts_S1x64x64_S64x64

end AnyValues

/-- One message-passing block: gather both ends' rows, the message network row by row, sum into the destinations. -/
def layer (src dst : IVec S800000 32) (h : FVec Ideal S50000x64 .f32) (w0 : FVec Ideal S128x64 .f32) (b0 : FVec Ideal S64 .f32)
    (w1 : FVec Ideal S64x64 .f32) (b1 : FVec Ideal S64 .f32) (w2 : FVec Ideal S64x64 .f32) (b2 : FVec Ideal S64 .f32) :
    FVec Ideal S50000x64 .f32 :=
  sumInto dst (mlp (rowsAt h src) (rowsAt h dst) (topHalf w0) (botHalf w0) b0 w1 b1 w2 b2)

/-- The node features after `k` blocks. -/
def feat0 (x : FVec Ideal S50000x16 .f32) (win : FVec Ideal S16x64 .f32) (bin : FVec Ideal S64 .f32) : FVec Ideal S50000x64 .f32 :=
  affine x win bin

section
variable (x : FVec Ideal S50000x16 .f32) (ei : IVec S2x800000 32) (win : FVec Ideal S16x64 .f32) (bin : FVec Ideal S64 .f32)
  (w0 : FVec Ideal S4x128x64 .f32) (b0 : FVec Ideal S4x64 .f32) (w1 : FVec Ideal S4x64x64 .f32) (b1 : FVec Ideal S4x64 .f32)
  (w2 : FVec Ideal S4x64x64 .f32) (b2 : FVec Ideal S4x64 .f32) (wout : FVec Ideal S64x16 .f32) (bout : FVec Ideal S16 .f32)

def feat1 : FVec Ideal S50000x64 .f32 :=
  layer (srcOf ei) (dstOf ei) (feat0 x win bin) (pw0_0 w0) (pb_0 b0) (pw_0 w1) (pb_0 b1) (pw_0 w2) (pb_0 b2)
def feat2 : FVec Ideal S50000x64 .f32 :=
  layer (srcOf ei) (dstOf ei) (feat1 x ei win bin w0 b0 w1 b1 w2 b2) (pw0_1 w0) (pb_1 b0) (pw_1 w1) (pb_1 b1) (pw_1 w2) (pb_1 b2)
def feat3 : FVec Ideal S50000x64 .f32 :=
  layer (srcOf ei) (dstOf ei) (feat2 x ei win bin w0 b0 w1 b1 w2 b2) (pw0_2 w0) (pb_2 b0) (pw_2 w1) (pb_2 b1) (pw_2 w2) (pb_2 b2)
def feat4 : FVec Ideal S50000x64 .f32 :=
  layer (srcOf ei) (dstOf ei) (feat3 x ei win bin w0 b0 w1 b1 w2 b2) (pw0_3 w0) (pb_3 b0) (pw_3 w1) (pb_3 b1) (pw_3 w2) (pb_3 b2)

/-- THE NETWORK: the result both programs are shown to end with. -/
def net : FVec Ideal S50000x16 .f32 := affine (feat4 x ei win bin w0 b0 w1 b1 w2 b2) wout bout
end

end Cert.KernelIdeal.Net

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.KLin0.lean ====
/-
  The first pallas_call: the node projection `h = x · W_in + b_in`, five row blocks of 10000 nodes each.

  The body's one store is the product of the block's rows with the whole weight matrix (into a zero accumulator; the
  change of format on the way in is the identity on the extended reals) plus the bias on every row: the affine layer of
  the block. The affine layer is row-wise and block `t` of the operand is rows `10000 t … 10000 t + 9999` of the array,
  so what point `t` writes back is block `t` of the affine layer of the WHOLE array; the five blocks tile the result.
-/
import proofs.«430343_j38053410242952_1_alg».proof.Proof.Gen.KernelIdeal.Frame
import proofs.«430343_j38053410242952_1_alg».proof.Proof.Spec
import proofs.«430343_j38053410242952_1_alg».proof.Proof.LibDot
import Idealize.ShloMosaic.Lib.Pipeline.Value
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Lin0

open Cert.KernelIdeal Cert.KernelIdeal.Gen Cert.MsgNet

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

theorem dot_plain : dot_S10000x16_S16x64_S10000x64_1_0_0_1_n_n = DotDims.plain 10000 16 64 := rfl

/-- The body's store is the affine layer of the block it loaded. -/
theorem pay_eq (x : Vec Ideal S10000x16 .f32) (w : Vec Ideal S16x64 .f32) (b : Vec Ideal S64 .f32) :
    k0_pay1 (F := Ideal) x w b = affine x w b := by
  funext j
  obtain ⟨p, q, rfl⟩ : ∃ (p : Fin 10000) (q : Fin 64), j = ix2 p q := ⟨j 0, j 1, eq_ix2 j⟩
  show k0_pay1 (F := Ideal) x w b (ix2 p q) = (∑ k : Fin 16, x (ix2 p k) * w (ix2 k q)) + b (ix1 q)
  unfold k0_pay1
  rw [addf_apply, dot_plain]
  refine congrArg₂ (· + ·) ?_ ?_
  · exact Cert.GNN.matmul_plain_zero_apply none (truncf .bf16 x bitsLt_bf16_f32) (truncf .bf16 w bitsLt_bf16_f32) p q
  · exact (broadcastTo_1b_ab_apply _ _ p q).trans (shapeCast_a_1a_apply b _ 0 q)

/-- The array the region's output window ends holding: the affine layer of the arrays its input windows stage. -/
abbrev G (c : Dev nD) : Mat 50000 64 := affine (V c main_arg0 : Mat 50000 16) (V c main_arg3 : Mat 16 64) (V c main_arg4 : Row 64)

/-- The printed index maps over the grid: the operand's and the result's row blocks move with the point, the weights and
    the bias are one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- Block `t` of the operand is its rows `10000 t …`. -/
theorem iblk_x (c : Dev nD) (t : Fin cfg0.N) (y : S10000x16.Idx) (i : S50000x16.Idx)
    (h0 : (i 0).val = t.val * 10000 + (y 0).val) (h1 : (i 1).val = (y 1).val) :
    (iblk0 V c 0 t : Vec Ideal S10000x16 .f32) y = (V c main_arg0 : S50000x16.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 10000 + 1 * (y 0).val = (i 0).val; rw [e0, h0]; omega
  | ⟨1, _⟩ => show win0_0.index t 1 * 16 + 1 * (y 1).val = (i 1).val; rw [e1, h1]; omega

/-- The weights' one block is the whole matrix. -/
theorem iblk_w (c : Dev nD) (t : Fin cfg0.N) : (iblk0 V c 1 t : Vec Ideal S16x64 .f32) = (V c main_arg3 : S16x64.Idx → EReal) := by
  obtain ⟨-, -, e0, e1, -⟩ := idx_facts t
  funext y
  unfold iblk0
  rw [View.read_apply]
  show V c main_arg3 _ = V c main_arg3 _
  congr 1
  funext a
  apply Fin.ext
  match a with
  | ⟨0, _⟩ => show win0_1.index t 0 * 16 + 1 * (y 0).val = (y 0).val; rw [e0]; omega
  | ⟨1, _⟩ => show win0_1.index t 1 * 64 + 1 * (y 1).val = (y 1).val; rw [e1]; omega

/-- The bias' one block is the whole vector. -/
theorem iblk_b (c : Dev nD) (t : Fin cfg0.N) : (iblk0 V c 2 t : Vec Ideal S64 .f32) = (V c main_arg4 : S64.Idx → EReal) := by
  obtain ⟨-, -, -, -, e0, -⟩ := idx_facts t
  funext y
  unfold iblk0
  rw [View.read_apply]
  show V c main_arg4 _ = V c main_arg4 _
  congr 1
  funext a
  apply Fin.ext
  match a with
  | ⟨0, _⟩ => show win0_2.index t 0 * 64 + 1 * (y 0).val = (y 0).val; rw [e0]; omega

/-- WHAT POINT `t` WRITES BACK is block `t` of the affine layer of the whole arrays. -/
theorem flushed_eq (c : Dev nD) (t : Fin cfg0.N) :
    (dat0 V c).flushed 3 t = ((cfg0.win 3).blk t).view.read (Elt Ideal) (G V c) := by
  obtain ⟨-, -, -, -, -, e0, e1⟩ := idx_facts t
  show (cfg0.win 3).cut (grid0.coords t) ((dat0 V c).after 3 t) = _
  rw [after0_3]
  unfold out0_3
  rw [View.canon_unit_zero hz2]
  simp only [View.ld_unit_zero (S := S10000x16) hz2, View.ld_unit_zero (S := S16x64) hz2, View.ld_unit_zero (S := S64) hz1]
  rw [pay_eq, iblk_w, iblk_b]
  funext j
  show affine (iblk0 V c 0 t : Vec Ideal S10000x16 .f32) (V c main_arg3 : Mat 16 64) (V c main_arg4 : Row 64) j
    = affine (V c main_arg0 : Mat 50000 16) (V c main_arg3 : Mat 16 64) (V c main_arg4 : Row 64) (((cfg0.win 3).blk t).view.emb j)
  have h0 : ((((cfg0.win 3).blk t).view.emb j) 0).val = t.val * 10000 + (j 0).val := by
    show win0_3.index t 0 * 10000 + 1 * (j 0).val = _; rw [e0]; omega
  have h1 : ((((cfg0.win 3).blk t).view.emb j) 1).val = (j 1).val := by
    show win0_3.index t 1 * 64 + 1 * (j 1).val = _; rw [e1]; omega
  refine affine_rows _ _ _ _ _ j (fun k => ?_) h1.symm
  exact iblk_x V c t _ _ h0 rfl

/-- The five row blocks tile the result. -/
theorem cover (c : Dev nD) (i : ((cfg0.win 3).arr.view.loc (c.tc : Thread nD τ)).2.ty.Idx) : ∃ t : Fin cfg0.N, (cfg0.win 3).flush t = true ∧ i ∈ ((cfg0.win 3).blk t).view.set := by
  have hi0 : (i 0).val < 50000 := (i 0).isLt
  have hi1 : (i 1).val < 64 := (i 1).isLt
  have ht : (i 0).val / 10000 < cfg0.N := by rw [show cfg0.N = 5 from N_0]; omega
  obtain ⟨t, htv⟩ : ∃ t : Fin cfg0.N, t.val = (i 0).val / 10000 := ⟨⟨_, ht⟩, rfl⟩
  refine ⟨t, flush0_3 t, ?_⟩
  obtain ⟨-, -, -, -, -, e0, e1⟩ := idx_facts t
  show i ∈ ((View.whole main_v4).slice (win0_3.rect t)).set
  rw [View.set_slice_whole, Rect.mem_set_unit]
  intro a
  match a with
  | ⟨0, _⟩ => show win0_3.index t 0 * 10000 ≤ (i 0).val ∧ (i 0).val < win0_3.index t 0 * 10000 + 10000; rw [e0, htv]; omega
  | ⟨1, _⟩ => show win0_3.index t 1 * 64 ≤ (i 1).val ∧ (i 1).val < win0_3.index t 1 * 64 + 64; rw [e1]; omega

/-- THE ARRAY after the region: the affine layer of the arrays the region found. -/
theorem final (c : Dev nD) : (dat0 V c).arrAt 3 cfg0.N = G V c :=
  (dat0 V c).arrAt_eq_of_cover 3 (G V c) (fun t _ => flushed_eq V c t) (cover c)

end Cert.KernelIdeal.Lin0

end
-- ==== Proof.KLin5.lean ====
/-
  The last kernel region: the output projection `out = h · W_out + b_out`, five row blocks of 10000 nodes each.

  The body's one store is the product of the block's rows with the whole weight matrix (into a zero accumulator; the
  reshape to the same shape and the change of format on the way in are the identity on the extended reals) plus the bias
  on every row: the affine layer of the block. The affine layer is row-wise and block `t` of the operand is rows
  `10000 t … 10000 t + 9999` of the array, so what point `t` writes back is block `t` of the affine layer of the
  WHOLE array; the five blocks tile the result.
-/
import proofs.«430343_j38053410242952_1_alg».proof.Proof.Gen.KernelIdeal.Frame
import proofs.«430343_j38053410242952_1_alg».proof.Proof.Spec
import proofs.«430343_j38053410242952_1_alg».proof.Proof.LibDot
import Idealize.ShloMosaic.Lib.Pipeline.Value
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Lin5

open Cert.KernelIdeal Cert.KernelIdeal.Gen Cert.MsgNet

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

theorem dot_plain : dot_S10000x64_S64x16_S10000x16_1_0_0_1_n_n = DotDims.plain 10000 64 16 := rfl

/-- The body's store is the affine layer of the block it loaded. -/
theorem pay_eq (x : Vec Ideal S10000x64 .f32) (w : Vec Ideal S64x16 .f32) (b : Vec Ideal S16 .f32) :
    k5_pay1 (F := Ideal) x w b = affine x w b := by
  funext j
  obtain ⟨p, q, rfl⟩ : ∃ (p : Fin 10000) (q : Fin 16), j = ix2 p q := ⟨j 0, j 1, eq_ix2 j⟩
  show k5_pay1 (F := Ideal) x w b (ix2 p q) = (∑ k : Fin 64, x (ix2 p k) * w (ix2 k q)) + b (ix1 q)
  unfold k5_pay1
  rw [addf_apply, dot_plain, shapeCast_self]
  refine congrArg₂ (· + ·) ?_ ?_
  · exact Cert.GNN.matmul_plain_zero_apply none (truncf .bf16 x bitsLt_bf16_f32) (truncf .bf16 w bitsLt_bf16_f32) p q
  · exact (broadcastTo_1b_ab_apply _ _ p q).trans (shapeCast_a_1a_apply b _ 0 q)

/-- The array the region's output window ends holding: the affine layer of the arrays its input windows stage. -/
abbrev G (c : Dev nD) : Mat 50000 16 := affine (V c main_v84 : Mat 50000 64) (V c main_arg11 : Mat 64 16) (V c main_arg12 : Row 16)

/-- The printed index maps over the grid: the operand's and the result's row blocks move with the point, the weights and
    the bias are one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0 ∧ win5_2.index t (0 : Fin 1) = 0
    ∧ win5_3.index t (0 : Fin 2) = t.val ∧ win5_3.index t (1 : Fin 2) = 0 :=
  (by decide +kernel : ∀ t : Fin grid5.N, _)

/-- Block `t` of the operand is its rows `10000 t …`. -/
theorem iblk_x (c : Dev nD) (t : Fin cfg5.N) (y : S10000x64.Idx) (i : S50000x64.Idx)
    (h0 : (i 0).val = t.val * 10000 + (y 0).val) (h1 : (i 1).val = (y 1).val) :
    (iblk5 V c 0 t : Vec Ideal S10000x64 .f32) y = (V c main_v84 : S50000x64.Idx → EReal) i := by
  obtain ⟨e0, e1, -⟩ := idx_facts t
  unfold iblk5
  rw [View.read_apply]
  show V c main_v84 _ = V c main_v84 _
  congr 1
  funext a
  apply Fin.ext
  match a with
  | ⟨0, _⟩ => show win5_0.index t 0 * 10000 + 1 * (y 0).val = (i 0).val; rw [e0, h0]; omega
  | ⟨1, _⟩ => show win5_0.index t 1 * 64 + 1 * (y 1).val = (i 1).val; rw [e1, h1]; omega

/-- The weights' one block is the whole matrix. -/
theorem iblk_w (c : Dev nD) (t : Fin cfg5.N) : (iblk5 V c 1 t : Vec Ideal S64x16 .f32) = (V c main_arg11 : S64x16.Idx → EReal) := by
  obtain ⟨-, -, e0, e1, -⟩ := idx_facts t
  funext y
  unfold iblk5
  rw [View.read_apply]
  show V c main_arg11 _ = V c main_arg11 _
  congr 1
  funext a
  apply Fin.ext
  match a with
  | ⟨0, _⟩ => show win5_1.index t 0 * 64 + 1 * (y 0).val = (y 0).val; rw [e0]; omega
  | ⟨1, _⟩ => show win5_1.index t 1 * 16 + 1 * (y 1).val = (y 1).val; rw [e1]; omega

/-- The bias' one block is the whole vector. -/
theorem iblk_b (c : Dev nD) (t : Fin cfg5.N) : (iblk5 V c 2 t : Vec Ideal S16 .f32) = (V c main_arg12 : S16.Idx → EReal) := by
  obtain ⟨-, -, -, -, e0, -⟩ := idx_facts t
  funext y
  unfold iblk5
  rw [View.read_apply]
  show V c main_arg12 _ = V c main_arg12 _
  congr 1
  funext a
  apply Fin.ext
  match a with
  | ⟨0, _⟩ => show win5_2.index t 0 * 16 + 1 * (y 0).val = (y 0).val; rw [e0]; omega

/-- WHAT POINT `t` WRITES BACK is block `t` of the affine layer of the whole arrays. -/
theorem flushed_eq (c : Dev nD) (t : Fin cfg5.N) :
    (dat5 V c).flushed 3 t = ((cfg5.win 3).blk t).view.read (Elt Ideal) (G V c) := by
  obtain ⟨-, -, -, -, -, e0, e1⟩ := idx_facts t
  show (cfg5.win 3).cut (grid5.coords t) ((dat5 V c).after 3 t) = _
  rw [after5_3]
  unfold out5_3
  rw [View.canon_unit_zero hz2]
  simp only [View.ld_unit_zero (S := S10000x64) hz2, View.ld_unit_zero (S := S64x16) hz2, View.ld_unit_zero (S := S16) hz1]
  rw [pay_eq, iblk_w, iblk_b]
  funext j
  show affine (iblk5 V c 0 t : Vec Ideal S10000x64 .f32) (V c main_arg11 : Mat 64 16) (V c main_arg12 : Row 16) j
    = affine (V c main_v84 : Mat 50000 64) (V c main_arg11 : Mat 64 16) (V c main_arg12 : Row 16) (((cfg5.win 3).blk t).view.emb j)
  have h0 : ((((cfg5.win 3).blk t).view.emb j) 0).val = t.val * 10000 + (j 0).val := by
    show win5_3.index t 0 * 10000 + 1 * (j 0).val = _; rw [e0]; omega
  have h1 : ((((cfg5.win 3).blk t).view.emb j) 1).val = (j 1).val := by
    show win5_3.index t 1 * 16 + 1 * (j 1).val = _; rw [e1]; omega
  refine affine_rows _ _ _ _ _ j (fun k => ?_) h1.symm
  exact iblk_x V c t _ _ h0 rfl

/-- The five row blocks tile the result. -/
theorem cover (c : Dev nD) (i : ((cfg5.win 3).arr.view.loc (c.tc : Thread nD τ)).2.ty.Idx) : ∃ t : Fin cfg5.N, (cfg5.win 3).flush t = true ∧ i ∈ ((cfg5.win 3).blk t).view.set := by
  have hi0 : (i 0).val < 50000 := (i 0).isLt
  have hi1 : (i 1).val < 16 := (i 1).isLt
  have ht : (i 0).val / 10000 < cfg5.N := by rw [show cfg5.N = 5 from N_5]; omega
  obtain ⟨t, htv⟩ : ∃ t : Fin cfg5.N, t.val = (i 0).val / 10000 := ⟨⟨_, ht⟩, rfl⟩
  refine ⟨t, flush5_3 t, ?_⟩
  obtain ⟨-, -, -, -, -, e0, e1⟩ := idx_facts t
  show i ∈ ((View.whole main_v85).slice (win5_3.rect t)).set
  rw [View.set_slice_whole, Rect.mem_set_unit]
  intro a
  match a with
  | ⟨0, _⟩ => show win5_3.index t 0 * 10000 ≤ (i 0).val ∧ (i 0).val < win5_3.index t 0 * 10000 + 10000; rw [e0, htv]; omega
  | ⟨1, _⟩ => show win5_3.index t 1 * 16 ≤ (i 1).val ∧ (i 1).val < win5_3.index t 1 * 16 + 16; rw [e1]; omega

/-- THE ARRAY after the region: the affine layer of the arrays the region found. -/
theorem final (c : Dev nD) : (dat5 V c).arrAt 3 cfg5.N = G V c :=
  (dat5 V c).arrAt_eq_of_cover 3 (G V c) (fun t _ => flushed_eq V c t) (cover c)

end Cert.KernelIdeal.Lin5

end
-- ==== Proof.Take.lean ====
/-
  The two spellings of a gather of rows are one under the range hypothesis.

  One spelling reads the rows of `h` at the listed node numbers (a negative number first moved up by the number of
  nodes). The other masks that same gather: a row whose moved-up node number is outside `0 … 49999` is replaced by a
  fill pattern. When every listed node number is already in `0 … 49999`, the move-up leaves it alone, both comparisons
  of the mask hold, the `and` over the unit axis of the two comparisons is 1, and the select keeps the gathered row.
-/
import proofs.«430343_j38053410242952_1_alg».proof.Proof.Net
import Idealize.ShloMosaic.Lib.ValueIdx
import Idealize.ShloMosaic.Lib.ValueLayout
import Idealize.ShloMosaic.Lib.ReduceAll
import Idealize.ShloMosaic.Lib.StableHlo.Predicate
import Idealize.ShloMosaic.Lib.Pipeline.Value

noncomputable section

namespace Cert.KernelIdeal.Take

open Cert.KernelIdeal Cert.KernelIdeal.Facts₀ Cert.KernelIdeal.Facts Idealize.ShloMosaic Idealize.ShloMosaic.ValueIdx

/-! ## Words: a 32-bit word whose signed value lies in `0 … 49999` -/

/-- Such a word's unsigned value is its signed value. -/
theorem toNat_lt (v : BitVec 32) (h0 : 0 ≤ v.toInt) (h1 : v.toInt < 50000) : v.toNat < 50000 := by
  rw [BitVec.toInt_eq_toNat_cond] at h0 h1
  split at h0 <;> omega

/-- It is not below zero (signed). -/
theorem slt_zero (v : BitVec 32) (h0 : 0 ≤ v.toInt) (h1 : v.toInt < 50000) : IntOp.cmpi .slt v 0#32 = 0#1 := by
  have hv := toNat_lt v h0 h1
  refine eq_zero_of_ne_one fun h => ?_
  have := (StableHlo.Predicate.slt_iff_toNat (a := v) (b := 0#32) (by omega) (by decide)).1 h
  simp at this

/-- It is at least zero (signed). -/
theorem sge_zero (v : BitVec 32) (h0 : 0 ≤ v.toInt) (h1 : v.toInt < 50000) : IntOp.cmpi .sge v 0#32 = 1#1 := by
  have hv := toNat_lt v h0 h1
  exact (StableHlo.Predicate.sge_iff_toNat (a := v) (b := 0#32) (by omega) (by decide)).2 (by simp)

/-- It is at most 49999 (signed). -/
theorem sle_top (v : BitVec 32) (h0 : 0 ≤ v.toInt) (h1 : v.toInt < 50000) : IntOp.cmpi .sle v 49999#32 = 1#1 := by
  have hv := toNat_lt v h0 h1
  exact (StableHlo.Predicate.sle_iff_toNat (a := v) (b := 49999#32) (by omega) (by decide)).2 (by
    show v.toNat ≤ (49999#32).toNat
    have : (49999#32).toNat = 49999 := by decide
    omega)

/-- The move-up of a negative number leaves it alone. -/
theorem wrap_id (v : BitVec 32) (h0 : 0 ≤ v.toInt) (h1 : v.toInt < 50000) :
    Scalar.select (IntOp.cmpi .slt v 0#32) (IntOp.addi v 50000#32) v = v := by
  rw [slt_zero v h0 h1, select_zero]

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_one f l _ (IntOp.andi_eq_one.2 ⟨h, hl a (List.mem_cons_self ..)⟩)
      (fun n hn => hl n (List.mem_cons_of_mem _ hn))

/-! ## The column of start indices at a row -/

/-- Under the range hypothesis the column of start indices reads the listed node number itself. -/
theorem startIdx_apply (idx : IVec S800000 32) (hr : ∀ e : S800000.Idx, 0 ≤ (idx e).toInt ∧ (idx e).toInt < 50000)
    (j : S800000x1.Idx) : Net.startIdx idx j = idx (ix1 (j 0)) := by
  unfold Net.startIdx
  rw [broadcastInDim_apply _ bcast_S800000_S800000x1_0 _ j (ix1 (j 0)) (fun a => match a with
    | ⟨0, _⟩ => by show (j 0).val = if (800000 : Nat) = 1 then 0 else (j 0).val; rw [if_neg (by decide)])]
  rw [select_apply]
  show Scalar.select (IntOp.cmpi .slt (idx (ix1 (j 0))) (broadcastInDim S800000 ![] bcast_S_S800000 (constantI S_ 32 0#32) (ix1 (j 0))))
    (IntOp.addi (idx (ix1 (j 0))) (broadcastInDim S800000 ![] bcast_S_S800000 (constantI S_ 32 50000#32) (ix1 (j 0)))) (idx (ix1 (j 0))) = _
  rw [broadcastInDim_apply _ bcast_S_S800000 (constantI S_ 32 0#32) (ix1 (j 0)) ix0 (fun a => a.elim0),
    broadcastInDim_apply _ bcast_S_S800000 (constantI S_ 32 50000#32) (ix1 (j 0)) ix0 (fun a => a.elim0),
    constantI_apply, constantI_apply]
  exact wrap_id _ (hr _).1 (hr _).2

/-- Each element of the mask's operand (the two comparisons joined by `and`) is 1. -/
theorem cmpBit (idx : IVec S800000 32) (hr : ∀ e : S800000.Idx, 0 ≤ (idx e).toInt ∧ (idx e).toInt < 50000)
    (j : S800000x1.Idx) :
    andi (cmpi .sge (Net.startIdx idx) (broadcastInDim S800000x1 ![] bcast_S_S800000x1 (constantI S_ 32 0#32)))
      (cmpi .sle (Net.startIdx idx) (broadcastInDim S800000x1 ![0, 1] bcast_S1x1_S800000x1_0_1
        (broadcastInDim S1x1 ![1] bcast_S1_S1x1_1 (constantI S1 32 49999#32)))) j = 1#1 := by
  show IntOp.andi (IntOp.cmpi .sge (Net.startIdx idx j) (broadcastInDim S800000x1 ![] bcast_S_S800000x1 (constantI S_ 32 0#32) j))
    (IntOp.cmpi .sle (Net.startIdx idx j) (broadcastInDim S800000x1 ![0, 1] bcast_S1x1_S800000x1_0_1
        (broadcastInDim S1x1 ![1] bcast_S1_S1x1_1 (constantI S1 32 49999#32)) j)) = 1#1
  rw [startIdx_apply idx hr j]
  rw [broadcastInDim_apply _ bcast_S_S800000x1 (constantI S_ 32 0#32) j ix0 (fun a => a.elim0), constantI_apply]
  rw [broadcastInDim_apply _ bcast_S1x1_S800000x1_0_1 _ j (ix2 ⟨0, Nat.one_pos⟩ ⟨0, Nat.one_pos⟩) (fun a => match a with
    | ⟨0, _⟩ => by show 0 = if (1 : Nat) = 1 then 0 else (j 0).val; rw [if_pos rfl]
    | ⟨1, _⟩ => by show 0 = if (1 : Nat) = 1 then 0 else (j 1).val; rw [if_pos rfl])]
  rw [broadcastInDim_apply _ bcast_S1_S1x1_1 (constantI S1 32 49999#32) (ix2 ⟨0, Nat.one_pos⟩ ⟨0, Nat.one_pos⟩) (ix1 ⟨0, Nat.one_pos⟩)
    (fun a => match a with
    | ⟨0, _⟩ => by show 0 = if (1 : Nat) = 1 then 0 else _; rw [if_pos rfl]), constantI_apply]
  exact IntOp.andi_eq_one.2 ⟨sge_zero _ (hr _).1 (hr _).2, sle_top _ (hr _).1 (hr _).2⟩

/-- The mask (the `and` over the unit axis of the two comparisons, from 1) is 1 at every row. -/
theorem maskBit (idx : IVec S800000 32) (hr : ∀ e : S800000.Idx, 0 ≤ (idx e).toInt ∧ (idx e).toInt < 50000)
    (e : S800000.Idx) :
    Host.reduce IntOp.andi
        (andi (cmpi .sge (Net.startIdx idx) (broadcastInDim S800000x1 ![] bcast_S_S800000x1 (constantI S_ 32 0#32)))
          (cmpi .sle (Net.startIdx idx) (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_ e = 1#1 := by
  rw [Host.reduce_eq_foldl]
  exact foldl_andi_one _ _ _ (constantI_apply _ _) (fun n _ => cmpBit idx hr n)

/-! ## The theorem -/

/-- Under the range hypothesis the masked gather is the gather. -/
theorem rowsAtOrFill_eq (h : FVec Ideal S50000x64 .f32) (idx : IVec S800000 32)
    (hr : ∀ e : S800000.Idx, 0 ≤ (idx e).toInt ∧ (idx e).toInt < 50000) : Net.rowsAtOrFill h idx = Net.rowsAt h idx := by
  funext i
  unfold Net.rowsAtOrFill
  rw [select_apply]
  rw [broadcastInDim_apply _ bcast_S800000_S800000x64_0 _ i (ix1 (i 0)) (fun a => match a with
    | ⟨0, _⟩ => by show (i 0).val = if (800000 : Nat) = 1 then 0 else (i 0).val; rw [if_neg (by decide)])]
  rw [maskBit idx hr, select_one]

end Cert.KernelIdeal.Take

end
-- ==== Proof.KMlp1.lean ====
/-
  The per-edge message network of the first round, computed in one hundred row blocks of 8000 edges each.

  The body's one store is three affine layers of the block it loaded, a rectifier after the first two. The first layer
  acts on the pair (source row, destination row): the product of the source rows with the upper half of the weights plus
  the product of the destination rows with the lower half, plus the bias on every row. Every product goes into a zero
  accumulator and the change of format on the way in is the identity on the extended reals, so each layer is the affine
  layer of the specification; the rectifier is the maximum with the zero word, which is the real zero. The network is
  row-wise and block `t` of either operand is rows `8000 t … 8000 t + 7999` of its array, while each weight matrix and
  bias is one block, the whole array, at every point: what point `t` writes back is block `t` of the network of the WHOLE
  arrays; the hundred blocks tile the result.
-/
import proofs.«430343_j38053410242952_1_alg».proof.Proof.Gen.KernelIdeal.Frame
import proofs.«430343_j38053410242952_1_alg».proof.Proof.Spec
import proofs.«430343_j38053410242952_1_alg».proof.Proof.LibDot
import Idealize.ShloMosaic.Lib.Pipeline.Value
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Mlp1

open Cert.KernelIdeal Cert.KernelIdeal.Gen Cert.MsgNet

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

theorem dot_plain : dot_S8000x64_S64x64_S8000x64_1_0_0_1_n_n = DotDims.plain 8000 64 64 := rfl

/-! ## The body's layers, as the body spells them -/

/-- A bias vector laid on every row, as the body spells it. -/
abbrev biasK (b : Vec Ideal S64 .f32) : FVec Ideal S8000x64 .f32 :=
  broadcastTo S8000x64 (shapeCast S1x64 (shapeCast S64 b shapeCasts_S64_S64) shapeCasts_S64_S1x64) broadcasts_S1x64_S8000x64

/-- A block's product with a weight matrix into the zero accumulator, as the body spells it. -/
abbrev prodK (x : FVec Ideal S8000x64 .f32) (w : Vec Ideal S64x64 .f32) : FVec Ideal S8000x64 .f32 :=
  matmul dot_S8000x64_S64x64_S8000x64_1_0_0_1_n_n none (truncf .bf16 x bitsLt_bf16_f32)
    (truncf .bf16 (shapeCast S64x64 w shapeCasts_S64x64_S64x64) bitsLt_bf16_f32) (constant S8000x64 .f32 0x00000000#32)

/-- The maximum with the zero word, as the body spells it. -/
abbrev reluK (x : FVec Ideal S8000x64 .f32) : FVec Ideal S8000x64 .f32 :=
  maximumf x (broadcast S8000x64 (Scalar.ofBits .f32 0x00000000#32))

theorem bias_apply (b : Vec Ideal S64 .f32) (p : Fin 8000) (q : Fin 64) : biasK b (ix2 p q) = b (ix1 q) := by
  show broadcastTo S8000x64 (shapeCast S1x64 (shapeCast S64 b shapeCasts_S64_S64) shapeCasts_S64_S1x64) broadcasts_S1x64_S8000x64 (ix2 p q) = _
  rw [shapeCast_self]
  exact (broadcastTo_1b_ab_apply _ _ p q).trans (shapeCast_a_1a_apply b _ 0 q)

theorem prod_apply (x : FVec Ideal S8000x64 .f32) (w : Vec Ideal S64x64 .f32) (p : Fin 8000) (q : Fin 64) :
    prodK x w (ix2 p q) = ∑ k : Fin 64, x (ix2 p k) * w (ix2 k q) := by
  show matmul dot_S8000x64_S64x64_S8000x64_1_0_0_1_n_n none (truncf .bf16 x bitsLt_bf16_f32)
    (truncf .bf16 (shapeCast S64x64 w shapeCasts_S64x64_S64x64) bitsLt_bf16_f32) (constant S8000x64 .f32 0x00000000#32) (ix2 p q) = _
  rw [shapeCast_self, dot_plain]
  exact Cert.GNN.matmul_plain_zero_apply none (truncf .bf16 x bitsLt_bf16_f32) (truncf .bf16 w bitsLt_bf16_f32) p q

/-- One product plus the bias is the affine layer. -/
theorem affine_pay (x : FVec Ideal S8000x64 .f32) (w : Vec Ideal S64x64 .f32) (b : Vec Ideal S64 .f32) :
    addf (prodK x w) (biasK b) = affine x w b := by
  funext j
  obtain ⟨p, q, rfl⟩ : ∃ (p : Fin 8000) (q : Fin 64), j = ix2 p q := ⟨j 0, j 1, eq_ix2 j⟩
  show addf (prodK x w) (biasK b) (ix2 p q) = (∑ k : Fin 64, x (ix2 p k) * w (ix2 k q)) + b (ix1 q)
  rw [addf_apply, prod_apply, bias_apply]

/-- The sum of two products plus the bias is the affine layer on the pair of rows. -/
theorem affine2_pay (a c : FVec Ideal S8000x64 .f32) (wt wb : Vec Ideal S64x64 .f32) (b : Vec Ideal S64 .f32) :
    addf (addf (prodK a wt) (prodK c wb)) (biasK b) = affine2 a c wt wb b := by
  funext j
  obtain ⟨p, q, rfl⟩ : ∃ (p : Fin 8000) (q : Fin 64), j = ix2 p q := ⟨j 0, j 1, eq_ix2 j⟩
  show addf (addf (prodK a wt) (prodK c wb)) (biasK b) (ix2 p q)
    = ((∑ k : Fin 64, a (ix2 p k) * wt (ix2 k q)) + (∑ k : Fin 64, c (ix2 p k) * wb (ix2 k q))) + b (ix1 q)
  rw [addf_apply, addf_apply, prod_apply, prod_apply, bias_apply]

/-- The maximum with the zero word is the rectifier. -/
theorem relu_pay (x : FVec Ideal S8000x64 .f32) : reluK x = relu x := by
  funext j
  show max (x j) (Ideal.ofBits .f32 0x00000000#32) = max (x j) 0
  rw [Ideal.ofBits_zero_f32]

/-- The body's store is the message network of the blocks it loaded. -/
theorem pay_eq (a c : Vec Ideal S8000x64 .f32) (wt wb : Vec Ideal S64x64 .f32) (b0 : Vec Ideal S64 .f32)
    (w1 : Vec Ideal S64x64 .f32) (b1 : Vec Ideal S64 .f32) (w2 : Vec Ideal S64x64 .f32) (b2 : Vec Ideal S64 .f32) :
    k1_pay1 (F := Ideal) (k1_pay2 a c wt wb b0 w1 b1 w2) b2 = mlp a c wt wb b0 w1 b1 w2 b2 := by
  show addf (prodK (reluK (addf (prodK (reluK (addf (addf
      (prodK (shapeCast S8000x64 a shapeCasts_S8000x64_S8000x64) wt) (prodK (shapeCast S8000x64 c shapeCasts_S8000x64_S8000x64) wb))
      (biasK b0))) w1) (biasK b1))) w2) (biasK b2) = _
  rw [shapeCast_self, shapeCast_self, affine2_pay, relu_pay, affine_pay, relu_pay, affine_pay]
  rfl

/-- The array the region's output window ends holding: the message network of the arrays its input windows stage. -/
abbrev G (c : Dev nD) : Mat 800000 64 := mlp (V c main_v5 : Mat 800000 64) (V c main_v6 : Mat 800000 64) (V c main_v9 : Mat 64 64) (V c main_v10 : Mat 64 64) (V c main_v12 : Row 64) (V c main_v14 : Mat 64 64) (V c main_v16 : Row 64) (V c main_v18 : Mat 64 64) (V c main_v20 : Row 64)

/-! ## The printed index maps over the grid -/

/-- The source rows' block moves with the point. -/
theorem idx_a : ∀ t : Fin cfg1.N, win1_0.index t (0 : Fin 2) = t.val ∧ win1_0.index t (1 : Fin 2) = 0 :=
  (by decide +kernel : ∀ t : Fin grid1.N, _)

/-- The destination rows' block moves with the point. -/
theorem idx_c : ∀ t : Fin cfg1.N, win1_1.index t (0 : Fin 2) = t.val ∧ win1_1.index t (1 : Fin 2) = 0 :=
  (by decide +kernel : ∀ t : Fin grid1.N, _)

/-- The result's block moves with the point. -/
theorem idx_o : ∀ t : Fin cfg1.N, win1_9.index t (0 : Fin 2) = t.val ∧ win1_9.index t (1 : Fin 2) = 0 :=
  (by decide +kernel : ∀ t : Fin grid1.N, _)

/-- Each weight matrix is one block. -/
theorem idx_w : ∀ t : Fin cfg1.N, (win1_2.index t (0 : Fin 2) = 0 ∧ win1_2.index t (1 : Fin 2) = 0)
    ∧ (win1_3.index t (0 : Fin 2) = 0 ∧ win1_3.index t (1 : Fin 2) = 0)
    ∧ (win1_5.index t (0 : Fin 2) = 0 ∧ win1_5.index t (1 : Fin 2) = 0)
    ∧ (win1_7.index t (0 : Fin 2) = 0 ∧ win1_7.index t (1 : Fin 2) = 0) :=
  (by decide +kernel : ∀ t : Fin grid1.N, _)

/-- Each bias is one block. -/
theorem idx_b : ∀ t : Fin cfg1.N, win1_4.index t (0 : Fin 1) = 0 ∧ win1_6.index t (0 : Fin 1) = 0 ∧ win1_8.index t (0 : Fin 1) = 0 :=
  (by decide +kernel : ∀ t : Fin grid1.N, _)

/-! ## The windows' blocks -/

/-- Block `t` of the source rows is the array's rows `8000 t …`. -/
theorem iblk_a (c : Dev nD) (t : Fin cfg1.N) (y : S8000x64.Idx) (i : S800000x64.Idx)
    (h0 : (i 0).val = t.val * 8000 + (y 0).val) (h1 : (i 1).val = (y 1).val) :
    (iblk1 V c 0 t : Vec Ideal S8000x64 .f32) y = (V c main_v5 : S800000x64.Idx → EReal) i := by
  obtain ⟨e0, e1⟩ := idx_a t
  unfold iblk1
  rw [View.read_apply]
  show V c main_v5 _ = V c main_v5 _
  congr 1
  funext a
  apply Fin.ext
  match a with
  | ⟨0, _⟩ => show win1_0.index t 0 * 8000 + 1 * (y 0).val = (i 0).val; rw [e0, h0]; omega
  | ⟨1, _⟩ => show win1_0.index t 1 * 64 + 1 * (y 1).val = (i 1).val; rw [e1, h1]; omega

/-- Block `t` of the destination rows is the array's rows `8000 t …`. -/
theorem iblk_c (c : Dev nD) (t : Fin cfg1.N) (y : S8000x64.Idx) (i : S800000x64.Idx)
    (h0 : (i 0).val = t.val * 8000 + (y 0).val) (h1 : (i 1).val = (y 1).val) :
    (iblk1 V c 1 t : Vec Ideal S8000x64 .f32) y = (V c main_v6 : S800000x64.Idx → EReal) i := by
  obtain ⟨e0, e1⟩ := idx_c t
  unfold iblk1
  rw [View.read_apply]
  show V c main_v6 _ = V c main_v6 _
  congr 1
  funext a
  apply Fin.ext
  match a with
  | ⟨0, _⟩ => show win1_1.index t 0 * 8000 + 1 * (y 0).val = (i 0).val; rw [e0, h0]; omega
  | ⟨1, _⟩ => show win1_1.index t 1 * 64 + 1 * (y 1).val = (i 1).val; rw [e1, h1]; omega

/-- The first layer's upper weights: one block, the whole matrix. -/
theorem iblk_wt (c : Dev nD) (t : Fin cfg1.N) : (iblk1 V c 2 t : Vec Ideal S64x64 .f32) = (V c main_v9 : S64x64.Idx → EReal) := by
  obtain ⟨⟨e0, e1⟩, -, -, -⟩ := idx_w t
  funext y
  unfold iblk1
  rw [View.read_apply]
  show V c main_v9 _ = V c main_v9 _
  congr 1
  funext a
  apply Fin.ext
  match a with
  | ⟨0, _⟩ => show win1_2.index t 0 * 64 + 1 * (y 0).val = (y 0).val; rw [e0]; omega
  | ⟨1, _⟩ => show win1_2.index t 1 * 64 + 1 * (y 1).val = (y 1).val; rw [e1]; omega

/-- The first layer's lower weights: one block, the whole matrix. -/
theorem iblk_wb (c : Dev nD) (t : Fin cfg1.N) : (iblk1 V c 3 t : Vec Ideal S64x64 .f32) = (V c main_v10 : S64x64.Idx → EReal) := by
  obtain ⟨-, ⟨e0, e1⟩, -, -⟩ := idx_w t
  funext y
  unfold iblk1
  rw [View.read_apply]
  show V c main_v10 _ = V c main_v10 _
  congr 1
  funext a
  apply Fin.ext
  match a with
  | ⟨0, _⟩ => show win1_3.index t 0 * 64 + 1 * (y 0).val = (y 0).val; rw [e0]; omega
  | ⟨1, _⟩ => show win1_3.index t 1 * 64 + 1 * (y 1).val = (y 1).val; rw [e1]; omega

/-- The first bias: one block, the whole vector. -/
theorem iblk_b0 (c : Dev nD) (t : Fin cfg1.N) : (iblk1 V c 4 t : Vec Ideal S64 .f32) = (V c main_v12 : S64.Idx → EReal) := by
  obtain ⟨e0, -, -⟩ := idx_b t
  funext y
  unfold iblk1
  rw [View.read_apply]
  show V c main_v12 _ = V c main_v12 _
  congr 1
  funext a
  apply Fin.ext
  match a with
  | ⟨0, _⟩ => show win1_4.index t 0 * 64 + 1 * (y 0).val = (y 0).val; rw [e0]; omega

/-- The second layer's weights: one block, the whole matrix. -/
theorem iblk_w1 (c : Dev nD) (t : Fin cfg1.N) : (iblk1 V c 5 t : Vec Ideal S64x64 .f32) = (V c main_v14 : S64x64.Idx → EReal) := by
  obtain ⟨-, -, ⟨e0, e1⟩, -⟩ := idx_w t
  funext y
  unfold iblk1
  rw [View.read_apply]
  show V c main_v14 _ = V c main_v14 _
  congr 1
  funext a
  apply Fin.ext
  match a with
  | ⟨0, _⟩ => show win1_5.index t 0 * 64 + 1 * (y 0).val = (y 0).val; rw [e0]; omega
  | ⟨1, _⟩ => show win1_5.index t 1 * 64 + 1 * (y 1).val = (y 1).val; rw [e1]; omega

/-- The second bias: one block, the whole vector. -/
theorem iblk_b1 (c : Dev nD) (t : Fin cfg1.N) : (iblk1 V c 6 t : Vec Ideal S64 .f32) = (V c main_v16 : S64.Idx → EReal) := by
  obtain ⟨-, e0, -⟩ := idx_b t
  funext y
  unfold iblk1
  rw [View.read_apply]
  show V c main_v16 _ = V c main_v16 _
  congr 1
  funext a
  apply Fin.ext
  match a with
  | ⟨0, _⟩ => show win1_6.index t 0 * 64 + 1 * (y 0).val = (y 0).val; rw [e0]; omega

/-- The third layer's weights: one block, the whole matrix. -/
theorem iblk_w2 (c : Dev nD) (t : Fin cfg1.N) : (iblk1 V c 7 t : Vec Ideal S64x64 .f32) = (V c main_v18 : S64x64.Idx → EReal) := by
  obtain ⟨-, -, -, ⟨e0, e1⟩⟩ := idx_w t
  funext y
  unfold iblk1
  rw [View.read_apply]
  show V c main_v18 _ = V c main_v18 _
  congr 1
  funext a
  apply Fin.ext
  match a with
  | ⟨0, _⟩ => show win1_7.index t 0 * 64 + 1 * (y 0).val = (y 0).val; rw [e0]; omega
  | ⟨1, _⟩ => show win1_7.index t 1 * 64 + 1 * (y 1).val = (y 1).val; rw [e1]; omega

/-- The third bias: one block, the whole vector. -/
theorem iblk_b2 (c : Dev nD) (t : Fin cfg1.N) : (iblk1 V c 8 t : Vec Ideal S64 .f32) = (V c main_v20 : S64.Idx → EReal) := by
  obtain ⟨-, -, e0⟩ := idx_b t
  funext y
  unfold iblk1
  rw [View.read_apply]
  show V c main_v20 _ = V c main_v20 _
  congr 1
  funext a
  apply Fin.ext
  match a with
  | ⟨0, _⟩ => show win1_8.index t 0 * 64 + 1 * (y 0).val = (y 0).val; rw [e0]; omega

/-! ## The region's value -/

/-- WHAT POINT `t` WRITES BACK is block `t` of the message network of the whole arrays. -/
theorem flushed_eq (c : Dev nD) (t : Fin cfg1.N) :
    (dat1 V c).flushed 9 t = ((cfg1.win 9).blk t).view.read (Elt Ideal) (G V c) := by
  obtain ⟨e0, e1⟩ := idx_o t
  show (cfg1.win 9).cut (grid1.coords t) ((dat1 V c).after 9 t) = _
  rw [after1_9]
  unfold out1_9
  rw [View.canon_unit_zero hz2]
  simp only [View.ld_unit_zero (S := S8000x64) hz2, View.ld_unit_zero (S := S64x64) hz2, View.ld_unit_zero (S := S64) hz1]
  rw [pay_eq, iblk_wt, iblk_wb, iblk_b0, iblk_w1, iblk_b1, iblk_w2, iblk_b2]
  funext j
  show mlp (iblk1 V c 0 t : Vec Ideal S8000x64 .f32) (iblk1 V c 1 t : Vec Ideal S8000x64 .f32) (V c main_v9 : Mat 64 64)
      (V c main_v10 : Mat 64 64) (V c main_v12 : Row 64) (V c main_v14 : Mat 64 64) (V c main_v16 : Row 64) (V c main_v18 : Mat 64 64)
      (V c main_v20 : Row 64) j
    = mlp (V c main_v5 : Mat 800000 64) (V c main_v6 : Mat 800000 64) (V c main_v9 : Mat 64 64)
      (V c main_v10 : Mat 64 64) (V c main_v12 : Row 64) (V c main_v14 : Mat 64 64) (V c main_v16 : Row 64) (V c main_v18 : Mat 64 64)
      (V c main_v20 : Row 64) (((cfg1.win 9).blk t).view.emb j)
  have h0 : ((((cfg1.win 9).blk t).view.emb j) 0).val = t.val * 8000 + (j 0).val := by
    show win1_9.index t 0 * 8000 + 1 * (j 0).val = _; rw [e0]; omega
  have h1 : ((((cfg1.win 9).blk t).view.emb j) 1).val = (j 1).val := by
    show win1_9.index t 1 * 64 + 1 * (j 1).val = _; rw [e1]; omega
  refine mlp_rows _ _ _ _ _ _ _ _ _ _ _ _ j (fun k => ?_) (fun k => ?_) h1.symm
  · exact iblk_a V c t _ _ h0 rfl
  · exact iblk_c V c t _ _ h0 rfl

/-- The hundred row blocks tile the result. -/
theorem cover (c : Dev nD) (i : ((cfg1.win 9).arr.view.loc (c.tc : Thread nD τ)).2.ty.Idx) : ∃ t : Fin cfg1.N, (cfg1.win 9).flush t = true ∧ i ∈ ((cfg1.win 9).blk t).view.set := by
  have hi0 : (i 0).val < 800000 := (i 0).isLt
  have hi1 : (i 1).val < 64 := (i 1).isLt
  have ht : (i 0).val / 8000 < cfg1.N := by rw [show cfg1.N = 100 from N_1]; omega
  obtain ⟨t, htv⟩ : ∃ t : Fin cfg1.N, t.val = (i 0).val / 8000 := ⟨⟨_, ht⟩, rfl⟩
  refine ⟨t, flush1_9 t, ?_⟩
  obtain ⟨e0, e1⟩ := idx_o t
  show i ∈ ((View.whole main_v21).slice (win1_9.rect t)).set
  rw [View.set_slice_whole, Rect.mem_set_unit]
  intro a
  match a with
  | ⟨0, _⟩ => show win1_9.index t 0 * 8000 ≤ (i 0).val ∧ (i 0).val < win1_9.index t 0 * 8000 + 8000; rw [e0, htv]; omega
  | ⟨1, _⟩ => show win1_9.index t 1 * 64 ≤ (i 1).val ∧ (i 1).val < win1_9.index t 1 * 64 + 64; rw [e1]; omega

/-- THE ARRAY after the region: the message network of the arrays the region found. -/
theorem final (c : Dev nD) : (dat1 V c).arrAt 9 cfg1.N = G V c :=
  (dat1 V c).arrAt_eq_of_cover 9 (G V c) (fun t _ => flushed_eq V c t) (cover c)

end Cert.KernelIdeal.Mlp1

end
-- ==== Proof.LibTRef.lean ====
/-
  Typed references to tensor buffers: the transport of a value to the buffer's type and back is the identity.

  A typed reference records that its buffer's type IS the tensor type; a value is moved to the buffer's type along that
  equation and read back along it. Going there and back gives the value again — for every typed reference, by
  eliminating the equation. Rewriting with this lemma removes the transports an inlined function's operations leave
  around every intermediate value, without ever unfolding them.
-/
import Idealize.ShloMosaic.Lib.StableHlo

namespace Idealize.ShloMosaic.StableHlo.TRef

variable {sig : RefSig} {Val : EltTy → Type} {T : BufTy}

/-- Moved to the buffer's type and read back, a value is itself. -/
theorem ofBuf_toBuf (x : TRef sig T) (v : T.Contents Val) : x.ofBuf (x.toBuf v) = v := by
  obtain ⟨r, h, _, _⟩ := x
  subst h
  rfl

/-- Read at the value's type and moved back, a buffer's contents are themselves. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.Block0.lean ====
/-
  Message-passing block 0 of the kernel program, from the node features `h` it finds to the node features it leaves.

  Five steps of the program: the rows of `h` at the edges' sources and at their destinations are gathered (each by
  jnp.take's spelling, which would fill a row whose node number is out of range: under the precondition none is, so it is
  the plain gather); block 0's weights and biases are sliced out of the argument tables, the first layer's weights cut in
  their upper and lower halves; the pallas_call computes the message network row by row (Proof/KMlp1.lean); the messages
  are summed into their destination nodes. Between the steps every buffer that is read later keeps its contents
  (Proof/Keep.lean). The result is `Net.layer` of `h` and block 0's parameters.
-/
import proofs.«430343_j38053410242952_1_alg».proof.Proof.Keep
import proofs.«430343_j38053410242952_1_alg».proof.Proof.Net
import proofs.«430343_j38053410242952_1_alg».proof.Proof.Take
import proofs.«430343_j38053410242952_1_alg».proof.Proof.KMlp1
import proofs.«430343_j38053410242952_1_alg».proof.Proof.LibTRef
import Idealize.ShloMosaic.Lib.StableHlo.Run

set_option maxRecDepth 16384

noncomputable section

namespace Cert.KernelIdeal.Block0

open Cert.KernelIdeal Cert.KernelIdeal.Gen Cert.KernelIdeal.Keep Cert.MsgNet
open Idealize.ShloMosaic Idealize.ShloMosaic.TcCoe Idealize.SL.Sem Idealize.ShloMosaic.StableHlo

/-! ## What each stretch of host operations writes

The host operations here only move values (gathers, selects, slices, the scatter-add as one operation), so these four
facts are stated for any reading of the float formats. -/

section AnyValues
variable {F : FTy → Type} [FloatOps F]
variable (m : (ℓ : Loc nD τ sig) → Buf (Elt F) ℓ) (ρ : Dev nD → PrngReg)

set_option maxHeartbeats 20000000 in
/-- The rows of `h` at the sources, in jnp.take's spelling — the operations of the outlined function read and write their
    buffers through the transport to the tensor's type, which is kept on both sides here and dropped in `take_src`. -/
theorem take_src_typed (c : Dev nD) :
    (TRef.of main_v5 : TRef sig ⟨S800000x64, .f32⟩).ofBuf (W3 m ρ c (Proc.devRef .tc main_v5))
      = Net.rowsAtOrFill ((TRef.of main_v4 : TRef sig ⟨S50000x64, .f32⟩).ofBuf (W2 m ρ c (Proc.devRef .tc main_v4)))
          ((TRef.of main_v1 : TRef sig ⟨S800000, .i32⟩).ofBuf (W2 m ρ c (Proc.devRef .tc main_v1))) := by
  show (TRef.of main_v5 : TRef sig ⟨S800000x64, .f32⟩).ofBuf (StableHlo.after hostOps1 (W2 m ρ c) (Proc.devRef .tc main_v5)) = _
  unfold hostOps1
  after_results_simp
  simp only [TRef.ofBuf_toBuf]
  generalize W2 m ρ c (Proc.devRef .tc main_v4) = b
  generalize W2 m ρ c (Proc.devRef .tc main_v1) = d
  rfl

/-- The rows of `h` at the sources, in jnp.take's spelling. -/
theorem take_src (c : Dev nD) : W3 m ρ c (Proc.devRef .tc main_v5)
    = Net.rowsAtOrFill (W2 m ρ c (Proc.devRef .tc main_v4)) (W2 m ρ c (Proc.devRef .tc main_v1)) := by
  have h := take_src_typed m ρ c
  generalize W3 m ρ c (Proc.devRef .tc main_v5) = a at h ⊢
  generalize W2 m ρ c (Proc.devRef .tc main_v4) = b at h ⊢
  generalize W2 m ρ c (Proc.devRef .tc main_v1) = d at h ⊢
  exact h

set_option maxHeartbeats 20000000 in
/-- The rows of `h` at the destinations, in jnp.take's spelling, the transports kept. -/
theorem take_dst_typed (c : Dev nD) :
    (TRef.of main_v6 : TRef sig ⟨S800000x64, .f32⟩).ofBuf (W4 m ρ c (Proc.devRef .tc main_v6))
      = Net.rowsAtOrFill ((TRef.of main_v4 : TRef sig ⟨S50000x64, .f32⟩).ofBuf (W3 m ρ c (Proc.devRef .tc main_v4)))
          ((TRef.of main_v3 : TRef sig ⟨S800000, .i32⟩).ofBuf (W3 m ρ c (Proc.devRef .tc main_v3))) := by
  show (TRef.of main_v6 : TRef sig ⟨S800000x64, .f32⟩).ofBuf (StableHlo.after hostOps1_1 (W3 m ρ c) (Proc.devRef .tc main_v6)) = _
  unfold hostOps1_1
  after_results_simp
  simp only [TRef.ofBuf_toBuf]
  generalize W3 m ρ c (Proc.devRef .tc main_v4) = b
  generalize W3 m ρ c (Proc.devRef .tc main_v3) = d
  rfl

/-- The rows of `h` at the destinations, in jnp.take's spelling. -/
theorem take_dst (c : Dev nD) : W4 m ρ c (Proc.devRef .tc main_v6)
    = Net.rowsAtOrFill (W3 m ρ c (Proc.devRef .tc main_v4)) (W3 m ρ c (Proc.devRef .tc main_v3)) := by
  have h := take_dst_typed m ρ c
  generalize W4 m ρ c (Proc.devRef .tc main_v6) = a at h ⊢
  generalize W3 m ρ c (Proc.devRef .tc main_v4) = b at h ⊢
  generalize W3 m ρ c (Proc.devRef .tc main_v3) = d at h ⊢
  exact h

set_option maxHeartbeats 20000000 in
/-- Block 0's parameters as the stretch slices them out of the argument tables. -/
theorem params (c : Dev nD) :
    W5 m ρ c (Proc.devRef .tc main_v9) = Net.topHalf (Net.pw0_0 (W4 m ρ c (Proc.devRef .tc main_arg5)))
    ∧ W5 m ρ c (Proc.devRef .tc main_v10) = Net.botHalf (Net.pw0_0 (W4 m ρ c (Proc.devRef .tc main_arg5)))
    ∧ W5 m ρ c (Proc.devRef .tc main_v12) = Net.pb_0 (W4 m ρ c (Proc.devRef .tc main_arg6))
    ∧ W5 m ρ c (Proc.devRef .tc main_v14) = Net.pw_0 (W4 m ρ c (Proc.devRef .tc main_arg7))
    ∧ W5 m ρ c (Proc.devRef .tc main_v16) = Net.pb_0 (W4 m ρ c (Proc.devRef .tc main_arg8))
    ∧ W5 m ρ c (Proc.devRef .tc main_v18) = Net.pw_0 (W4 m ρ c (Proc.devRef .tc main_arg9))
    ∧ W5 m ρ c (Proc.devRef .tc main_v20) = Net.pb_0 (W4 m ρ c (Proc.devRef .tc main_arg10)) := by
  refine ⟨?_, ?_, ?_, ?_, ?_, ?_, ?_⟩
  all_goals
    show StableHlo.after hostOps1_2 (W4 m ρ c) _ = _
    unfold hostOps1_2
    after_results_simp
    rfl

set_option maxHeartbeats 20000000 in
/-- The messages summed into their destinations. -/
theorem scatter (c : Dev nD) : W7 m ρ c (Proc.devRef .tc main_v24)
    = Net.sumInto (W6 m ρ c (Proc.devRef .tc main_v3)) (W6 m ρ c (Proc.devRef .tc main_v21)) := by
  show StableHlo.after hostOps2 (W6 m ρ c) (Proc.devRef .tc main_v24) = _
  unfold hostOps2
  after_results_simp
  rfl

end AnyValues

variable (m : (ℓ : Loc nD τ sig) → Buf (Elt Ideal) ℓ) (ρ : Dev nD → PrngReg)

/-- The region's result array: the message network of the arrays its windows stage. -/
theorem region (c : Dev nD) : W6 m ρ c (Proc.devRef .tc main_v21) = Mlp1.G (V5 m ρ) c :=
  (W6_arr m ρ c 9).trans (Mlp1.final (V5 m ρ) c)

/-! ## The block -/

/-- THE BLOCK: the node features it leaves are `Net.layer` of the node features it found, the edge lists and block 0's
    parameters (the edge lists' node numbers in range). -/
theorem step (c : Dev nD)
    (hs : ∀ e, 0 ≤ (W1 m ρ c (Proc.devRef .tc main_v1) e).toInt ∧ (W1 m ρ c (Proc.devRef .tc main_v1) e).toInt < 50000)
    (hd : ∀ e, 0 ≤ (W1 m ρ c (Proc.devRef .tc main_v3) e).toInt ∧ (W1 m ρ c (Proc.devRef .tc main_v3) e).toInt < 50000) :
    W7 m ρ c (Proc.devRef .tc main_v24)
      = Net.layer (W1 m ρ c (Proc.devRef .tc main_v1)) (W1 m ρ c (Proc.devRef .tc main_v3)) (W2 m ρ c (Proc.devRef .tc main_v4))
          (Net.pw0_0 (m ((c : Thread nD τ).loc main_arg5))) (Net.pb_0 (m ((c : Thread nD τ).loc main_arg6)))
          (Net.pw_0 (m ((c : Thread nD τ).loc main_arg7))) (Net.pb_0 (m ((c : Thread nD τ).loc main_arg8)))
          (Net.pw_0 (m ((c : Thread nD τ).loc main_arg9))) (Net.pb_0 (m ((c : Thread nD τ).loc main_arg10))) := by
  obtain ⟨p9, p10, p12, p14, p16, p18, p20⟩ := params m ρ c
  have a : W5 m ρ c (Proc.devRef .tc main_v5) = Net.rowsAt (F := Ideal) (W2 m ρ c (Proc.devRef .tc main_v4)) (W1 m ρ c (Proc.devRef .tc main_v1)) := by
    rw [keep5 m ρ c (by decide), keep4 m ρ c (by decide), take_src, v1_at2 m ρ c]
    exact Take.rowsAtOrFill_eq _ _ hs
  have b : W5 m ρ c (Proc.devRef .tc main_v6) = Net.rowsAt (F := Ideal) (W2 m ρ c (Proc.devRef .tc main_v4)) (W1 m ρ c (Proc.devRef .tc main_v3)) := by
    rw [keep5 m ρ c (by decide), take_dst, keep3 m ρ c (b := main_v4) (by decide), v3_at3 m ρ c]
    exact Take.rowsAtOrFill_eq _ _ hd
  rw [scatter, region, v3_at6 m ρ c]
  unfold Net.layer Mlp1.G
  show Net.sumInto _ (mlp (W5 m ρ c (Proc.devRef .tc main_v5)) (W5 m ρ c (Proc.devRef .tc main_v6)) (W5 m ρ c (Proc.devRef .tc main_v9)) (W5 m ρ c (Proc.devRef .tc main_v10))
    (W5 m ρ c (Proc.devRef .tc main_v12)) (W5 m ρ c (Proc.devRef .tc main_v14)) (W5 m ρ c (Proc.devRef .tc main_v16)) (W5 m ρ c (Proc.devRef .tc main_v18)) (W5 m ρ c (Proc.devRef .tc main_v20))) = _
  rw [a, b, p9, p10, p12, p14, p16, p18, p20, arg5_at4 m ρ c, arg6_at4 m ρ c, arg7_at4 m ρ c,
    arg8_at4 m ρ c, arg9_at4 m ρ c, arg10_at4 m ρ c]

end Cert.KernelIdeal.Block0

end
-- ==== Proof.KMlp2.lean ====
/-
  The per-edge message network of the second round, computed in one hundred row blocks of 8000 edges each.

  The body's one store is three affine layers of the block it loaded, a rectifier after the first two. The first layer
  acts on the pair (source row, destination row): the product of the source rows with the upper half of the weights plus
  the product of the destination rows with the lower half, plus the bias on every row. Every product goes into a zero
  accumulator and the change of format on the way in is the identity on the extended reals, so each layer is the affine
  layer of the specification; the rectifier is the maximum with the zero word, which is the real zero. The network is
  row-wise and block `t` of either operand is rows `8000 t … 8000 t + 7999` of its array, while each weight matrix and
  bias is one block, the whole array, at every point: what point `t` writes back is block `t` of the network of the WHOLE
  arrays; the hundred blocks tile the result.
-/
import proofs.«430343_j38053410242952_1_alg».proof.Proof.Gen.KernelIdeal.Frame
import proofs.«430343_j38053410242952_1_alg».proof.Proof.Spec
import proofs.«430343_j38053410242952_1_alg».proof.Proof.LibDot
import Idealize.ShloMosaic.Lib.Pipeline.Value
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Mlp2

open Cert.KernelIdeal Cert.KernelIdeal.Gen Cert.MsgNet

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

theorem dot_plain : dot_S8000x64_S64x64_S8000x64_1_0_0_1_n_n = DotDims.plain 8000 64 64 := rfl

/-! ## The body's layers, as the body spells them -/

/-- A bias vector laid on every row, as the body spells it. -/
abbrev biasK (b : Vec Ideal S64 .f32) : FVec Ideal S8000x64 .f32 :=
  broadcastTo S8000x64 (shapeCast S1x64 (shapeCast S64 b shapeCasts_S64_S64) shapeCasts_S64_S1x64) broadcasts_S1x64_S8000x64

/-- A block's product with a weight matrix into the zero accumulator, as the body spells it. -/
abbrev prodK (x : FVec Ideal S8000x64 .f32) (w : Vec Ideal S64x64 .f32) : FVec Ideal S8000x64 .f32 :=
  matmul dot_S8000x64_S64x64_S8000x64_1_0_0_1_n_n none (truncf .bf16 x bitsLt_bf16_f32)
    (truncf .bf16 (shapeCast S64x64 w shapeCasts_S64x64_S64x64) bitsLt_bf16_f32) (constant S8000x64 .f32 0x00000000#32)

/-- The maximum with the zero word, as the body spells it. -/
abbrev reluK (x : FVec Ideal S8000x64 .f32) : FVec Ideal S8000x64 .f32 :=
  maximumf x (broadcast S8000x64 (Scalar.ofBits .f32 0x00000000#32))

theorem bias_apply (b : Vec Ideal S64 .f32) (p : Fin 8000) (q : Fin 64) : biasK b (ix2 p q) = b (ix1 q) := by
  show broadcastTo S8000x64 (shapeCast S1x64 (shapeCast S64 b shapeCasts_S64_S64) shapeCasts_S64_S1x64) broadcasts_S1x64_S8000x64 (ix2 p q) = _
  rw [shapeCast_self]
  exact (broadcastTo_1b_ab_apply _ _ p q).trans (shapeCast_a_1a_apply b _ 0 q)

theorem prod_apply (x : FVec Ideal S8000x64 .f32) (w : Vec Ideal S64x64 .f32) (p : Fin 8000) (q : Fin 64) :
    prodK x w (ix2 p q) = ∑ k : Fin 64, x (ix2 p k) * w (ix2 k q) := by
  show matmul dot_S8000x64_S64x64_S8000x64_1_0_0_1_n_n none (truncf .bf16 x bitsLt_bf16_f32)
    (truncf .bf16 (shapeCast S64x64 w shapeCasts_S64x64_S64x64) bitsLt_bf16_f32) (constant S8000x64 .f32 0x00000000#32) (ix2 p q) = _
  rw [shapeCast_self, dot_plain]
  exact Cert.GNN.matmul_plain_zero_apply none (truncf .bf16 x bitsLt_bf16_f32) (truncf .bf16 w bitsLt_bf16_f32) p q

/-- One product plus the bias is the affine layer. -/
theorem affine_pay (x : FVec Ideal S8000x64 .f32) (w : Vec Ideal S64x64 .f32) (b : Vec Ideal S64 .f32) :
    addf (prodK x w) (biasK b) = affine x w b := by
  funext j
  obtain ⟨p, q, rfl⟩ : ∃ (p : Fin 8000) (q : Fin 64), j = ix2 p q := ⟨j 0, j 1, eq_ix2 j⟩
  show addf (prodK x w) (biasK b) (ix2 p q) = (∑ k : Fin 64, x (ix2 p k) * w (ix2 k q)) + b (ix1 q)
  rw [addf_apply, prod_apply, bias_apply]

/-- The sum of two products plus the bias is the affine layer on the pair of rows. -/
theorem affine2_pay (a c : FVec Ideal S8000x64 .f32) (wt wb : Vec Ideal S64x64 .f32) (b : Vec Ideal S64 .f32) :
    addf (addf (prodK a wt) (prodK c wb)) (biasK b) = affine2 a c wt wb b := by
  funext j
  obtain ⟨p, q, rfl⟩ : ∃ (p : Fin 8000) (q : Fin 64), j = ix2 p q := ⟨j 0, j 1, eq_ix2 j⟩
  show addf (addf (prodK a wt) (prodK c wb)) (biasK b) (ix2 p q)
    = ((∑ k : Fin 64, a (ix2 p k) * wt (ix2 k q)) + (∑ k : Fin 64, c (ix2 p k) * wb (ix2 k q))) + b (ix1 q)
  rw [addf_apply, addf_apply, prod_apply, prod_apply, bias_apply]

/-- The maximum with the zero word is the rectifier. -/
theorem relu_pay (x : FVec Ideal S8000x64 .f32) : reluK x = relu x := by
  funext j
  show max (x j) (Ideal.ofBits .f32 0x00000000#32) = max (x j) 0
  rw [Ideal.ofBits_zero_f32]

/-- The body's store is the message network of the blocks it loaded. -/
theorem pay_eq (a c : Vec Ideal S8000x64 .f32) (wt wb : Vec Ideal S64x64 .f32) (b0 : Vec Ideal S64 .f32)
    (w1 : Vec Ideal S64x64 .f32) (b1 : Vec Ideal S64 .f32) (w2 : Vec Ideal S64x64 .f32) (b2 : Vec Ideal S64 .f32) :
    k2_pay1 (F := Ideal) (k2_pay2 a c wt wb b0 w1 b1 w2) b2 = mlp a c wt wb b0 w1 b1 w2 b2 := by
  show addf (prodK (reluK (addf (prodK (reluK (addf (addf
      (prodK (shapeCast S8000x64 a shapeCasts_S8000x64_S8000x64) wt) (prodK (shapeCast S8000x64 c shapeCasts_S8000x64_S8000x64) wb))
      (biasK b0))) w1) (biasK b1))) w2) (biasK b2) = _
  rw [shapeCast_self, shapeCast_self, affine2_pay, relu_pay, affine_pay, relu_pay, affine_pay]
  rfl

/-- The array the region's output window ends holding: the message network of the arrays its input windows stage. -/
abbrev G (c : Dev nD) : Mat 800000 64 := mlp (V c main_v25 : Mat 800000 64) (V c main_v26 : Mat 800000 64) (V c main_v29 : Mat 64 64) (V c main_v30 : Mat 64 64) (V c main_v32 : Row 64) (V c main_v34 : Mat 64 64) (V c main_v36 : Row 64) (V c main_v38 : Mat 64 64) (V c main_v40 : Row 64)

/-! ## The printed index maps over the grid -/

/-- The source rows' block moves with the point. -/
theorem idx_a : ∀ t : Fin cfg2.N, win2_0.index t (0 : Fin 2) = t.val ∧ win2_0.index t (1 : Fin 2) = 0 :=
  (by decide +kernel : ∀ t : Fin grid2.N, _)

/-- The destination rows' block moves with the point. -/
theorem idx_c : ∀ t : Fin cfg2.N, win2_1.index t (0 : Fin 2) = t.val ∧ win2_1.index t (1 : Fin 2) = 0 :=
  (by decide +kernel : ∀ t : Fin grid2.N, _)

/-- The result's block moves with the point. -/
theorem idx_o : ∀ t : Fin cfg2.N, win2_9.index t (0 : Fin 2) = t.val ∧ win2_9.index t (1 : Fin 2) = 0 :=
  (by decide +kernel : ∀ t : Fin grid2.N, _)

/-- Each weight matrix is one block. -/
theorem idx_w : ∀ t : Fin cfg2.N, (win2_2.index t (0 : Fin 2) = 0 ∧ win2_2.index t (1 : Fin 2) = 0)
    ∧ (win2_3.index t (0 : Fin 2) = 0 ∧ win2_3.index t (1 : Fin 2) = 0)
    ∧ (win2_5.index t (0 : Fin 2) = 0 ∧ win2_5.index t (1 : Fin 2) = 0)
    ∧ (win2_7.index t (0 : Fin 2) = 0 ∧ win2_7.index t (1 : Fin 2) = 0) :=
  (by decide +kernel : ∀ t : Fin grid2.N, _)

/-- Each bias is one block. -/
theorem idx_b : ∀ t : Fin cfg2.N, win2_4.index t (0 : Fin 1) = 0 ∧ win2_6.index t (0 : Fin 1) = 0 ∧ win2_8.index t (0 : Fin 1) = 0 :=
  (by decide +kernel : ∀ t : Fin grid2.N, _)

/-! ## The windows' blocks -/

/-- Block `t` of the source rows is the array's rows `8000 t …`. -/
theorem iblk_a (c : Dev nD) (t : Fin cfg2.N) (y : S8000x64.Idx) (i : S800000x64.Idx)
    (h0 : (i 0).val = t.val * 8000 + (y 0).val) (h1 : (i 1).val = (y 1).val) :
    (iblk2 V c 0 t : Vec Ideal S8000x64 .f32) y = (V c main_v25 : S800000x64.Idx → EReal) i := by
  obtain ⟨e0, e1⟩ := idx_a t
  unfold iblk2
  rw [View.read_apply]
  show V c main_v25 _ = V c main_v25 _
  congr 1
  funext a
  apply Fin.ext
  match a with
  | ⟨0, _⟩ => show win2_0.index t 0 * 8000 + 1 * (y 0).val = (i 0).val; rw [e0, h0]; omega
  | ⟨1, _⟩ => show win2_0.index t 1 * 64 + 1 * (y 1).val = (i 1).val; rw [e1, h1]; omega

/-- Block `t` of the destination rows is the array's rows `8000 t …`. -/
theorem iblk_c (c : Dev nD) (t : Fin cfg2.N) (y : S8000x64.Idx) (i : S800000x64.Idx)
    (h0 : (i 0).val = t.val * 8000 + (y 0).val) (h1 : (i 1).val = (y 1).val) :
    (iblk2 V c 1 t : Vec Ideal S8000x64 .f32) y = (V c main_v26 : S800000x64.Idx → EReal) i := by
  obtain ⟨e0, e1⟩ := idx_c t
  unfold iblk2
  rw [View.read_apply]
  show V c main_v26 _ = V c main_v26 _
  congr 1
  funext a
  apply Fin.ext
  match a with
  | ⟨0, _⟩ => show win2_1.index t 0 * 8000 + 1 * (y 0).val = (i 0).val; rw [e0, h0]; omega
  | ⟨1, _⟩ => show win2_1.index t 1 * 64 + 1 * (y 1).val = (i 1).val; rw [e1, h1]; omega

/-- The first layer's upper weights: one block, the whole matrix. -/
theorem iblk_wt (c : Dev nD) (t : Fin cfg2.N) : (iblk2 V c 2 t : Vec Ideal S64x64 .f32) = (V c main_v29 : S64x64.Idx → EReal) := by
  obtain ⟨⟨e0, e1⟩, -, -, -⟩ := idx_w t
  funext y
  unfold iblk2
  rw [View.read_apply]
  show V c main_v29 _ = V c main_v29 _
  congr 1
  funext a
  apply Fin.ext
  match a with
  | ⟨0, _⟩ => show win2_2.index t 0 * 64 + 1 * (y 0).val = (y 0).val; rw [e0]; omega
  | ⟨1, _⟩ => show win2_2.index t 1 * 64 + 1 * (y 1).val = (y 1).val; rw [e1]; omega

/-- The first layer's lower weights: one block, the whole matrix. -/
theorem iblk_wb (c : Dev nD) (t : Fin cfg2.N) : (iblk2 V c 3 t : Vec Ideal S64x64 .f32) = (V c main_v30 : S64x64.Idx → EReal) := by
  obtain ⟨-, ⟨e0, e1⟩, -, -⟩ := idx_w t
  funext y
  unfold iblk2
  rw [View.read_apply]
  show V c main_v30 _ = V c main_v30 _
  congr 1
  funext a
  apply Fin.ext
  match a with
  | ⟨0, _⟩ => show win2_3.index t 0 * 64 + 1 * (y 0).val = (y 0).val; rw [e0]; omega
  | ⟨1, _⟩ => show win2_3.index t 1 * 64 + 1 * (y 1).val = (y 1).val; rw [e1]; omega

/-- The first bias: one block, the whole vector. -/
theorem iblk_b0 (c : Dev nD) (t : Fin cfg2.N) : (iblk2 V c 4 t : Vec Ideal S64 .f32) = (V c main_v32 : S64.Idx → EReal) := by
  obtain ⟨e0, -, -⟩ := idx_b t
  funext y
  unfold iblk2
  rw [View.read_apply]
  show V c main_v32 _ = V c main_v32 _
  congr 1
  funext a
  apply Fin.ext
  match a with
  | ⟨0, _⟩ => show win2_4.index t 0 * 64 + 1 * (y 0).val = (y 0).val; rw [e0]; omega

/-- The second layer's weights: one block, the whole matrix. -/
theorem iblk_w1 (c : Dev nD) (t : Fin cfg2.N) : (iblk2 V c 5 t : Vec Ideal S64x64 .f32) = (V c main_v34 : S64x64.Idx → EReal) := by
  obtain ⟨-, -, ⟨e0, e1⟩, -⟩ := idx_w t
  funext y
  unfold iblk2
  rw [View.read_apply]
  show V c main_v34 _ = V c main_v34 _
  congr 1
  funext a
  apply Fin.ext
  match a with
  | ⟨0, _⟩ => show win2_5.index t 0 * 64 + 1 * (y 0).val = (y 0).val; rw [e0]; omega
  | ⟨1, _⟩ => show win2_5.index t 1 * 64 + 1 * (y 1).val = (y 1).val; rw [e1]; omega

/-- The second bias: one block, the whole vector. -/
theorem iblk_b1 (c : Dev nD) (t : Fin cfg2.N) : (iblk2 V c 6 t : Vec Ideal S64 .f32) = (V c main_v36 : S64.Idx → EReal) := by
  obtain ⟨-, e0, -⟩ := idx_b t
  funext y
  unfold iblk2
  rw [View.read_apply]
  show V c main_v36 _ = V c main_v36 _
  congr 1
  funext a
  apply Fin.ext
  match a with
  | ⟨0, _⟩ => show win2_6.index t 0 * 64 + 1 * (y 0).val = (y 0).val; rw [e0]; omega

/-- The third layer's weights: one block, the whole matrix. -/
theorem iblk_w2 (c : Dev nD) (t : Fin cfg2.N) : (iblk2 V c 7 t : Vec Ideal S64x64 .f32) = (V c main_v38 : S64x64.Idx → EReal) := by
  obtain ⟨-, -, -, ⟨e0, e1⟩⟩ := idx_w t
  funext y
  unfold iblk2
  rw [View.read_apply]
  show V c main_v38 _ = V c main_v38 _
  congr 1
  funext a
  apply Fin.ext
  match a with
  | ⟨0, _⟩ => show win2_7.index t 0 * 64 + 1 * (y 0).val = (y 0).val; rw [e0]; omega
  | ⟨1, _⟩ => show win2_7.index t 1 * 64 + 1 * (y 1).val = (y 1).val; rw [e1]; omega

/-- The third bias: one block, the whole vector. -/
theorem iblk_b2 (c : Dev nD) (t : Fin cfg2.N) : (iblk2 V c 8 t : Vec Ideal S64 .f32) = (V c main_v40 : S64.Idx → EReal) := by
  obtain ⟨-, -, e0⟩ := idx_b t
  funext y
  unfold iblk2
  rw [View.read_apply]
  show V c main_v40 _ = V c main_v40 _
  congr 1
  funext a
  apply Fin.ext
  match a with
  | ⟨0, _⟩ => show win2_8.index t 0 * 64 + 1 * (y 0).val = (y 0).val; rw [e0]; omega

/-! ## The region's value -/

/-- WHAT POINT `t` WRITES BACK is block `t` of the message network of the whole arrays. -/
theorem flushed_eq (c : Dev nD) (t : Fin cfg2.N) :
    (dat2 V c).flushed 9 t = ((cfg2.win 9).blk t).view.read (Elt Ideal) (G V c) := by
  obtain ⟨e0, e1⟩ := idx_o t
  show (cfg2.win 9).cut (grid2.coords t) ((dat2 V c).after 9 t) = _
  rw [after2_9]
  unfold out2_9
  rw [View.canon_unit_zero hz2]
  simp only [View.ld_unit_zero (S := S8000x64) hz2, View.ld_unit_zero (S := S64x64) hz2, View.ld_unit_zero (S := S64) hz1]
  rw [pay_eq, iblk_wt, iblk_wb, iblk_b0, iblk_w1, iblk_b1, iblk_w2, iblk_b2]
  funext j
  show mlp (iblk2 V c 0 t : Vec Ideal S8000x64 .f32) (iblk2 V c 1 t : Vec Ideal S8000x64 .f32) (V c main_v29 : Mat 64 64)
      (V c main_v30 : Mat 64 64) (V c main_v32 : Row 64) (V c main_v34 : Mat 64 64) (V c main_v36 : Row 64) (V c main_v38 : Mat 64 64)
      (V c main_v40 : Row 64) j
    = mlp (V c main_v25 : Mat 800000 64) (V c main_v26 : Mat 800000 64) (V c main_v29 : Mat 64 64)
      (V c main_v30 : Mat 64 64) (V c main_v32 : Row 64) (V c main_v34 : Mat 64 64) (V c main_v36 : Row 64) (V c main_v38 : Mat 64 64)
      (V c main_v40 : Row 64) (((cfg2.win 9).blk t).view.emb j)
  have h0 : ((((cfg2.win 9).blk t).view.emb j) 0).val = t.val * 8000 + (j 0).val := by
    show win2_9.index t 0 * 8000 + 1 * (j 0).val = _; rw [e0]; omega
  have h1 : ((((cfg2.win 9).blk t).view.emb j) 1).val = (j 1).val := by
    show win2_9.index t 1 * 64 + 1 * (j 1).val = _; rw [e1]; omega
  refine mlp_rows _ _ _ _ _ _ _ _ _ _ _ _ j (fun k => ?_) (fun k => ?_) h1.symm
  · exact iblk_a V c t _ _ h0 rfl
  · exact iblk_c V c t _ _ h0 rfl

/-- The hundred row blocks tile the result. -/
theorem cover (c : Dev nD) (i : ((cfg2.win 9).arr.view.loc (c.tc : Thread nD τ)).2.ty.Idx) : ∃ t : Fin cfg2.N, (cfg2.win 9).flush t = true ∧ i ∈ ((cfg2.win 9).blk t).view.set := by
  have hi0 : (i 0).val < 800000 := (i 0).isLt
  have hi1 : (i 1).val < 64 := (i 1).isLt
  have ht : (i 0).val / 8000 < cfg2.N := by rw [show cfg2.N = 100 from N_2]; omega
  obtain ⟨t, htv⟩ : ∃ t : Fin cfg2.N, t.val = (i 0).val / 8000 := ⟨⟨_, ht⟩, rfl⟩
  refine ⟨t, flush2_9 t, ?_⟩
  obtain ⟨e0, e1⟩ := idx_o t
  show i ∈ ((View.whole main_v41).slice (win2_9.rect t)).set
  rw [View.set_slice_whole, Rect.mem_set_unit]
  intro a
  match a with
  | ⟨0, _⟩ => show win2_9.index t 0 * 8000 ≤ (i 0).val ∧ (i 0).val < win2_9.index t 0 * 8000 + 8000; rw [e0, htv]; omega
  | ⟨1, _⟩ => show win2_9.index t 1 * 64 ≤ (i 1).val ∧ (i 1).val < win2_9.index t 1 * 64 + 64; rw [e1]; omega

/-- THE ARRAY after the region: the message network of the arrays the region found. -/
theorem final (c : Dev nD) : (dat2 V c).arrAt 9 cfg2.N = G V c :=
  (dat2 V c).arrAt_eq_of_cover 9 (G V c) (fun t _ => flushed_eq V c t) (cover c)

end Cert.KernelIdeal.Mlp2

end
-- ==== Proof.Block1.lean ====
/-
  Message-passing block 1 of the kernel program, from the node features `h` it finds to the node features it leaves.

  Five steps of the program: the rows of `h` at the edges' sources and at their destinations are gathered (each by
  jnp.take's spelling, which would fill a row whose node number is out of range: under the precondition none is, so it is
  the plain gather); block 1's weights and biases are sliced out of the argument tables, the first layer's weights cut in
  their upper and lower halves; the pallas_call computes the message network row by row (Proof/KMlp2.lean); the messages
  are summed into their destination nodes. Between the steps every buffer that is read later keeps its contents
  (Proof/Keep.lean). The result is `Net.layer` of `h` and block 1's parameters.
-/
import proofs.«430343_j38053410242952_1_alg».proof.Proof.Keep
import proofs.«430343_j38053410242952_1_alg».proof.Proof.Net
import proofs.«430343_j38053410242952_1_alg».proof.Proof.Take
import proofs.«430343_j38053410242952_1_alg».proof.Proof.KMlp2
import proofs.«430343_j38053410242952_1_alg».proof.Proof.LibTRef
import Idealize.ShloMosaic.Lib.StableHlo.Run

set_option maxRecDepth 16384

noncomputable section

namespace Cert.KernelIdeal.Block1

open Cert.KernelIdeal Cert.KernelIdeal.Gen Cert.KernelIdeal.Keep Cert.MsgNet
open Idealize.ShloMosaic Idealize.ShloMosaic.TcCoe Idealize.SL.Sem Idealize.ShloMosaic.StableHlo

/-! ## What each stretch of host operations writes

The host operations here only move values (gathers, selects, slices, the scatter-add as one operation), so these four
facts are stated for any reading of the float formats. -/

section AnyValues
variable {F : FTy → Type} [FloatOps F]
variable (m : (ℓ : Loc nD τ sig) → Buf (Elt F) ℓ) (ρ : Dev nD → PrngReg)

set_option maxHeartbeats 20000000 in
/-- The rows of `h` at the sources, in jnp.take's spelling — the operations of the outlined function read and write their
    buffers through the transport to the tensor's type, which is kept on both sides here and dropped in `take_src`. -/
theorem take_src_typed (c : Dev nD) :
    (TRef.of main_v25 : TRef sig ⟨S800000x64, .f32⟩).ofBuf (W8 m ρ c (Proc.devRef .tc main_v25))
      = Net.rowsAtOrFill ((TRef.of main_v24 : TRef sig ⟨S50000x64, .f32⟩).ofBuf (W7 m ρ c (Proc.devRef .tc main_v24)))
          ((TRef.of main_v1 : TRef sig ⟨S800000, .i32⟩).ofBuf (W7 m ρ c (Proc.devRef .tc main_v1))) := by
  show (TRef.of main_v25 : TRef sig ⟨S800000x64, .f32⟩).ofBuf (StableHlo.after hostOps2_1 (W7 m ρ c) (Proc.devRef .tc main_v25)) = _
  unfold hostOps2_1
  after_results_simp
  simp only [TRef.ofBuf_toBuf]
  generalize W7 m ρ c (Proc.devRef .tc main_v24) = b
  generalize W7 m ρ c (Proc.devRef .tc main_v1) = d
  rfl

/-- The rows of `h` at the sources, in jnp.take's spelling. -/
theorem take_src (c : Dev nD) : W8 m ρ c (Proc.devRef .tc main_v25)
    = Net.rowsAtOrFill (W7 m ρ c (Proc.devRef .tc main_v24)) (W7 m ρ c (Proc.devRef .tc main_v1)) := by
  have h := take_src_typed m ρ c
  generalize W8 m ρ c (Proc.devRef .tc main_v25) = a at h ⊢
  generalize W7 m ρ c (Proc.devRef .tc main_v24) = b at h ⊢
  generalize W7 m ρ c (Proc.devRef .tc main_v1) = d at h ⊢
  exact h

set_option maxHeartbeats 20000000 in
/-- The rows of `h` at the destinations, in jnp.take's spelling, the transports kept. -/
theorem take_dst_typed (c : Dev nD) :
    (TRef.of main_v26 : TRef sig ⟨S800000x64, .f32⟩).ofBuf (W9 m ρ c (Proc.devRef .tc main_v26))
      = Net.rowsAtOrFill ((TRef.of main_v24 : TRef sig ⟨S50000x64, .f32⟩).ofBuf (W8 m ρ c (Proc.devRef .tc main_v24)))
          ((TRef.of main_v3 : TRef sig ⟨S800000, .i32⟩).ofBuf (W8 m ρ c (Proc.devRef .tc main_v3))) := by
  show (TRef.of main_v26 : TRef sig ⟨S800000x64, .f32⟩).ofBuf (StableHlo.after hostOps2_2 (W8 m ρ c) (Proc.devRef .tc main_v26)) = _
  unfold hostOps2_2
  after_results_simp
  simp only [TRef.ofBuf_toBuf]
  generalize W8 m ρ c (Proc.devRef .tc main_v24) = b
  generalize W8 m ρ c (Proc.devRef .tc main_v3) = d
  rfl

/-- The rows of `h` at the destinations, in jnp.take's spelling. -/
theorem take_dst (c : Dev nD) : W9 m ρ c (Proc.devRef .tc main_v26)
    = Net.rowsAtOrFill (W8 m ρ c (Proc.devRef .tc main_v24)) (W8 m ρ c (Proc.devRef .tc main_v3)) := by
  have h := take_dst_typed m ρ c
  generalize W9 m ρ c (Proc.devRef .tc main_v26) = a at h ⊢
  generalize W8 m ρ c (Proc.devRef .tc main_v24) = b at h ⊢
  generalize W8 m ρ c (Proc.devRef .tc main_v3) = d at h ⊢
  exact h

set_option maxHeartbeats 20000000 in
/-- Block 1's parameters as the stretch slices them out of the argument tables. -/
theorem params (c : Dev nD) :
    W10 m ρ c (Proc.devRef .tc main_v29) = Net.topHalf (Net.pw0_1 (W9 m ρ c (Proc.devRef .tc main_arg5)))
    ∧ W10 m ρ c (Proc.devRef .tc main_v30) = Net.botHalf (Net.pw0_1 (W9 m ρ c (Proc.devRef .tc main_arg5)))
    ∧ W10 m ρ c (Proc.devRef .tc main_v32) = Net.pb_1 (W9 m ρ c (Proc.devRef .tc main_arg6))
    ∧ W10 m ρ c (Proc.devRef .tc main_v34) = Net.pw_1 (W9 m ρ c (Proc.devRef .tc main_arg7))
    ∧ W10 m ρ c (Proc.devRef .tc main_v36) = Net.pb_1 (W9 m ρ c (Proc.devRef .tc main_arg8))
    ∧ W10 m ρ c (Proc.devRef .tc main_v38) = Net.pw_1 (W9 m ρ c (Proc.devRef .tc main_arg9))
    ∧ W10 m ρ c (Proc.devRef .tc main_v40) = Net.pb_1 (W9 m ρ c (Proc.devRef .tc main_arg10)) := by
  refine ⟨?_, ?_, ?_, ?_, ?_, ?_, ?_⟩
  all_goals
    show StableHlo.after hostOps2_3 (W9 m ρ c) _ = _
    unfold hostOps2_3
    after_results_simp
    rfl

set_option maxHeartbeats 20000000 in
/-- The messages summed into their destinations. -/
theorem scatter (c : Dev nD) : W12 m ρ c (Proc.devRef .tc main_v44)
    = Net.sumInto (W11 m ρ c (Proc.devRef .tc main_v3)) (W11 m ρ c (Proc.devRef .tc main_v41)) := by
  show StableHlo.after hostOps3 (W11 m ρ c) (Proc.devRef .tc main_v44) = _
  unfold hostOps3
  after_results_simp
  rfl

end AnyValues

variable (m : (ℓ : Loc nD τ sig) → Buf (Elt Ideal) ℓ) (ρ : Dev nD → PrngReg)

/-- The region's result array: the message network of the arrays its windows stage. -/
theorem region (c : Dev nD) : W11 m ρ c (Proc.devRef .tc main_v41) = Mlp2.G (V10 m ρ) c :=
  (W11_arr m ρ c 9).trans (Mlp2.final (V10 m ρ) c)

/-! ## The block -/

/-- THE BLOCK: the node features it leaves are `Net.layer` of the node features it found, the edge lists and block 1's
    parameters (the edge lists' node numbers in range). -/
theorem step (c : Dev nD)
    (hs : ∀ e, 0 ≤ (W1 m ρ c (Proc.devRef .tc main_v1) e).toInt ∧ (W1 m ρ c (Proc.devRef .tc main_v1) e).toInt < 50000)
    (hd : ∀ e, 0 ≤ (W1 m ρ c (Proc.devRef .tc main_v3) e).toInt ∧ (W1 m ρ c (Proc.devRef .tc main_v3) e).toInt < 50000) :
    W12 m ρ c (Proc.devRef .tc main_v44)
      = Net.layer (W1 m ρ c (Proc.devRef .tc main_v1)) (W1 m ρ c (Proc.devRef .tc main_v3)) (W7 m ρ c (Proc.devRef .tc main_v24))
          (Net.pw0_1 (m ((c : Thread nD τ).loc main_arg5))) (Net.pb_1 (m ((c : Thread nD τ).loc main_arg6)))
          (Net.pw_1 (m ((c : Thread nD τ).loc main_arg7))) (Net.pb_1 (m ((c : Thread nD τ).loc main_arg8)))
          (Net.pw_1 (m ((c : Thread nD τ).loc main_arg9))) (Net.pb_1 (m ((c : Thread nD τ).loc main_arg10))) := by
  obtain ⟨p9, p10, p12, p14, p16, p18, p20⟩ := params m ρ c
  have a : W10 m ρ c (Proc.devRef .tc main_v25) = Net.rowsAt (F := Ideal) (W7 m ρ c (Proc.devRef .tc main_v24)) (W1 m ρ c (Proc.devRef .tc main_v1)) := by
    rw [keep10 m ρ c (by decide), keep9 m ρ c (by decide), take_src, v1_at7 m ρ c]
    exact Take.rowsAtOrFill_eq _ _ hs
  have b : W10 m ρ c (Proc.devRef .tc main_v26) = Net.rowsAt (F := Ideal) (W7 m ρ c (Proc.devRef .tc main_v24)) (W1 m ρ c (Proc.devRef .tc main_v3)) := by
    rw [keep10 m ρ c (by decide), take_dst, keep8 m ρ c (b := main_v24) (by decide), v3_at8 m ρ c]
    exact Take.rowsAtOrFill_eq _ _ hd
  rw [scatter, region, v3_at11 m ρ c]
  unfold Net.layer Mlp2.G
  show Net.sumInto _ (mlp (W10 m ρ c (Proc.devRef .tc main_v25)) (W10 m ρ c (Proc.devRef .tc main_v26)) (W10 m ρ c (Proc.devRef .tc main_v29)) (W10 m ρ c (Proc.devRef .tc main_v30))
    (W10 m ρ c (Proc.devRef .tc main_v32)) (W10 m ρ c (Proc.devRef .tc main_v34)) (W10 m ρ c (Proc.devRef .tc main_v36)) (W10 m ρ c (Proc.devRef .tc main_v38)) (W10 m ρ c (Proc.devRef .tc main_v40))) = _
  rw [a, b, p9, p10, p12, p14, p16, p18, p20, arg5_at9 m ρ c, arg6_at9 m ρ c, arg7_at9 m ρ c,
    arg8_at9 m ρ c, arg9_at9 m ρ c, arg10_at9 m ρ c]

end Cert.KernelIdeal.Block1

end
-- ==== Proof.KMlp3.lean ====
/-
  The per-edge message network of the third round, computed in one hundred row blocks of 8000 edges each.

  The body's one store is three affine layers of the block it loaded, a rectifier after the first two. The first layer
  acts on the pair (source row, destination row): the product of the source rows with the upper half of the weights plus
  the product of the destination rows with the lower half, plus the bias on every row. Every product goes into a zero
  accumulator and the change of format on the way in is the identity on the extended reals, so each layer is the affine
  layer of the specification; the rectifier is the maximum with the zero word, which is the real zero. The network is
  row-wise and block `t` of either operand is rows `8000 t … 8000 t + 7999` of its array, while each weight matrix and
  bias is one block, the whole array, at every point: what point `t` writes back is block `t` of the network of the WHOLE
  arrays; the hundred blocks tile the result.
-/
import proofs.«430343_j38053410242952_1_alg».proof.Proof.Gen.KernelIdeal.Frame
import proofs.«430343_j38053410242952_1_alg».proof.Proof.Spec
import proofs.«430343_j38053410242952_1_alg».proof.Proof.LibDot
import Idealize.ShloMosaic.Lib.Pipeline.Value
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Mlp3

open Cert.KernelIdeal Cert.KernelIdeal.Gen Cert.MsgNet

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

theorem dot_plain : dot_S8000x64_S64x64_S8000x64_1_0_0_1_n_n = DotDims.plain 8000 64 64 := rfl

/-! ## The body's layers, as the body spells them -/

/-- A bias vector laid on every row, as the body spells it. -/
abbrev biasK (b : Vec Ideal S64 .f32) : FVec Ideal S8000x64 .f32 :=
  broadcastTo S8000x64 (shapeCast S1x64 (shapeCast S64 b shapeCasts_S64_S64) shapeCasts_S64_S1x64) broadcasts_S1x64_S8000x64

/-- A block's product with a weight matrix into the zero accumulator, as the body spells it. -/
abbrev prodK (x : FVec Ideal S8000x64 .f32) (w : Vec Ideal S64x64 .f32) : FVec Ideal S8000x64 .f32 :=
  matmul dot_S8000x64_S64x64_S8000x64_1_0_0_1_n_n none (truncf .bf16 x bitsLt_bf16_f32)
    (truncf .bf16 (shapeCast S64x64 w shapeCasts_S64x64_S64x64) bitsLt_bf16_f32) (constant S8000x64 .f32 0x00000000#32)

/-- The maximum with the zero word, as the body spells it. -/
abbrev reluK (x : FVec Ideal S8000x64 .f32) : FVec Ideal S8000x64 .f32 :=
  maximumf x (broadcast S8000x64 (Scalar.ofBits .f32 0x00000000#32))

theorem bias_apply (b : Vec Ideal S64 .f32) (p : Fin 8000) (q : Fin 64) : biasK b (ix2 p q) = b (ix1 q) := by
  show broadcastTo S8000x64 (shapeCast S1x64 (shapeCast S64 b shapeCasts_S64_S64) shapeCasts_S64_S1x64) broadcasts_S1x64_S8000x64 (ix2 p q) = _
  rw [shapeCast_self]
  exact (broadcastTo_1b_ab_apply _ _ p q).trans (shapeCast_a_1a_apply b _ 0 q)

theorem prod_apply (x : FVec Ideal S8000x64 .f32) (w : Vec Ideal S64x64 .f32) (p : Fin 8000) (q : Fin 64) :
    prodK x w (ix2 p q) = ∑ k : Fin 64, x (ix2 p k) * w (ix2 k q) := by
  show matmul dot_S8000x64_S64x64_S8000x64_1_0_0_1_n_n none (truncf .bf16 x bitsLt_bf16_f32)
    (truncf .bf16 (shapeCast S64x64 w shapeCasts_S64x64_S64x64) bitsLt_bf16_f32) (constant S8000x64 .f32 0x00000000#32) (ix2 p q) = _
  rw [shapeCast_self, dot_plain]
  exact Cert.GNN.matmul_plain_zero_apply none (truncf .bf16 x bitsLt_bf16_f32) (truncf .bf16 w bitsLt_bf16_f32) p q

/-- One product plus the bias is the affine layer. -/
theorem affine_pay (x : FVec Ideal S8000x64 .f32) (w : Vec Ideal S64x64 .f32) (b : Vec Ideal S64 .f32) :
    addf (prodK x w) (biasK b) = affine x w b := by
  funext j
  obtain ⟨p, q, rfl⟩ : ∃ (p : Fin 8000) (q : Fin 64), j = ix2 p q := ⟨j 0, j 1, eq_ix2 j⟩
  show addf (prodK x w) (biasK b) (ix2 p q) = (∑ k : Fin 64, x (ix2 p k) * w (ix2 k q)) + b (ix1 q)
  rw [addf_apply, prod_apply, bias_apply]

/-- The sum of two products plus the bias is the affine layer on the pair of rows. -/
theorem affine2_pay (a c : FVec Ideal S8000x64 .f32) (wt wb : Vec Ideal S64x64 .f32) (b : Vec Ideal S64 .f32) :
    addf (addf (prodK a wt) (prodK c wb)) (biasK b) = affine2 a c wt wb b := by
  funext j
  obtain ⟨p, q, rfl⟩ : ∃ (p : Fin 8000) (q : Fin 64), j = ix2 p q := ⟨j 0, j 1, eq_ix2 j⟩
  show addf (addf (prodK a wt) (prodK c wb)) (biasK b) (ix2 p q)
    = ((∑ k : Fin 64, a (ix2 p k) * wt (ix2 k q)) + (∑ k : Fin 64, c (ix2 p k) * wb (ix2 k q))) + b (ix1 q)
  rw [addf_apply, addf_apply, prod_apply, prod_apply, bias_apply]

/-- The maximum with the zero word is the rectifier. -/
theorem relu_pay (x : FVec Ideal S8000x64 .f32) : reluK x = relu x := by
  funext j
  show max (x j) (Ideal.ofBits .f32 0x00000000#32) = max (x j) 0
  rw [Ideal.ofBits_zero_f32]

/-- The body's store is the message network of the blocks it loaded. -/
theorem pay_eq (a c : Vec Ideal S8000x64 .f32) (wt wb : Vec Ideal S64x64 .f32) (b0 : Vec Ideal S64 .f32)
    (w1 : Vec Ideal S64x64 .f32) (b1 : Vec Ideal S64 .f32) (w2 : Vec Ideal S64x64 .f32) (b2 : Vec Ideal S64 .f32) :
    k3_pay1 (F := Ideal) (k3_pay2 a c wt wb b0 w1 b1 w2) b2 = mlp a c wt wb b0 w1 b1 w2 b2 := by
  show addf (prodK (reluK (addf (prodK (reluK (addf (addf
      (prodK (shapeCast S8000x64 a shapeCasts_S8000x64_S8000x64) wt) (prodK (shapeCast S8000x64 c shapeCasts_S8000x64_S8000x64) wb))
      (biasK b0))) w1) (biasK b1))) w2) (biasK b2) = _
  rw [shapeCast_self, shapeCast_self, affine2_pay, relu_pay, affine_pay, relu_pay, affine_pay]
  rfl

/-- The array the region's output window ends holding: the message network of the arrays its input windows stage. -/
abbrev G (c : Dev nD) : Mat 800000 64 := mlp (V c main_v45 : Mat 800000 64) (V c main_v46 : Mat 800000 64) (V c main_v49 : Mat 64 64) (V c main_v50 : Mat 64 64) (V c main_v52 : Row 64) (V c main_v54 : Mat 64 64) (V c main_v56 : Row 64) (V c main_v58 : Mat 64 64) (V c main_v60 : Row 64)

/-! ## The printed index maps over the grid -/

/-- The source rows' block moves with the point. -/
theorem idx_a : ∀ t : Fin cfg3.N, win3_0.index t (0 : Fin 2) = t.val ∧ win3_0.index t (1 : Fin 2) = 0 :=
  (by decide +kernel : ∀ t : Fin grid3.N, _)

/-- The destination rows' block moves with the point. -/
theorem idx_c : ∀ t : Fin cfg3.N, win3_1.index t (0 : Fin 2) = t.val ∧ win3_1.index t (1 : Fin 2) = 0 :=
  (by decide +kernel : ∀ t : Fin grid3.N, _)

/-- The result's block moves with the point. -/
theorem idx_o : ∀ t : Fin cfg3.N, win3_9.index t (0 : Fin 2) = t.val ∧ win3_9.index t (1 : Fin 2) = 0 :=
  (by decide +kernel : ∀ t : Fin grid3.N, _)

/-- Each weight matrix is one block. -/
theorem idx_w : ∀ t : Fin cfg3.N, (win3_2.index t (0 : Fin 2) = 0 ∧ win3_2.index t (1 : Fin 2) = 0)
    ∧ (win3_3.index t (0 : Fin 2) = 0 ∧ win3_3.index t (1 : Fin 2) = 0)
    ∧ (win3_5.index t (0 : Fin 2) = 0 ∧ win3_5.index t (1 : Fin 2) = 0)
    ∧ (win3_7.index t (0 : Fin 2) = 0 ∧ win3_7.index t (1 : Fin 2) = 0) :=
  (by decide +kernel : ∀ t : Fin grid3.N, _)

/-- Each bias is one block. -/
theorem idx_b : ∀ t : Fin cfg3.N, win3_4.index t (0 : Fin 1) = 0 ∧ win3_6.index t (0 : Fin 1) = 0 ∧ win3_8.index t (0 : Fin 1) = 0 :=
  (by decide +kernel : ∀ t : Fin grid3.N, _)

/-! ## The windows' blocks -/

/-- Block `t` of the source rows is the array's rows `8000 t …`. -/
theorem iblk_a (c : Dev nD) (t : Fin cfg3.N) (y : S8000x64.Idx) (i : S800000x64.Idx)
    (h0 : (i 0).val = t.val * 8000 + (y 0).val) (h1 : (i 1).val = (y 1).val) :
    (iblk3 V c 0 t : Vec Ideal S8000x64 .f32) y = (V c main_v45 : S800000x64.Idx → EReal) i := by
  obtain ⟨e0, e1⟩ := idx_a t
  unfold iblk3
  rw [View.read_apply]
  show V c main_v45 _ = V c main_v45 _
  congr 1
  funext a
  apply Fin.ext
  match a with
  | ⟨0, _⟩ => show win3_0.index t 0 * 8000 + 1 * (y 0).val = (i 0).val; rw [e0, h0]; omega
  | ⟨1, _⟩ => show win3_0.index t 1 * 64 + 1 * (y 1).val = (i 1).val; rw [e1, h1]; omega

/-- Block `t` of the destination rows is the array's rows `8000 t …`. -/
theorem iblk_c (c : Dev nD) (t : Fin cfg3.N) (y : S8000x64.Idx) (i : S800000x64.Idx)
    (h0 : (i 0).val = t.val * 8000 + (y 0).val) (h1 : (i 1).val = (y 1).val) :
    (iblk3 V c 1 t : Vec Ideal S8000x64 .f32) y = (V c main_v46 : S800000x64.Idx → EReal) i := by
  obtain ⟨e0, e1⟩ := idx_c t
  unfold iblk3
  rw [View.read_apply]
  show V c main_v46 _ = V c main_v46 _
  congr 1
  funext a
  apply Fin.ext
  match a with
  | ⟨0, _⟩ => show win3_1.index t 0 * 8000 + 1 * (y 0).val = (i 0).val; rw [e0, h0]; omega
  | ⟨1, _⟩ => show win3_1.index t 1 * 64 + 1 * (y 1).val = (i 1).val; rw [e1, h1]; omega

/-- The first layer's upper weights: one block, the whole matrix. -/
theorem iblk_wt (c : Dev nD) (t : Fin cfg3.N) : (iblk3 V c 2 t : Vec Ideal S64x64 .f32) = (V c main_v49 : S64x64.Idx → EReal) := by
  obtain ⟨⟨e0, e1⟩, -, -, -⟩ := idx_w t
  funext y
  unfold iblk3
  rw [View.read_apply]
  show V c main_v49 _ = V c main_v49 _
  congr 1
  funext a
  apply Fin.ext
  match a with
  | ⟨0, _⟩ => show win3_2.index t 0 * 64 + 1 * (y 0).val = (y 0).val; rw [e0]; omega
  | ⟨1, _⟩ => show win3_2.index t 1 * 64 + 1 * (y 1).val = (y 1).val; rw [e1]; omega

/-- The first layer's lower weights: one block, the whole matrix. -/
theorem iblk_wb (c : Dev nD) (t : Fin cfg3.N) : (iblk3 V c 3 t : Vec Ideal S64x64 .f32) = (V c main_v50 : S64x64.Idx → EReal) := by
  obtain ⟨-, ⟨e0, e1⟩, -, -⟩ := idx_w t
  funext y
  unfold iblk3
  rw [View.read_apply]
  show V c main_v50 _ = V c main_v50 _
  congr 1
  funext a
  apply Fin.ext
  match a with
  | ⟨0, _⟩ => show win3_3.index t 0 * 64 + 1 * (y 0).val = (y 0).val; rw [e0]; omega
  | ⟨1, _⟩ => show win3_3.index t 1 * 64 + 1 * (y 1).val = (y 1).val; rw [e1]; omega

/-- The first bias: one block, the whole vector. -/
theorem iblk_b0 (c : Dev nD) (t : Fin cfg3.N) : (iblk3 V c 4 t : Vec Ideal S64 .f32) = (V c main_v52 : S64.Idx → EReal) := by
  obtain ⟨e0, -, -⟩ := idx_b t
  funext y
  unfold iblk3
  rw [View.read_apply]
  show V c main_v52 _ = V c main_v52 _
  congr 1
  funext a
  apply Fin.ext
  match a with
  | ⟨0, _⟩ => show win3_4.index t 0 * 64 + 1 * (y 0).val = (y 0).val; rw [e0]; omega

/-- The second layer's weights: one block, the whole matrix. -/
theorem iblk_w1 (c : Dev nD) (t : Fin cfg3.N) : (iblk3 V c 5 t : Vec Ideal S64x64 .f32) = (V c main_v54 : S64x64.Idx → EReal) := by
  obtain ⟨-, -, ⟨e0, e1⟩, -⟩ := idx_w t
  funext y
  unfold iblk3
  rw [View.read_apply]
  show V c main_v54 _ = V c main_v54 _
  congr 1
  funext a
  apply Fin.ext
  match a with
  | ⟨0, _⟩ => show win3_5.index t 0 * 64 + 1 * (y 0).val = (y 0).val; rw [e0]; omega
  | ⟨1, _⟩ => show win3_5.index t 1 * 64 + 1 * (y 1).val = (y 1).val; rw [e1]; omega

/-- The second bias: one block, the whole vector. -/
theorem iblk_b1 (c : Dev nD) (t : Fin cfg3.N) : (iblk3 V c 6 t : Vec Ideal S64 .f32) = (V c main_v56 : S64.Idx → EReal) := by
  obtain ⟨-, e0, -⟩ := idx_b t
  funext y
  unfold iblk3
  rw [View.read_apply]
  show V c main_v56 _ = V c main_v56 _
  congr 1
  funext a
  apply Fin.ext
  match a with
  | ⟨0, _⟩ => show win3_6.index t 0 * 64 + 1 * (y 0).val = (y 0).val; rw [e0]; omega

/-- The third layer's weights: one block, the whole matrix. -/
theorem iblk_w2 (c : Dev nD) (t : Fin cfg3.N) : (iblk3 V c 7 t : Vec Ideal S64x64 .f32) = (V c main_v58 : S64x64.Idx → EReal) := by
  obtain ⟨-, -, -, ⟨e0, e1⟩⟩ := idx_w t
  funext y
  unfold iblk3
  rw [View.read_apply]
  show V c main_v58 _ = V c main_v58 _
  congr 1
  funext a
  apply Fin.ext
  match a with
  | ⟨0, _⟩ => show win3_7.index t 0 * 64 + 1 * (y 0).val = (y 0).val; rw [e0]; omega
  | ⟨1, _⟩ => show win3_7.index t 1 * 64 + 1 * (y 1).val = (y 1).val; rw [e1]; omega

/-- The third bias: one block, the whole vector. -/
theorem iblk_b2 (c : Dev nD) (t : Fin cfg3.N) : (iblk3 V c 8 t : Vec Ideal S64 .f32) = (V c main_v60 : S64.Idx → EReal) := by
  obtain ⟨-, -, e0⟩ := idx_b t
  funext y
  unfold iblk3
  rw [View.read_apply]
  show V c main_v60 _ = V c main_v60 _
  congr 1
  funext a
  apply Fin.ext
  match a with
  | ⟨0, _⟩ => show win3_8.index t 0 * 64 + 1 * (y 0).val = (y 0).val; rw [e0]; omega

/-! ## The region's value -/

/-- WHAT POINT `t` WRITES BACK is block `t` of the message network of the whole arrays. -/
theorem flushed_eq (c : Dev nD) (t : Fin cfg3.N) :
    (dat3 V c).flushed 9 t = ((cfg3.win 9).blk t).view.read (Elt Ideal) (G V c) := by
  obtain ⟨e0, e1⟩ := idx_o t
  show (cfg3.win 9).cut (grid3.coords t) ((dat3 V c).after 9 t) = _
  rw [after3_9]
  unfold out3_9
  rw [View.canon_unit_zero hz2]
  simp only [View.ld_unit_zero (S := S8000x64) hz2, View.ld_unit_zero (S := S64x64) hz2, View.ld_unit_zero (S := S64) hz1]
  rw [pay_eq, iblk_wt, iblk_wb, iblk_b0, iblk_w1, iblk_b1, iblk_w2, iblk_b2]
  funext j
  show mlp (iblk3 V c 0 t : Vec Ideal S8000x64 .f32) (iblk3 V c 1 t : Vec Ideal S8000x64 .f32) (V c main_v49 : Mat 64 64)
      (V c main_v50 : Mat 64 64) (V c main_v52 : Row 64) (V c main_v54 : Mat 64 64) (V c main_v56 : Row 64) (V c main_v58 : Mat 64 64)
      (V c main_v60 : Row 64) j
    = mlp (V c main_v45 : Mat 800000 64) (V c main_v46 : Mat 800000 64) (V c main_v49 : Mat 64 64)
      (V c main_v50 : Mat 64 64) (V c main_v52 : Row 64) (V c main_v54 : Mat 64 64) (V c main_v56 : Row 64) (V c main_v58 : Mat 64 64)
      (V c main_v60 : Row 64) (((cfg3.win 9).blk t).view.emb j)
  have h0 : ((((cfg3.win 9).blk t).view.emb j) 0).val = t.val * 8000 + (j 0).val := by
    show win3_9.index t 0 * 8000 + 1 * (j 0).val = _; rw [e0]; omega
  have h1 : ((((cfg3.win 9).blk t).view.emb j) 1).val = (j 1).val := by
    show win3_9.index t 1 * 64 + 1 * (j 1).val = _; rw [e1]; omega
  refine mlp_rows _ _ _ _ _ _ _ _ _ _ _ _ j (fun k => ?_) (fun k => ?_) h1.symm
  · exact iblk_a V c t _ _ h0 rfl
  · exact iblk_c V c t _ _ h0 rfl

/-- The hundred row blocks tile the result. -/
theorem cover (c : Dev nD) (i : ((cfg3.win 9).arr.view.loc (c.tc : Thread nD τ)).2.ty.Idx) : ∃ t : Fin cfg3.N, (cfg3.win 9).flush t = true ∧ i ∈ ((cfg3.win 9).blk t).view.set := by
  have hi0 : (i 0).val < 800000 := (i 0).isLt
  have hi1 : (i 1).val < 64 := (i 1).isLt
  have ht : (i 0).val / 8000 < cfg3.N := by rw [show cfg3.N = 100 from N_3]; omega
  obtain ⟨t, htv⟩ : ∃ t : Fin cfg3.N, t.val = (i 0).val / 8000 := ⟨⟨_, ht⟩, rfl⟩
  refine ⟨t, flush3_9 t, ?_⟩
  obtain ⟨e0, e1⟩ := idx_o t
  show i ∈ ((View.whole main_v61).slice (win3_9.rect t)).set
  rw [View.set_slice_whole, Rect.mem_set_unit]
  intro a
  match a with
  | ⟨0, _⟩ => show win3_9.index t 0 * 8000 ≤ (i 0).val ∧ (i 0).val < win3_9.index t 0 * 8000 + 8000; rw [e0, htv]; omega
  | ⟨1, _⟩ => show win3_9.index t 1 * 64 ≤ (i 1).val ∧ (i 1).val < win3_9.index t 1 * 64 + 64; rw [e1]; omega

/-- THE ARRAY after the region: the message network of the arrays the region found. -/
theorem final (c : Dev nD) : (dat3 V c).arrAt 9 cfg3.N = G V c :=
  (dat3 V c).arrAt_eq_of_cover 9 (G V c) (fun t _ => flushed_eq V c t) (cover c)

end Cert.KernelIdeal.Mlp3

end
-- ==== Proof.Block2.lean ====
/-
  Message-passing block 2 of the kernel program, from the node features `h` it finds to the node features it leaves.

  Five steps of the program: the rows of `h` at the edges' sources and at their destinations are gathered (each by
  jnp.take's spelling, which would fill a row whose node number is out of range: under the precondition none is, so it is
  the plain gather); block 2's weights and biases are sliced out of the argument tables, the first layer's weights cut in
  their upper and lower halves; the pallas_call computes the message network row by row (Proof/KMlp3.lean); the messages
  are summed into their destination nodes. Between the steps every buffer that is read later keeps its contents
  (Proof/Keep.lean). The result is `Net.layer` of `h` and block 2's parameters.
-/
import proofs.«430343_j38053410242952_1_alg».proof.Proof.Keep
import proofs.«430343_j38053410242952_1_alg».proof.Proof.Net
import proofs.«430343_j38053410242952_1_alg».proof.Proof.Take
import proofs.«430343_j38053410242952_1_alg».proof.Proof.KMlp3
import proofs.«430343_j38053410242952_1_alg».proof.Proof.LibTRef
import Idealize.ShloMosaic.Lib.StableHlo.Run

set_option maxRecDepth 16384

noncomputable section

namespace Cert.KernelIdeal.Block2

open Cert.KernelIdeal Cert.KernelIdeal.Gen Cert.KernelIdeal.Keep Cert.MsgNet
open Idealize.ShloMosaic Idealize.ShloMosaic.TcCoe Idealize.SL.Sem Idealize.ShloMosaic.StableHlo

/-! ## What each stretch of host operations writes

The host operations here only move values (gathers, selects, slices, the scatter-add as one operation), so these four
facts are stated for any reading of the float formats. -/

section AnyValues
variable {F : FTy → Type} [FloatOps F]
variable (m : (ℓ : Loc nD τ sig) → Buf (Elt F) ℓ) (ρ : Dev nD → PrngReg)

set_option maxHeartbeats 20000000 in
/-- The rows of `h` at the sources, in jnp.take's spelling — the operations of the outlined function read and write their
    buffers through the transport to the tensor's type, which is kept on both sides here and dropped in `take_src`. -/
theorem take_src_typed (c : Dev nD) :
    (TRef.of main_v45 : TRef sig ⟨S800000x64, .f32⟩).ofBuf (W13 m ρ c (Proc.devRef .tc main_v45))
      = Net.rowsAtOrFill ((TRef.of main_v44 : TRef sig ⟨S50000x64, .f32⟩).ofBuf (W12 m ρ c (Proc.devRef .tc main_v44)))
          ((TRef.of main_v1 : TRef sig ⟨S800000, .i32⟩).ofBuf (W12 m ρ c (Proc.devRef .tc main_v1))) := by
  show (TRef.of main_v45 : TRef sig ⟨S800000x64, .f32⟩).ofBuf (StableHlo.after hostOps3_1 (W12 m ρ c) (Proc.devRef .tc main_v45)) = _
  unfold hostOps3_1
  after_results_simp
  simp only [TRef.ofBuf_toBuf]
  generalize W12 m ρ c (Proc.devRef .tc main_v44) = b
  generalize W12 m ρ c (Proc.devRef .tc main_v1) = d
  rfl

/-- The rows of `h` at the sources, in jnp.take's spelling. -/
theorem take_src (c : Dev nD) : W13 m ρ c (Proc.devRef .tc main_v45)
    = Net.rowsAtOrFill (W12 m ρ c (Proc.devRef .tc main_v44)) (W12 m ρ c (Proc.devRef .tc main_v1)) := by
  have h := take_src_typed m ρ c
  generalize W13 m ρ c (Proc.devRef .tc main_v45) = a at h ⊢
  generalize W12 m ρ c (Proc.devRef .tc main_v44) = b at h ⊢
  generalize W12 m ρ c (Proc.devRef .tc main_v1) = d at h ⊢
  exact h

set_option maxHeartbeats 20000000 in
/-- The rows of `h` at the destinations, in jnp.take's spelling, the transports kept. -/
theorem take_dst_typed (c : Dev nD) :
    (TRef.of main_v46 : TRef sig ⟨S800000x64, .f32⟩).ofBuf (W14 m ρ c (Proc.devRef .tc main_v46))
      = Net.rowsAtOrFill ((TRef.of main_v44 : TRef sig ⟨S50000x64, .f32⟩).ofBuf (W13 m ρ c (Proc.devRef .tc main_v44)))
          ((TRef.of main_v3 : TRef sig ⟨S800000, .i32⟩).ofBuf (W13 m ρ c (Proc.devRef .tc main_v3))) := by
  show (TRef.of main_v46 : TRef sig ⟨S800000x64, .f32⟩).ofBuf (StableHlo.after hostOps3_2 (W13 m ρ c) (Proc.devRef .tc main_v46)) = _
  unfold hostOps3_2
  after_results_simp
  simp only [TRef.ofBuf_toBuf]
  generalize W13 m ρ c (Proc.devRef .tc main_v44) = b
  generalize W13 m ρ c (Proc.devRef .tc main_v3) = d
  rfl

/-- The rows of `h` at the destinations, in jnp.take's spelling. -/
theorem take_dst (c : Dev nD) : W14 m ρ c (Proc.devRef .tc main_v46)
    = Net.rowsAtOrFill (W13 m ρ c (Proc.devRef .tc main_v44)) (W13 m ρ c (Proc.devRef .tc main_v3)) := by
  have h := take_dst_typed m ρ c
  generalize W14 m ρ c (Proc.devRef .tc main_v46) = a at h ⊢
  generalize W13 m ρ c (Proc.devRef .tc main_v44) = b at h ⊢
  generalize W13 m ρ c (Proc.devRef .tc main_v3) = d at h ⊢
  exact h

set_option maxHeartbeats 20000000 in
/-- Block 2's parameters as the stretch slices them out of the argument tables. -/
theorem params (c : Dev nD) :
    W15 m ρ c (Proc.devRef .tc main_v49) = Net.topHalf (Net.pw0_2 (W14 m ρ c (Proc.devRef .tc main_arg5)))
    ∧ W15 m ρ c (Proc.devRef .tc main_v50) = Net.botHalf (Net.pw0_2 (W14 m ρ c (Proc.devRef .tc main_arg5)))
    ∧ W15 m ρ c (Proc.devRef .tc main_v52) = Net.pb_2 (W14 m ρ c (Proc.devRef .tc main_arg6))
    ∧ W15 m ρ c (Proc.devRef .tc main_v54) = Net.pw_2 (W14 m ρ c (Proc.devRef .tc main_arg7))
    ∧ W15 m ρ c (Proc.devRef .tc main_v56) = Net.pb_2 (W14 m ρ c (Proc.devRef .tc main_arg8))
    ∧ W15 m ρ c (Proc.devRef .tc main_v58) = Net.pw_2 (W14 m ρ c (Proc.devRef .tc main_arg9))
    ∧ W15 m ρ c (Proc.devRef .tc main_v60) = Net.pb_2 (W14 m ρ c (Proc.devRef .tc main_arg10)) := by
  refine ⟨?_, ?_, ?_, ?_, ?_, ?_, ?_⟩
  all_goals
    show StableHlo.after hostOps3_3 (W14 m ρ c) _ = _
    unfold hostOps3_3
    after_results_simp
    rfl

set_option maxHeartbeats 20000000 in
/-- The messages summed into their destinations. -/
theorem scatter (c : Dev nD) : W17 m ρ c (Proc.devRef .tc main_v64)
    = Net.sumInto (W16 m ρ c (Proc.devRef .tc main_v3)) (W16 m ρ c (Proc.devRef .tc main_v61)) := by
  show StableHlo.after hostOps4 (W16 m ρ c) (Proc.devRef .tc main_v64) = _
  unfold hostOps4
  after_results_simp
  rfl

end AnyValues

variable (m : (ℓ : Loc nD τ sig) → Buf (Elt Ideal) ℓ) (ρ : Dev nD → PrngReg)

/-- The region's result array: the message network of the arrays its windows stage. -/
theorem region (c : Dev nD) : W16 m ρ c (Proc.devRef .tc main_v61) = Mlp3.G (V15 m ρ) c :=
  (W16_arr m ρ c 9).trans (Mlp3.final (V15 m ρ) c)

/-! ## The block -/

/-- THE BLOCK: the node features it leaves are `Net.layer` of the node features it found, the edge lists and block 2's
    parameters (the edge lists' node numbers in range). -/
theorem step (c : Dev nD)
    (hs : ∀ e, 0 ≤ (W1 m ρ c (Proc.devRef .tc main_v1) e).toInt ∧ (W1 m ρ c (Proc.devRef .tc main_v1) e).toInt < 50000)
    (hd : ∀ e, 0 ≤ (W1 m ρ c (Proc.devRef .tc main_v3) e).toInt ∧ (W1 m ρ c (Proc.devRef .tc main_v3) e).toInt < 50000) :
    W17 m ρ c (Proc.devRef .tc main_v64)
      = Net.layer (W1 m ρ c (Proc.devRef .tc main_v1)) (W1 m ρ c (Proc.devRef .tc main_v3)) (W12 m ρ c (Proc.devRef .tc main_v44))
          (Net.pw0_2 (m ((c : Thread nD τ).loc main_arg5))) (Net.pb_2 (m ((c : Thread nD τ).loc main_arg6)))
          (Net.pw_2 (m ((c : Thread nD τ).loc main_arg7))) (Net.pb_2 (m ((c : Thread nD τ).loc main_arg8)))
          (Net.pw_2 (m ((c : Thread nD τ).loc main_arg9))) (Net.pb_2 (m ((c : Thread nD τ).loc main_arg10))) := by
  obtain ⟨p9, p10, p12, p14, p16, p18, p20⟩ := params m ρ c
  have a : W15 m ρ c (Proc.devRef .tc main_v45) = Net.rowsAt (F := Ideal) (W12 m ρ c (Proc.devRef .tc main_v44)) (W1 m ρ c (Proc.devRef .tc main_v1)) := by
    rw [keep15 m ρ c (by decide), keep14 m ρ c (by decide), take_src, v1_at12 m ρ c]
    exact Take.rowsAtOrFill_eq _ _ hs
  have b : W15 m ρ c (Proc.devRef .tc main_v46) = Net.rowsAt (F := Ideal) (W12 m ρ c (Proc.devRef .tc main_v44)) (W1 m ρ c (Proc.devRef .tc main_v3)) := by
    rw [keep15 m ρ c (by decide), take_dst, keep13 m ρ c (b := main_v44) (by decide), v3_at13 m ρ c]
    exact Take.rowsAtOrFill_eq _ _ hd
  rw [scatter, region, v3_at16 m ρ c]
  unfold Net.layer Mlp3.G
  show Net.sumInto _ (mlp (W15 m ρ c (Proc.devRef .tc main_v45)) (W15 m ρ c (Proc.devRef .tc main_v46)) (W15 m ρ c (Proc.devRef .tc main_v49)) (W15 m ρ c (Proc.devRef .tc main_v50))
    (W15 m ρ c (Proc.devRef .tc main_v52)) (W15 m ρ c (Proc.devRef .tc main_v54)) (W15 m ρ c (Proc.devRef .tc main_v56)) (W15 m ρ c (Proc.devRef .tc main_v58)) (W15 m ρ c (Proc.devRef .tc main_v60))) = _
  rw [a, b, p9, p10, p12, p14, p16, p18, p20, arg5_at14 m ρ c, arg6_at14 m ρ c, arg7_at14 m ρ c,
    arg8_at14 m ρ c, arg9_at14 m ρ c, arg10_at14 m ρ c]

end Cert.KernelIdeal.Block2

end
-- ==== Proof.KMlp4.lean ====
/-
  The per-edge message network of the fourth round, computed in one hundred row blocks of 8000 edges each.

  The body's one store is three affine layers of the block it loaded, a rectifier after the first two. The first layer
  acts on the pair (source row, destination row): the product of the source rows with the upper half of the weights plus
  the product of the destination rows with the lower half, plus the bias on every row. Every product goes into a zero
  accumulator and the change of format on the way in is the identity on the extended reals, so each layer is the affine
  layer of the specification; the rectifier is the maximum with the zero word, which is the real zero. The network is
  row-wise and block `t` of either operand is rows `8000 t … 8000 t + 7999` of its array, while each weight matrix and
  bias is one block, the whole array, at every point: what point `t` writes back is block `t` of the network of the WHOLE
  arrays; the hundred blocks tile the result.
-/
import proofs.«430343_j38053410242952_1_alg».proof.Proof.Gen.KernelIdeal.Frame
import proofs.«430343_j38053410242952_1_alg».proof.Proof.Spec
import proofs.«430343_j38053410242952_1_alg».proof.Proof.LibDot
import Idealize.ShloMosaic.Lib.Pipeline.Value
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Mlp4

open Cert.KernelIdeal Cert.KernelIdeal.Gen Cert.MsgNet

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

theorem dot_plain : dot_S8000x64_S64x64_S8000x64_1_0_0_1_n_n = DotDims.plain 8000 64 64 := rfl

/-! ## The body's layers, as the body spells them -/

/-- A bias vector laid on every row, as the body spells it. -/
abbrev biasK (b : Vec Ideal S64 .f32) : FVec Ideal S8000x64 .f32 :=
  broadcastTo S8000x64 (shapeCast S1x64 (shapeCast S64 b shapeCasts_S64_S64) shapeCasts_S64_S1x64) broadcasts_S1x64_S8000x64

/-- A block's product with a weight matrix into the zero accumulator, as the body spells it. -/
abbrev prodK (x : FVec Ideal S8000x64 .f32) (w : Vec Ideal S64x64 .f32) : FVec Ideal S8000x64 .f32 :=
  matmul dot_S8000x64_S64x64_S8000x64_1_0_0_1_n_n none (truncf .bf16 x bitsLt_bf16_f32)
    (truncf .bf16 (shapeCast S64x64 w shapeCasts_S64x64_S64x64) bitsLt_bf16_f32) (constant S8000x64 .f32 0x00000000#32)

/-- The maximum with the zero word, as the body spells it. -/
abbrev reluK (x : FVec Ideal S8000x64 .f32) : FVec Ideal S8000x64 .f32 :=
  maximumf x (broadcast S8000x64 (Scalar.ofBits .f32 0x00000000#32))

theorem bias_apply (b : Vec Ideal S64 .f32) (p : Fin 8000) (q : Fin 64) : biasK b (ix2 p q) = b (ix1 q) := by
  show broadcastTo S8000x64 (shapeCast S1x64 (shapeCast S64 b shapeCasts_S64_S64) shapeCasts_S64_S1x64) broadcasts_S1x64_S8000x64 (ix2 p q) = _
  rw [shapeCast_self]
  exact (broadcastTo_1b_ab_apply _ _ p q).trans (shapeCast_a_1a_apply b _ 0 q)

theorem prod_apply (x : FVec Ideal S8000x64 .f32) (w : Vec Ideal S64x64 .f32) (p : Fin 8000) (q : Fin 64) :
    prodK x w (ix2 p q) = ∑ k : Fin 64, x (ix2 p k) * w (ix2 k q) := by
  show matmul dot_S8000x64_S64x64_S8000x64_1_0_0_1_n_n none (truncf .bf16 x bitsLt_bf16_f32)
    (truncf .bf16 (shapeCast S64x64 w shapeCasts_S64x64_S64x64) bitsLt_bf16_f32) (constant S8000x64 .f32 0x00000000#32) (ix2 p q) = _
  rw [shapeCast_self, dot_plain]
  exact Cert.GNN.matmul_plain_zero_apply none (truncf .bf16 x bitsLt_bf16_f32) (truncf .bf16 w bitsLt_bf16_f32) p q

/-- One product plus the bias is the affine layer. -/
theorem affine_pay (x : FVec Ideal S8000x64 .f32) (w : Vec Ideal S64x64 .f32) (b : Vec Ideal S64 .f32) :
    addf (prodK x w) (biasK b) = affine x w b := by
  funext j
  obtain ⟨p, q, rfl⟩ : ∃ (p : Fin 8000) (q : Fin 64), j = ix2 p q := ⟨j 0, j 1, eq_ix2 j⟩
  show addf (prodK x w) (biasK b) (ix2 p q) = (∑ k : Fin 64, x (ix2 p k) * w (ix2 k q)) + b (ix1 q)
  rw [addf_apply, prod_apply, bias_apply]

/-- The sum of two products plus the bias is the affine layer on the pair of rows. -/
theorem affine2_pay (a c : FVec Ideal S8000x64 .f32) (wt wb : Vec Ideal S64x64 .f32) (b : Vec Ideal S64 .f32) :
    addf (addf (prodK a wt) (prodK c wb)) (biasK b) = affine2 a c wt wb b := by
  funext j
  obtain ⟨p, q, rfl⟩ : ∃ (p : Fin 8000) (q : Fin 64), j = ix2 p q := ⟨j 0, j 1, eq_ix2 j⟩
  show addf (addf (prodK a wt) (prodK c wb)) (biasK b) (ix2 p q)
    = ((∑ k : Fin 64, a (ix2 p k) * wt (ix2 k q)) + (∑ k : Fin 64, c (ix2 p k) * wb (ix2 k q))) + b (ix1 q)
  rw [addf_apply, addf_apply, prod_apply, prod_apply, bias_apply]

/-- The maximum with the zero word is the rectifier. -/
theorem relu_pay (x : FVec Ideal S8000x64 .f32) : reluK x = relu x := by
  funext j
  show max (x j) (Ideal.ofBits .f32 0x00000000#32) = max (x j) 0
  rw [Ideal.ofBits_zero_f32]

/-- The body's store is the message network of the blocks it loaded. -/
theorem pay_eq (a c : Vec Ideal S8000x64 .f32) (wt wb : Vec Ideal S64x64 .f32) (b0 : Vec Ideal S64 .f32)
    (w1 : Vec Ideal S64x64 .f32) (b1 : Vec Ideal S64 .f32) (w2 : Vec Ideal S64x64 .f32) (b2 : Vec Ideal S64 .f32) :
    k4_pay1 (F := Ideal) (k4_pay2 a c wt wb b0 w1 b1 w2) b2 = mlp a c wt wb b0 w1 b1 w2 b2 := by
  show addf (prodK (reluK (addf (prodK (reluK (addf (addf
      (prodK (shapeCast S8000x64 a shapeCasts_S8000x64_S8000x64) wt) (prodK (shapeCast S8000x64 c shapeCasts_S8000x64_S8000x64) wb))
      (biasK b0))) w1) (biasK b1))) w2) (biasK b2) = _
  rw [shapeCast_self, shapeCast_self, affine2_pay, relu_pay, affine_pay, relu_pay, affine_pay]
  rfl

/-- The array the region's output window ends holding: the message network of the arrays its input windows stage. -/
abbrev G (c : Dev nD) : Mat 800000 64 := mlp (V c main_v65 : Mat 800000 64) (V c main_v66 : Mat 800000 64) (V c main_v69 : Mat 64 64) (V c main_v70 : Mat 64 64) (V c main_v72 : Row 64) (V c main_v74 : Mat 64 64) (V c main_v76 : Row 64) (V c main_v78 : Mat 64 64) (V c main_v80 : Row 64)

/-! ## The printed index maps over the grid -/

/-- The source rows' block moves with the point. -/
theorem idx_a : ∀ t : Fin cfg4.N, win4_0.index t (0 : Fin 2) = t.val ∧ win4_0.index t (1 : Fin 2) = 0 :=
  (by decide +kernel : ∀ t : Fin grid4.N, _)

/-- The destination rows' block moves with the point. -/
theorem idx_c : ∀ t : Fin cfg4.N, win4_1.index t (0 : Fin 2) = t.val ∧ win4_1.index t (1 : Fin 2) = 0 :=
  (by decide +kernel : ∀ t : Fin grid4.N, _)

/-- The result's block moves with the point. -/
theorem idx_o : ∀ t : Fin cfg4.N, win4_9.index t (0 : Fin 2) = t.val ∧ win4_9.index t (1 : Fin 2) = 0 :=
  (by decide +kernel : ∀ t : Fin grid4.N, _)

/-- Each weight matrix is one block. -/
theorem idx_w : ∀ t : Fin cfg4.N, (win4_2.index t (0 : Fin 2) = 0 ∧ win4_2.index t (1 : Fin 2) = 0)
    ∧ (win4_3.index t (0 : Fin 2) = 0 ∧ win4_3.index t (1 : Fin 2) = 0)
    ∧ (win4_5.index t (0 : Fin 2) = 0 ∧ win4_5.index t (1 : Fin 2) = 0)
    ∧ (win4_7.index t (0 : Fin 2) = 0 ∧ win4_7.index t (1 : Fin 2) = 0) :=
  (by decide +kernel : ∀ t : Fin grid4.N, _)

/-- Each bias is one block. -/
theorem idx_b : ∀ t : Fin cfg4.N, win4_4.index t (0 : Fin 1) = 0 ∧ win4_6.index t (0 : Fin 1) = 0 ∧ win4_8.index t (0 : Fin 1) = 0 :=
  (by decide +kernel : ∀ t : Fin grid4.N, _)

/-! ## The windows' blocks -/

/-- Block `t` of the source rows is the array's rows `8000 t …`. -/
theorem iblk_a (c : Dev nD) (t : Fin cfg4.N) (y : S8000x64.Idx) (i : S800000x64.Idx)
    (h0 : (i 0).val = t.val * 8000 + (y 0).val) (h1 : (i 1).val = (y 1).val) :
    (iblk4 V c 0 t : Vec Ideal S8000x64 .f32) y = (V c main_v65 : S800000x64.Idx → EReal) i := by
  obtain ⟨e0, e1⟩ := idx_a t
  unfold iblk4
  rw [View.read_apply]
  show V c main_v65 _ = V c main_v65 _
  congr 1
  funext a
  apply Fin.ext
  match a with
  | ⟨0, _⟩ => show win4_0.index t 0 * 8000 + 1 * (y 0).val = (i 0).val; rw [e0, h0]; omega
  | ⟨1, _⟩ => show win4_0.index t 1 * 64 + 1 * (y 1).val = (i 1).val; rw [e1, h1]; omega

/-- Block `t` of the destination rows is the array's rows `8000 t …`. -/
theorem iblk_c (c : Dev nD) (t : Fin cfg4.N) (y : S8000x64.Idx) (i : S800000x64.Idx)
    (h0 : (i 0).val = t.val * 8000 + (y 0).val) (h1 : (i 1).val = (y 1).val) :
    (iblk4 V c 1 t : Vec Ideal S8000x64 .f32) y = (V c main_v66 : S800000x64.Idx → EReal) i := by
  obtain ⟨e0, e1⟩ := idx_c t
  unfold iblk4
  rw [View.read_apply]
  show V c main_v66 _ = V c main_v66 _
  congr 1
  funext a
  apply Fin.ext
  match a with
  | ⟨0, _⟩ => show win4_1.index t 0 * 8000 + 1 * (y 0).val = (i 0).val; rw [e0, h0]; omega
  | ⟨1, _⟩ => show win4_1.index t 1 * 64 + 1 * (y 1).val = (i 1).val; rw [e1, h1]; omega

/-- The first layer's upper weights: one block, the whole matrix. -/
theorem iblk_wt (c : Dev nD) (t : Fin cfg4.N) : (iblk4 V c 2 t : Vec Ideal S64x64 .f32) = (V c main_v69 : S64x64.Idx → EReal) := by
  obtain ⟨⟨e0, e1⟩, -, -, -⟩ := idx_w t
  funext y
  unfold iblk4
  rw [View.read_apply]
  show V c main_v69 _ = V c main_v69 _
  congr 1
  funext a
  apply Fin.ext
  match a with
  | ⟨0, _⟩ => show win4_2.index t 0 * 64 + 1 * (y 0).val = (y 0).val; rw [e0]; omega
  | ⟨1, _⟩ => show win4_2.index t 1 * 64 + 1 * (y 1).val = (y 1).val; rw [e1]; omega

/-- The first layer's lower weights: one block, the whole matrix. -/
theorem iblk_wb (c : Dev nD) (t : Fin cfg4.N) : (iblk4 V c 3 t : Vec Ideal S64x64 .f32) = (V c main_v70 : S64x64.Idx → EReal) := by
  obtain ⟨-, ⟨e0, e1⟩, -, -⟩ := idx_w t
  funext y
  unfold iblk4
  rw [View.read_apply]
  show V c main_v70 _ = V c main_v70 _
  congr 1
  funext a
  apply Fin.ext
  match a with
  | ⟨0, _⟩ => show win4_3.index t 0 * 64 + 1 * (y 0).val = (y 0).val; rw [e0]; omega
  | ⟨1, _⟩ => show win4_3.index t 1 * 64 + 1 * (y 1).val = (y 1).val; rw [e1]; omega

/-- The first bias: one block, the whole vector. -/
theorem iblk_b0 (c : Dev nD) (t : Fin cfg4.N) : (iblk4 V c 4 t : Vec Ideal S64 .f32) = (V c main_v72 : S64.Idx → EReal) := by
  obtain ⟨e0, -, -⟩ := idx_b t
  funext y
  unfold iblk4
  rw [View.read_apply]
  show V c main_v72 _ = V c main_v72 _
  congr 1
  funext a
  apply Fin.ext
  match a with
  | ⟨0, _⟩ => show win4_4.index t 0 * 64 + 1 * (y 0).val = (y 0).val; rw [e0]; omega

/-- The second layer's weights: one block, the whole matrix. -/
theorem iblk_w1 (c : Dev nD) (t : Fin cfg4.N) : (iblk4 V c 5 t : Vec Ideal S64x64 .f32) = (V c main_v74 : S64x64.Idx → EReal) := by
  obtain ⟨-, -, ⟨e0, e1⟩, -⟩ := idx_w t
  funext y
  unfold iblk4
  rw [View.read_apply]
  show V c main_v74 _ = V c main_v74 _
  congr 1
  funext a
  apply Fin.ext
  match a with
  | ⟨0, _⟩ => show win4_5.index t 0 * 64 + 1 * (y 0).val = (y 0).val; rw [e0]; omega
  | ⟨1, _⟩ => show win4_5.index t 1 * 64 + 1 * (y 1).val = (y 1).val; rw [e1]; omega

/-- The second bias: one block, the whole vector. -/
theorem iblk_b1 (c : Dev nD) (t : Fin cfg4.N) : (iblk4 V c 6 t : Vec Ideal S64 .f32) = (V c main_v76 : S64.Idx → EReal) := by
  obtain ⟨-, e0, -⟩ := idx_b t
  funext y
  unfold iblk4
  rw [View.read_apply]
  show V c main_v76 _ = V c main_v76 _
  congr 1
  funext a
  apply Fin.ext
  match a with
  | ⟨0, _⟩ => show win4_6.index t 0 * 64 + 1 * (y 0).val = (y 0).val; rw [e0]; omega

/-- The third layer's weights: one block, the whole matrix. -/
theorem iblk_w2 (c : Dev nD) (t : Fin cfg4.N) : (iblk4 V c 7 t : Vec Ideal S64x64 .f32) = (V c main_v78 : S64x64.Idx → EReal) := by
  obtain ⟨-, -, -, ⟨e0, e1⟩⟩ := idx_w t
  funext y
  unfold iblk4
  rw [View.read_apply]
  show V c main_v78 _ = V c main_v78 _
  congr 1
  funext a
  apply Fin.ext
  match a with
  | ⟨0, _⟩ => show win4_7.index t 0 * 64 + 1 * (y 0).val = (y 0).val; rw [e0]; omega
  | ⟨1, _⟩ => show win4_7.index t 1 * 64 + 1 * (y 1).val = (y 1).val; rw [e1]; omega

/-- The third bias: one block, the whole vector. -/
theorem iblk_b2 (c : Dev nD) (t : Fin cfg4.N) : (iblk4 V c 8 t : Vec Ideal S64 .f32) = (V c main_v80 : S64.Idx → EReal) := by
  obtain ⟨-, -, e0⟩ := idx_b t
  funext y
  unfold iblk4
  rw [View.read_apply]
  show V c main_v80 _ = V c main_v80 _
  congr 1
  funext a
  apply Fin.ext
  match a with
  | ⟨0, _⟩ => show win4_8.index t 0 * 64 + 1 * (y 0).val = (y 0).val; rw [e0]; omega

/-! ## The region's value -/

/-- WHAT POINT `t` WRITES BACK is block `t` of the message network of the whole arrays. -/
theorem flushed_eq (c : Dev nD) (t : Fin cfg4.N) :
    (dat4 V c).flushed 9 t = ((cfg4.win 9).blk t).view.read (Elt Ideal) (G V c) := by
  obtain ⟨e0, e1⟩ := idx_o t
  show (cfg4.win 9).cut (grid4.coords t) ((dat4 V c).after 9 t) = _
  rw [after4_9]
  unfold out4_9
  rw [View.canon_unit_zero hz2]
  simp only [View.ld_unit_zero (S := S8000x64) hz2, View.ld_unit_zero (S := S64x64) hz2, View.ld_unit_zero (S := S64) hz1]
  rw [pay_eq, iblk_wt, iblk_wb, iblk_b0, iblk_w1, iblk_b1, iblk_w2, iblk_b2]
  funext j
  show mlp (iblk4 V c 0 t : Vec Ideal S8000x64 .f32) (iblk4 V c 1 t : Vec Ideal S8000x64 .f32) (V c main_v69 : Mat 64 64)
      (V c main_v70 : Mat 64 64) (V c main_v72 : Row 64) (V c main_v74 : Mat 64 64) (V c main_v76 : Row 64) (V c main_v78 : Mat 64 64)
      (V c main_v80 : Row 64) j
    = mlp (V c main_v65 : Mat 800000 64) (V c main_v66 : Mat 800000 64) (V c main_v69 : Mat 64 64)
      (V c main_v70 : Mat 64 64) (V c main_v72 : Row 64) (V c main_v74 : Mat 64 64) (V c main_v76 : Row 64) (V c main_v78 : Mat 64 64)
      (V c main_v80 : Row 64) (((cfg4.win 9).blk t).view.emb j)
  have h0 : ((((cfg4.win 9).blk t).view.emb j) 0).val = t.val * 8000 + (j 0).val := by
    show win4_9.index t 0 * 8000 + 1 * (j 0).val = _; rw [e0]; omega
  have h1 : ((((cfg4.win 9).blk t).view.emb j) 1).val = (j 1).val := by
    show win4_9.index t 1 * 64 + 1 * (j 1).val = _; rw [e1]; omega
  refine mlp_rows _ _ _ _ _ _ _ _ _ _ _ _ j (fun k => ?_) (fun k => ?_) h1.symm
  · exact iblk_a V c t _ _ h0 rfl
  · exact iblk_c V c t _ _ h0 rfl

/-- The hundred row blocks tile the result. -/
theorem cover (c : Dev nD) (i : ((cfg4.win 9).arr.view.loc (c.tc : Thread nD τ)).2.ty.Idx) : ∃ t : Fin cfg4.N, (cfg4.win 9).flush t = true ∧ i ∈ ((cfg4.win 9).blk t).view.set := by
  have hi0 : (i 0).val < 800000 := (i 0).isLt
  have hi1 : (i 1).val < 64 := (i 1).isLt
  have ht : (i 0).val / 8000 < cfg4.N := by rw [show cfg4.N = 100 from N_4]; omega
  obtain ⟨t, htv⟩ : ∃ t : Fin cfg4.N, t.val = (i 0).val / 8000 := ⟨⟨_, ht⟩, rfl⟩
  refine ⟨t, flush4_9 t, ?_⟩
  obtain ⟨e0, e1⟩ := idx_o t
  show i ∈ ((View.whole main_v81).slice (win4_9.rect t)).set
  rw [View.set_slice_whole, Rect.mem_set_unit]
  intro a
  match a with
  | ⟨0, _⟩ => show win4_9.index t 0 * 8000 ≤ (i 0).val ∧ (i 0).val < win4_9.index t 0 * 8000 + 8000; rw [e0, htv]; omega
  | ⟨1, _⟩ => show win4_9.index t 1 * 64 ≤ (i 1).val ∧ (i 1).val < win4_9.index t 1 * 64 + 64; rw [e1]; omega

/-- THE ARRAY after the region: the message network of the arrays the region found. -/
theorem final (c : Dev nD) : (dat4 V c).arrAt 9 cfg4.N = G V c :=
  (dat4 V c).arrAt_eq_of_cover 9 (G V c) (fun t _ => flushed_eq V c t) (cover c)

end Cert.KernelIdeal.Mlp4

end
-- ==== Proof.Block3.lean ====
/-
  Message-passing block 3 of the kernel program, from the node features `h` it finds to the node features it leaves.

  Five steps of the program: the rows of `h` at the edges' sources and at their destinations are gathered (each by
  jnp.take's spelling, which would fill a row whose node number is out of range: under the precondition none is, so it is
  the plain gather); block 3's weights and biases are sliced out of the argument tables, the first layer's weights cut in
  their upper and lower halves; the pallas_call computes the message network row by row (Proof/KMlp4.lean); the messages
  are summed into their destination nodes. Between the steps every buffer that is read later keeps its contents
  (Proof/Keep.lean). The result is `Net.layer` of `h` and block 3's parameters.
-/
import proofs.«430343_j38053410242952_1_alg».proof.Proof.Keep
import proofs.«430343_j38053410242952_1_alg».proof.Proof.Net
import proofs.«430343_j38053410242952_1_alg».proof.Proof.Take
import proofs.«430343_j38053410242952_1_alg».proof.Proof.KMlp4
import proofs.«430343_j38053410242952_1_alg».proof.Proof.LibTRef
import Idealize.ShloMosaic.Lib.StableHlo.Run

set_option maxRecDepth 16384

noncomputable section

namespace Cert.KernelIdeal.Block3

open Cert.KernelIdeal Cert.KernelIdeal.Gen Cert.KernelIdeal.Keep Cert.MsgNet
open Idealize.ShloMosaic Idealize.ShloMosaic.TcCoe Idealize.SL.Sem Idealize.ShloMosaic.StableHlo

/-! ## What each stretch of host operations writes

The host operations here only move values (gathers, selects, slices, the scatter-add as one operation), so these four
facts are stated for any reading of the float formats. -/

section AnyValues
variable {F : FTy → Type} [FloatOps F]
variable (m : (ℓ : Loc nD τ sig) → Buf (Elt F) ℓ) (ρ : Dev nD → PrngReg)

set_option maxHeartbeats 20000000 in
/-- The rows of `h` at the sources, in jnp.take's spelling — the operations of the outlined function read and write their
    buffers through the transport to the tensor's type, which is kept on both sides here and dropped in `take_src`. -/
theorem take_src_typed (c : Dev nD) :
    (TRef.of main_v65 : TRef sig ⟨S800000x64, .f32⟩).ofBuf (W18 m ρ c (Proc.devRef .tc main_v65))
      = Net.rowsAtOrFill ((TRef.of main_v64 : TRef sig ⟨S50000x64, .f32⟩).ofBuf (W17 m ρ c (Proc.devRef .tc main_v64)))
          ((TRef.of main_v1 : TRef sig ⟨S800000, .i32⟩).ofBuf (W17 m ρ c (Proc.devRef .tc main_v1))) := by
  show (TRef.of main_v65 : TRef sig ⟨S800000x64, .f32⟩).ofBuf (StableHlo.after hostOps4_1 (W17 m ρ c) (Proc.devRef .tc main_v65)) = _
  unfold hostOps4_1
  after_results_simp
  simp only [TRef.ofBuf_toBuf]
  generalize W17 m ρ c (Proc.devRef .tc main_v64) = b
  generalize W17 m ρ c (Proc.devRef .tc main_v1) = d
  rfl

/-- The rows of `h` at the sources, in jnp.take's spelling. -/
theorem take_src (c : Dev nD) : W18 m ρ c (Proc.devRef .tc main_v65)
    = Net.rowsAtOrFill (W17 m ρ c (Proc.devRef .tc main_v64)) (W17 m ρ c (Proc.devRef .tc main_v1)) := by
  have h := take_src_typed m ρ c
  generalize W18 m ρ c (Proc.devRef .tc main_v65) = a at h ⊢
  generalize W17 m ρ c (Proc.devRef .tc main_v64) = b at h ⊢
  generalize W17 m ρ c (Proc.devRef .tc main_v1) = d at h ⊢
  exact h

set_option maxHeartbeats 20000000 in
/-- The rows of `h` at the destinations, in jnp.take's spelling, the transports kept. -/
theorem take_dst_typed (c : Dev nD) :
    (TRef.of main_v66 : TRef sig ⟨S800000x64, .f32⟩).ofBuf (W19 m ρ c (Proc.devRef .tc main_v66))
      = Net.rowsAtOrFill ((TRef.of main_v64 : TRef sig ⟨S50000x64, .f32⟩).ofBuf (W18 m ρ c (Proc.devRef .tc main_v64)))
          ((TRef.of main_v3 : TRef sig ⟨S800000, .i32⟩).ofBuf (W18 m ρ c (Proc.devRef .tc main_v3))) := by
  show (TRef.of main_v66 : TRef sig ⟨S800000x64, .f32⟩).ofBuf (StableHlo.after hostOps4_2 (W18 m ρ c) (Proc.devRef .tc main_v66)) = _
  unfold hostOps4_2
  after_results_simp
  simp only [TRef.ofBuf_toBuf]
  generalize W18 m ρ c (Proc.devRef .tc main_v64) = b
  generalize W18 m ρ c (Proc.devRef .tc main_v3) = d
  rfl

/-- The rows of `h` at the destinations, in jnp.take's spelling. -/
theorem take_dst (c : Dev nD) : W19 m ρ c (Proc.devRef .tc main_v66)
    = Net.rowsAtOrFill (W18 m ρ c (Proc.devRef .tc main_v64)) (W18 m ρ c (Proc.devRef .tc main_v3)) := by
  have h := take_dst_typed m ρ c
  generalize W19 m ρ c (Proc.devRef .tc main_v66) = a at h ⊢
  generalize W18 m ρ c (Proc.devRef .tc main_v64) = b at h ⊢
  generalize W18 m ρ c (Proc.devRef .tc main_v3) = d at h ⊢
  exact h

set_option maxHeartbeats 20000000 in
/-- Block 3's parameters as the stretch slices them out of the argument tables. -/
theorem params (c : Dev nD) :
    W20 m ρ c (Proc.devRef .tc main_v69) = Net.topHalf (Net.pw0_3 (W19 m ρ c (Proc.devRef .tc main_arg5)))
    ∧ W20 m ρ c (Proc.devRef .tc main_v70) = Net.botHalf (Net.pw0_3 (W19 m ρ c (Proc.devRef .tc main_arg5)))
    ∧ W20 m ρ c (Proc.devRef .tc main_v72) = Net.pb_3 (W19 m ρ c (Proc.devRef .tc main_arg6))
    ∧ W20 m ρ c (Proc.devRef .tc main_v74) = Net.pw_3 (W19 m ρ c (Proc.devRef .tc main_arg7))
    ∧ W20 m ρ c (Proc.devRef .tc main_v76) = Net.pb_3 (W19 m ρ c (Proc.devRef .tc main_arg8))
    ∧ W20 m ρ c (Proc.devRef .tc main_v78) = Net.pw_3 (W19 m ρ c (Proc.devRef .tc main_arg9))
    ∧ W20 m ρ c (Proc.devRef .tc main_v80) = Net.pb_3 (W19 m ρ c (Proc.devRef .tc main_arg10)) := by
  refine ⟨?_, ?_, ?_, ?_, ?_, ?_, ?_⟩
  all_goals
    show StableHlo.after hostOps4_3 (W19 m ρ c) _ = _
    unfold hostOps4_3
    after_results_simp
    rfl

set_option maxHeartbeats 20000000 in
/-- The messages summed into their destinations. -/
theorem scatter (c : Dev nD) : W22 m ρ c (Proc.devRef .tc main_v84)
    = Net.sumInto (W21 m ρ c (Proc.devRef .tc main_v3)) (W21 m ρ c (Proc.devRef .tc main_v81)) := by
  show StableHlo.after hostOps5 (W21 m ρ c) (Proc.devRef .tc main_v84) = _
  unfold hostOps5
  after_results_simp
  rfl

end AnyValues

variable (m : (ℓ : Loc nD τ sig) → Buf (Elt Ideal) ℓ) (ρ : Dev nD → PrngReg)

/-- The region's result array: the message network of the arrays its windows stage. -/
theorem region (c : Dev nD) : W21 m ρ c (Proc.devRef .tc main_v81) = Mlp4.G (V20 m ρ) c :=
  (W21_arr m ρ c 9).trans (Mlp4.final (V20 m ρ) c)

/-! ## The block -/

/-- THE BLOCK: the node features it leaves are `Net.layer` of the node features it found, the edge lists and block 3's
    parameters (the edge lists' node numbers in range). -/
theorem step (c : Dev nD)
    (hs : ∀ e, 0 ≤ (W1 m ρ c (Proc.devRef .tc main_v1) e).toInt ∧ (W1 m ρ c (Proc.devRef .tc main_v1) e).toInt < 50000)
    (hd : ∀ e, 0 ≤ (W1 m ρ c (Proc.devRef .tc main_v3) e).toInt ∧ (W1 m ρ c (Proc.devRef .tc main_v3) e).toInt < 50000) :
    W22 m ρ c (Proc.devRef .tc main_v84)
      = Net.layer (W1 m ρ c (Proc.devRef .tc main_v1)) (W1 m ρ c (Proc.devRef .tc main_v3)) (W17 m ρ c (Proc.devRef .tc main_v64))
          (Net.pw0_3 (m ((c : Thread nD τ).loc main_arg5))) (Net.pb_3 (m ((c : Thread nD τ).loc main_arg6)))
          (Net.pw_3 (m ((c : Thread nD τ).loc main_arg7))) (Net.pb_3 (m ((c : Thread nD τ).loc main_arg8)))
          (Net.pw_3 (m ((c : Thread nD τ).loc main_arg9))) (Net.pb_3 (m ((c : Thread nD τ).loc main_arg10))) := by
  obtain ⟨p9, p10, p12, p14, p16, p18, p20⟩ := params m ρ c
  have a : W20 m ρ c (Proc.devRef .tc main_v65) = Net.rowsAt (F := Ideal) (W17 m ρ c (Proc.devRef .tc main_v64)) (W1 m ρ c (Proc.devRef .tc main_v1)) := by
    rw [keep20 m ρ c (by decide), keep19 m ρ c (by decide), take_src, v1_at17 m ρ c]
    exact Take.rowsAtOrFill_eq _ _ hs
  have b : W20 m ρ c (Proc.devRef .tc main_v66) = Net.rowsAt (F := Ideal) (W17 m ρ c (Proc.devRef .tc main_v64)) (W1 m ρ c (Proc.devRef .tc main_v3)) := by
    rw [keep20 m ρ c (by decide), take_dst, keep18 m ρ c (b := main_v64) (by decide), v3_at18 m ρ c]
    exact Take.rowsAtOrFill_eq _ _ hd
  rw [scatter, region, v3_at21 m ρ c]
  unfold Net.layer Mlp4.G
  show Net.sumInto _ (mlp (W20 m ρ c (Proc.devRef .tc main_v65)) (W20 m ρ c (Proc.devRef .tc main_v66)) (W20 m ρ c (Proc.devRef .tc main_v69)) (W20 m ρ c (Proc.devRef .tc main_v70))
    (W20 m ρ c (Proc.devRef .tc main_v72)) (W20 m ρ c (Proc.devRef .tc main_v74)) (W20 m ρ c (Proc.devRef .tc main_v76)) (W20 m ρ c (Proc.devRef .tc main_v78)) (W20 m ρ c (Proc.devRef .tc main_v80))) = _
  rw [a, b, p9, p10, p12, p14, p16, p18, p20, arg5_at19 m ρ c, arg6_at19 m ρ c, arg7_at19 m ρ c,
    arg8_at19 m ρ c, arg9_at19 m ρ c, arg10_at19 m ρ c]

end Cert.KernelIdeal.Block3

end
-- ==== Proof.KChain.lean ====
/-
  The kernel program's result, traced through the whole program: it is the network `Net.net` of the arguments.

  The edge lists are the two rows of the edge argument; the first pallas_call leaves `h₀ = x · W_in + b_in`
  (Proof/KLin0.lean); each of the four message-passing blocks turns the node features it finds into `Net.layer` of them
  (Proof/Block0.lean … Block3.lean); the last pallas_call leaves `h₄ · W_out + b_out` (Proof/KLin5.lean). The arguments
  hold at every point what they held at the launch (Proof/Keep.lean).
-/
import proofs.«430343_j38053410242952_1_alg».proof.Proof.Keep
import proofs.«430343_j38053410242952_1_alg».proof.Proof.Net
import proofs.«430343_j38053410242952_1_alg».proof.Proof.KLin0
import proofs.«430343_j38053410242952_1_alg».proof.Proof.KLin5
import proofs.«430343_j38053410242952_1_alg».proof.Proof.Block0
import proofs.«430343_j38053410242952_1_alg».proof.Proof.Block1
import proofs.«430343_j38053410242952_1_alg».proof.Proof.Block2
import proofs.«430343_j38053410242952_1_alg».proof.Proof.Block3
import Idealize.ShloMosaic.Lib.StableHlo.Run

set_option maxRecDepth 16384

noncomputable section

namespace Cert.KernelIdeal.Chain

open Cert.KernelIdeal Cert.KernelIdeal.Gen Cert.KernelIdeal.Keep Cert.MsgNet
open Idealize.ShloMosaic Idealize.ShloMosaic.TcCoe Idealize.SL.Sem Idealize.ShloMosaic.StableHlo

variable (m : (ℓ : Loc nD τ sig) → Buf (Elt Ideal) ℓ) (ρ : Dev nD → PrngReg)

/-- The sources: row 0 of the edge argument. -/
theorem src_eq (c : Dev nD) : W1 m ρ c (Proc.devRef .tc main_v1) = Net.srcOf (m ((c : Thread nD τ).loc main_arg2)) := by
  show StableHlo.after hostOps0 (W0 m ρ c) (Proc.devRef .tc main_v1) = _
  unfold hostOps0
  after_results_simp
  rfl

/-- The destinations: row 1 of the edge argument. -/
theorem dst_eq (c : Dev nD) : W1 m ρ c (Proc.devRef .tc main_v3) = Net.dstOf (m ((c : Thread nD τ).loc main_arg2)) := by
  show StableHlo.after hostOps0 (W0 m ρ c) (Proc.devRef .tc main_v3) = _
  unfold hostOps0
  after_results_simp
  rfl

/-- After the first pallas_call: the input projection of the node features. -/
theorem feat0_eq (c : Dev nD) : W2 m ρ c (Proc.devRef .tc main_v4)
    = Net.feat0 (m ((c : Thread nD τ).loc main_arg0)) (m ((c : Thread nD τ).loc main_arg3)) (m ((c : Thread nD τ).loc main_arg4)) := by
  refine (W2_arr m ρ c 3).trans ((Lin0.final (V1 m ρ) c).trans ?_)
  unfold Lin0.G Net.feat0
  show affine (W1 m ρ c (Proc.devRef .tc main_arg0)) (W1 m ρ c (Proc.devRef .tc main_arg3)) (W1 m ρ c (Proc.devRef .tc main_arg4)) = _
  rw [arg0_at1 m ρ c, arg3_at1 m ρ c, arg4_at1 m ρ c]

/-- The last pallas_call: the output projection of the node features it finds. -/
theorem out_eq (c : Dev nD) : W23 m ρ c (Proc.devRef .tc main_v85)
    = affine (W22 m ρ c (Proc.devRef .tc main_v84)) (m ((c : Thread nD τ).loc main_arg11)) (m ((c : Thread nD τ).loc main_arg12)) := by
  refine (W23_arr m ρ c 3).trans ((Lin5.final (V22 m ρ) c).trans ?_)
  unfold Lin5.G
  show affine (W22 m ρ c (Proc.devRef .tc main_v84)) (W22 m ρ c (Proc.devRef .tc main_arg11)) (W22 m ρ c (Proc.devRef .tc main_arg12)) = _
  rw [arg11_at22 m ρ c, arg12_at22 m ρ c]

/-- THE RESULT of the kernel program, when every node number of the edge argument is in range. -/
theorem result (c : Dev nD)
    (hs : ∀ e, 0 ≤ (Net.srcOf (m ((c : Thread nD τ).loc main_arg2)) e).toInt ∧ (Net.srcOf (m ((c : Thread nD τ).loc main_arg2)) e).toInt < 50000)
    (hd : ∀ e, 0 ≤ (Net.dstOf (m ((c : Thread nD τ).loc main_arg2)) e).toInt ∧ (Net.dstOf (m ((c : Thread nD τ).loc main_arg2)) e).toInt < 50000) :
    W23 m ρ c (Proc.devRef .tc main_v85) = Net.net (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have hs' : ∀ e, 0 ≤ (W1 m ρ c (Proc.devRef .tc main_v1) e).toInt ∧ (W1 m ρ c (Proc.devRef .tc main_v1) e).toInt < 50000 := by
    rw [src_eq]; exact hs
  have hd' : ∀ e, 0 ≤ (W1 m ρ c (Proc.devRef .tc main_v3) e).toInt ∧ (W1 m ρ c (Proc.devRef .tc main_v3) e).toInt < 50000 := by
    rw [dst_eq]; exact hd
  rw [out_eq, Block3.step m ρ c hs' hd', Block2.step m ρ c hs' hd', Block1.step m ρ c hs' hd', Block0.step m ρ c hs' hd',
    feat0_eq, src_eq, dst_eq]
  rfl

end Cert.KernelIdeal.Chain

end
-- ==== Proof.Range.lean ====
/-
  The added precondition, read back: every entry of the edge list is a node number.

  The precondition's printed function ends in the conjunction of its earlier conjuncts with "all entries e of the edge
  list satisfy 0 ≤ e and e < 50000" (two signed comparisons with broadcast constants, joined entrywise, reduced by
  `and` over both axes from 1). If the function is 1, so is that last conjunct, so is every entry of the reduced array,
  and so are both comparisons at every entry: as signed integers, 0 ≤ e < 50000. The sources and the destinations
  are rows 0 and 1 of the edge list, so they inherit the bounds.
-/
import proofs.«430343_j38053410242952_1_alg».proof.Proof.Gen.Pre_finite_inputs
import proofs.«430343_j38053410242952_1_alg».proof.Proof.Net
import Idealize.ShloMosaic.Lib.ReduceAll
import Idealize.ShloMosaic.Lib.StableHlo.Predicate
import Idealize.ShloMosaic.Lib.ValueIdx

noncomputable section

namespace Cert.KernelIdeal.Range

open Idealize.ShloMosaic

instance : Subsingleton Cert.Pre_finite_inputs.S_.Idx := ⟨fun a b => funext fun d => d.elim0⟩

theorem toInt_zero32 : (0#32 : BitVec 32).toInt = 0 := by decide
theorem toInt_50000 : (50000#32 : BitVec 32).toInt = 50000 := by decide

open Cert.Pre_finite_inputs in
/-- If the precondition's function is 1, every entry of the edge list lies in `0 … 49999`. -/
theorem edge_range (a0 : FVec Ideal S50000x16 .f32) (a1 : FVec Ideal S50000x4x4 .f32) (a2 : IVec S2x800000 32)
    (a3 : FVec Ideal S16x64 .f32) (a4 : FVec Ideal S64 .f32) (a5 : FVec Ideal S4x128x64 .f32) (a6 : FVec Ideal S4x64 .f32)
    (a7 : FVec Ideal S4x64x64 .f32) (a8 : FVec Ideal S4x64 .f32) (a9 : FVec Ideal S4x64x64 .f32) (a10 : FVec Ideal S4x64 .f32)
    (a11 : FVec Ideal S64x16 .f32) (a12 : FVec Ideal S16 .f32)
    (h : Cert.Pre_finite_inputs.fn (F := Ideal) a0 a1 a2 a3 a4 a5 a6 a7 a8 a9 a10 a11 a12 = fun _ => 1#1) :
    ∀ i, 0 ≤ (a2 i).toInt ∧ (a2 i).toInt < 50000 := by
  intro i
  have h0 := congrFun h ValueIdx.ix0
  unfold Cert.Pre_finite_inputs.fn Cert.Pre_finite_inputs.fn_part1 Cert.Pre_finite_inputs.fn_part2
    Cert.Pre_finite_inputs.fn_part3 at h0
  dsimp only at h0
  have h1 := (IntOp.andi_eq_one.1 h0).2
  have h2 := Host.reduce_andi_all _ _ _ _ _ h1 i
  obtain ⟨hge, hlt⟩ := IntOp.andi_eq_one.1 h2
  have hge' : IntOp.cmpi .sge (a2 i) (0#32) = 1#1 := hge
  have hlt' : IntOp.cmpi .slt (a2 i) (50000#32) = 1#1 := hlt
  rw [IntOp.cmpi_sge, toInt_zero32] at hge'
  rw [IntOp.cmpi_slt, toInt_50000] at hlt'
  exact ⟨hge', hlt'⟩

/-- The sources are row 0 of the edge list: they inherit its bounds. -/
theorem srcOf_range (ei : IVec Cert.KernelIdeal.S2x800000 32) (h : ∀ i, 0 ≤ (ei i).toInt ∧ (ei i).toInt < 50000) :
    ∀ e, 0 ≤ (Cert.KernelIdeal.Net.srcOf ei e).toInt ∧ (Cert.KernelIdeal.Net.srcOf ei e).toInt < 50000 := by
  intro e
  unfold Cert.KernelIdeal.Net.srcOf shapeCast extractStridedSlice
  exact h _

/-- The destinations are row 1 of the edge list: they inherit its bounds. -/
theorem dstOf_range (ei : IVec Cert.KernelIdeal.S2x800000 32) (h : ∀ i, 0 ≤ (ei i).toInt ∧ (ei i).toInt < 50000) :
    ∀ e, 0 ≤ (Cert.KernelIdeal.Net.dstOf ei e).toInt ∧ (Cert.KernelIdeal.Net.dstOf ei e).toInt < 50000 := by
  intro e
  unfold Cert.KernelIdeal.Net.dstOf shapeCast extractStridedSlice
  exact h _

end Cert.KernelIdeal.Range

end
-- ==== Proof.RefOps.lean ====
/-
  The reference program's host operations read entry by entry.

  An affine layer is printed as a plain product (rows by columns), the bias widened twice (a vector to one row, the row
  to every row) and an addition; read at entry `(p, q)` that is the sum over `k` of `x (p, k) · w (k, q)` plus `b q`.
  A rectifier is printed as a maximum against a widened zero. The first layer of the message network multiplies the two
  gathered arrays joined along their columns by the full weight matrix: a sum over the 128 joined columns is the sum over
  the first 64 plus the sum over the last 64, the first meeting the upper half of the weights and the second the lower.
-/
import proofs.«430343_j38053410242952_1_alg».proof.Proof.Gen.ReferenceIdeal
import proofs.«430343_j38053410242952_1_alg».proof.Proof.Net
import proofs.«430343_j38053410242952_1_alg».proof.Proof.Spec
import proofs.«430343_j38053410242952_1_alg».proof.Proof.LibDot
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.RefOps

open Cert.ReferenceIdeal Cert.ReferenceIdeal.Facts₀ Cert.ReferenceIdeal.Facts Idealize.ShloMosaic Idealize.ShloMosaic.ValueIdx Cert.MsgNet

variable {M K N : ℕ}

/-- A vector widened to one row and then to every row reads, at entry `(p, q)`, the vector at `q`. -/
private theorem bias_apply (h1 : (⟨1, ![N]⟩ : Shape).BroadcastsInDim ⟨2, ![1, N]⟩ ![1])
    (h2 : (⟨2, ![1, N]⟩ : Shape).BroadcastsInDim ⟨2, ![M, N]⟩ ![0, 1]) (b : Row N) (p : Fin M) (q : Fin N) :
    broadcastInDim (⟨2, ![M, N]⟩ : Shape) ![0, 1] h2 (broadcastInDim (⟨2, ![1, N]⟩ : Shape) ![1] h1 b) (ix2 p q) = b (ix1 q) := by
  have hq : q.val = if N = 1 then 0 else q.val := by
    have := q.isLt
    split <;> omega
  rw [broadcastInDim_apply _ h2 _ (ix2 p q) (ix2 (⟨0, Nat.one_pos⟩ : Fin 1) q) (fun a => match a with
    | ⟨0, _⟩ => by show 0 = if (1 : Nat) = 1 then 0 else p.val; rw [if_pos rfl]
    | ⟨1, _⟩ => by show q.val = if N = 1 then 0 else q.val; exact hq)]
  exact broadcastInDim_apply _ h1 b _ (ix1 q) (fun a => match a with
    | ⟨0, _⟩ => by show q.val = if N = 1 then 0 else q.val; exact hq)

/-- A plain product plus the widened bias is the affine layer. -/
theorem dot_affine (d : DotDims (⟨2, ![M, K]⟩ : Shape) ⟨2, ![K, N]⟩ ⟨2, ![M, N]⟩) (hd : d = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1]) (x : Mat M K) (w : Mat K N) (b : Row N) :
    addf (Host.dotGeneral d none x w)
        (broadcastInDim (⟨2, ![M, N]⟩ : Shape) ![0, 1] h2 (broadcastInDim (⟨2, ![1, N]⟩ : Shape) ![1] h1 b))
      = affine x w b := by
  subst hd
  funext i
  obtain ⟨p, q, rfl⟩ : ∃ (p : Fin M) (q : Fin N), i = ix2 p q := ⟨i 0, i 1, eq_ix2 i⟩
  rw [addf_apply, bias_apply]
  show _ + _ = (∑ k : Fin K, x (ix2 p k) * w (ix2 k q)) + b (ix1 q)
  congr 1
  exact Cert.GNN.dotGeneral_plain_apply none .single x w p q

/-- A maximum against the widened zero is the rectifier. -/
theorem relu_ref (h0 : (⟨0, ![]⟩ : Shape).BroadcastsInDim ⟨2, ![M, N]⟩ ![]) (x : Mat M N) :
    maximumf x (broadcastInDim (⟨2, ![M, N]⟩ : Shape) ![] h0 (constant (F := Ideal) (⟨0, ![]⟩ : Shape) .f32 0x00000000#32))
      = relu x := by
  funext i
  rw [maximumf_apply, broadcastInDim_apply _ h0 _ i ix0 (fun a => a.elim0), constant_apply, Ideal.ofBits_zero_f32]
  rfl

theorem affine_in (x : FVec Ideal S50000x16 .f32) (w : FVec Ideal S16x64 .f32) (b : FVec Ideal S64 .f32) :
    addf (Host.dotGeneral dot_S50000x16_S16x64_S50000x64_1_0_0_1_n_n none x w) (broadcastInDim S50000x64 ![0, 1] bcast_S1x64_S50000x64_0_1 (broadcastInDim S1x64 ![1] bcast_S64_S1x64_1 b)) = affine x w b :=
  dot_affine _ rfl _ _ x w b

theorem affine_out (h : FVec Ideal S50000x64 .f32) (w : FVec Ideal S64x16 .f32) (b : FVec Ideal S16 .f32) :
    addf (Host.dotGeneral dot_S50000x64_S64x16_S50000x16_1_0_0_1_n_n none h w) (broadcastInDim S50000x16 ![0, 1] bcast_S1x16_S50000x16_0_1 (broadcastInDim S1x16 ![1] bcast_S16_S1x16_1 b)) = affine h w b :=
  dot_affine _ rfl _ _ h w b

/-- A sum over the 128 joined columns is the sum over the first 64 plus the sum over the last 64: on the first the
    joined array is the first piece and the weights their upper half, on the last the second piece and the lower half. -/
theorem cat_sum (A C : Mat M 64) (W0 : Mat 128 64)
    (hc : Shape.Concatenates [(⟨2, ![M, 64]⟩ : Shape), ⟨2, ![M, 64]⟩] ⟨2, ![M, 128]⟩ 1)
    (ht : (⟨2, ![128, 64]⟩ : Shape).Slices ![0, 0] ⟨2, ![64, 64]⟩)
    (hb : (⟨2, ![128, 64]⟩ : Shape).Slices ![64, 0] ⟨2, ![64, 64]⟩) (p : Fin M) (q : Fin 64) :
    (∑ k : Fin 128, concatenate (⟨2, ![M, 128]⟩ : Shape) 1 [⟨(⟨2, ![M, 64]⟩ : Shape), A⟩, ⟨(⟨2, ![M, 64]⟩ : Shape), C⟩] hc (ix2 p k) * W0 (ix2 k q))
      = (∑ k : Fin 64, A (ix2 p k) * extractStridedSlice (⟨2, ![64, 64]⟩ : Shape) ![0, 0] W0 ht (ix2 k q))
        + ∑ k : Fin 64, C (ix2 p k) * extractStridedSlice (⟨2, ![64, 64]⟩ : Shape) ![64, 0] W0 hb (ix2 k q) := by
  refine (Fin.sum_univ_add (a := 64) (b := 64) (fun k : Fin (64 + 64) =>
    concatenate (⟨2, ![M, 128]⟩ : Shape) 1 [⟨(⟨2, ![M, 64]⟩ : Shape), A⟩, ⟨(⟨2, ![M, 64]⟩ : Shape), C⟩] hc (ix2 p k) * W0 (ix2 k q))).trans ?_
  congr 1
  · refine Finset.sum_congr rfl fun k _ => ?_
    have e1 : concatenate (⟨2, ![M, 128]⟩ : Shape) 1 [⟨(⟨2, ![M, 64]⟩ : Shape), A⟩, ⟨(⟨2, ![M, 64]⟩ : Shape), C⟩] hc
        (ix2 p (Fin.castAdd 64 k)) = A (ix2 p k) :=
      concatenate_pair_apply_left 1 A C hc _ rfl (ix2 p k) (fun b => match b with
        | ⟨0, _⟩ => rfl
        | ⟨1, _⟩ => rfl)
    have e2 : extractStridedSlice (⟨2, ![64, 64]⟩ : Shape) ![0, 0] W0 ht (ix2 k q) = W0 (ix2 (Fin.castAdd 64 k) q) :=
      extractStridedSlice_apply _ W0 ht (ix2 k q) (ix2 (Fin.castAdd 64 k) q) (fun a => match a with
        | ⟨0, _⟩ => by show k.val = 0 + k.val; omega
        | ⟨1, _⟩ => by show q.val = 0 + q.val; omega)
    rw [e1, e2]
  · refine Finset.sum_congr rfl fun k _ => ?_
    have e1 : concatenate (⟨2, ![M, 128]⟩ : Shape) 1 [⟨(⟨2, ![M, 64]⟩ : Shape), A⟩, ⟨(⟨2, ![M, 64]⟩ : Shape), C⟩] hc
        (ix2 p (Fin.natAdd 64 k)) = C (ix2 p k) :=
      concatenate_pair_apply_right 1 A C hc _ rfl rfl (ix2 p k) (fun b => match b with
        | ⟨0, _⟩ => fun _ => rfl
        | ⟨1, _⟩ => fun hne => absurd rfl hne)
        (by show k.val + 64 = 64 + k.val; omega)
    have e2 : extractStridedSlice (⟨2, ![64, 64]⟩ : Shape) ![64, 0] W0 hb (ix2 k q) = W0 (ix2 (Fin.natAdd 64 k) q) :=
      extractStridedSlice_apply _ W0 hb (ix2 k q) (ix2 (Fin.natAdd 64 k) q) (fun a => match a with
        | ⟨0, _⟩ => by show 64 + k.val = 64 + k.val; rfl
        | ⟨1, _⟩ => by show q.val = 0 + q.val; omega)
    rw [e1, e2]

/-- The first layer on the joined arrays is the affine layer on the pair, the weights split in their two halves. -/
theorem cat_affine (d : DotDims (⟨2, ![M, 128]⟩ : Shape) ⟨2, ![128, 64]⟩ ⟨2, ![M, 64]⟩) (hd : d = DotDims.plain M 128 64)
    (h1 : (⟨1, ![64]⟩ : Shape).BroadcastsInDim ⟨2, ![1, 64]⟩ ![1])
    (h2 : (⟨2, ![1, 64]⟩ : Shape).BroadcastsInDim ⟨2, ![M, 64]⟩ ![0, 1])
    (hc : Shape.Concatenates [(⟨2, ![M, 64]⟩ : Shape), ⟨2, ![M, 64]⟩] ⟨2, ![M, 128]⟩ 1)
    (ht : (⟨2, ![128, 64]⟩ : Shape).Slices ![0, 0] ⟨2, ![64, 64]⟩)
    (hb : (⟨2, ![128, 64]⟩ : Shape).Slices ![64, 0] ⟨2, ![64, 64]⟩)
    (A C : Mat M 64) (W0 : Mat 128 64) (b : Row 64) :
    addf (Host.dotGeneral d none
          (concatenate (⟨2, ![M, 128]⟩ : Shape) 1 [⟨(⟨2, ![M, 64]⟩ : Shape), A⟩, ⟨(⟨2, ![M, 64]⟩ : Shape), C⟩] hc) W0)
        (broadcastInDim (⟨2, ![M, 64]⟩ : Shape) ![0, 1] h2 (broadcastInDim (⟨2, ![1, 64]⟩ : Shape) ![1] h1 b))
      = affine2 A C (extractStridedSlice (⟨2, ![64, 64]⟩ : Shape) ![0, 0] W0 ht)
          (extractStridedSlice (⟨2, ![64, 64]⟩ : Shape) ![64, 0] W0 hb) b := by
  refine (dot_affine d hd h1 h2 _ W0 b).trans ?_
  funext i
  obtain ⟨p, q, rfl⟩ : ∃ (p : Fin M) (q : Fin 64), i = ix2 p q := ⟨i 0, i 1, eq_ix2 i⟩
  exact congrArg (fun t => t + b (ix1 q)) (cat_sum A C W0 hc ht hb p q)

/-- The layers of the message network on the edges, as they are printed. -/
theorem layer_first (A C : FVec Ideal S800000x64 .f32) (W0 : FVec Ideal S128x64 .f32) (b0 : FVec Ideal S64 .f32) :
    addf (Host.dotGeneral dot_S800000x128_S128x64_S800000x64_1_0_0_1_n_n none
        (concatenate S800000x128 1 [⟨S800000x64, A⟩, ⟨S800000x64, C⟩] concatenates_S800000x64_S800000x64_S800000x128_d1) W0)
      (broadcastInDim S800000x64 ![0, 1] bcast_S1x64_S800000x64_0_1 (broadcastInDim S1x64 ![1] bcast_S64_S1x64_1 b0))
    = affine2 A C (Cert.KernelIdeal.Net.topHalf W0) (Cert.KernelIdeal.Net.botHalf W0) b0 :=
  cat_affine _ rfl _ _ _ Cert.KernelIdeal.Facts₀.slices_S128x64_S64x64_0_0 Cert.KernelIdeal.Facts₀.slices_S128x64_S64x64_64_0 A C W0 b0

theorem layer_next (h : FVec Ideal S800000x64 .f32) (w : FVec Ideal S64x64 .f32) (b : FVec Ideal S64 .f32) :
    addf (Host.dotGeneral dot_S800000x64_S64x64_S800000x64_1_0_0_1_n_n none h w)
      (broadcastInDim S800000x64 ![0, 1] bcast_S1x64_S800000x64_0_1 (broadcastInDim S1x64 ![1] bcast_S64_S1x64_1 b))
    = affine h w b :=
  dot_affine _ rfl _ _ h w b

theorem relu_edges (x : FVec Ideal S800000x64 .f32) :
    maximumf x (broadcastInDim S800000x64 ![] bcast_S_S800000x64 (constant (F := Ideal) S_ .f32 0x00000000#32)) = relu x :=
  relu_ref _ x

theorem mlp_ref (A C : FVec Ideal S800000x64 .f32) (W0 : FVec Ideal S128x64 .f32) (b0 : FVec Ideal S64 .f32) (W1 : FVec Ideal S64x64 .f32) (b1 : FVec Ideal S64 .f32) (W2 : FVec Ideal S64x64 .f32) (b2 : FVec Ideal S64 .f32) :
    addf (Host.dotGeneral dot_S800000x64_S64x64_S800000x64_1_0_0_1_n_n none
        (maximumf (addf (Host.dotGeneral dot_S800000x64_S64x64_S800000x64_1_0_0_1_n_n none
            (maximumf (addf (Host.dotGeneral dot_S800000x128_S128x64_S800000x64_1_0_0_1_n_n none
                (concatenate S800000x128 1 [⟨S800000x64, A⟩, ⟨S800000x64, C⟩] concatenates_S800000x64_S800000x64_S800000x128_d1) W0)
              (broadcastInDim S800000x64 ![0, 1] bcast_S1x64_S800000x64_0_1 (broadcastInDim S1x64 ![1] bcast_S64_S1x64_1 b0)))
              (broadcastInDim S800000x64 ![] bcast_S_S800000x64 (constant (F := Ideal) S_ .f32 0x00000000#32))) W1)
          (broadcastInDim S800000x64 ![0, 1] bcast_S1x64_S800000x64_0_1 (broadcastInDim S1x64 ![1] bcast_S64_S1x64_1 b1)))
          (broadcastInDim S800000x64 ![] bcast_S_S800000x64 (constant (F := Ideal) S_ .f32 0x00000000#32))) W2)
      (broadcastInDim S800000x64 ![0, 1] bcast_S1x64_S800000x64_0_1 (broadcastInDim S1x64 ![1] bcast_S64_S1x64_1 b2))
    = mlp A C (Cert.KernelIdeal.Net.topHalf W0) (Cert.KernelIdeal.Net.botHalf W0) b0 W1 b1 W2 b2 := by
  unfold mlp
  rw [layer_first, relu_edges, layer_next, relu_edges, layer_next]

end Cert.ReferenceIdeal.RefOps

end
-- ==== Proof.RefChain.lean ====
/-
  The reference program's result, read one stretch of its operations at a time: it is the network `Net.net` of the
  arguments.

  The operation list is cut at the node features: the first stretch slices the edge list into sources and destinations
  and computes the input affine layer; each of the next four is one message-passing block (wrap and broadcast the node
  numbers, gather the rows at both ends of every edge, join them side by side, three products with broadcast biases and
  a maximum with zero after the first two, sum the messages from zero into their destinations); the last is the output
  affine layer. Each stretch's result is read off the fold of its operations as a term of the buffers the stretch
  reads; the outlined rectifier's operations move their values to the buffer's type and back, and those transports are
  rewritten away first. Between the stretches the edge lists and the arguments keep their contents. At the exact
  values the printed affine layers and the printed message network are Proof/Spec.lean's (Proof/RefOps.lean: the
  product on the joined rows is the sum of the two half products), which gives `Net.net`.
-/
import proofs.«430343_j38053410242952_1_alg».proof.Proof.RefRun
import proofs.«430343_j38053410242952_1_alg».proof.Proof.RefOps
import proofs.«430343_j38053410242952_1_alg».proof.Proof.Net
import proofs.«430343_j38053410242952_1_alg».proof.Proof.LibTRef
import Idealize.ShloMosaic.Lib.StableHlo.Run
import Idealize.ShloMosaic.Lib.Pipeline.Frame

set_option maxRecDepth 16384

noncomputable section

namespace Cert.ReferenceIdeal.RefChain

open Cert.ReferenceIdeal Cert.ReferenceIdeal.Gen Cert.ReferenceIdeal.ValueP
open Idealize.ShloMosaic Idealize.ShloMosaic.TcCoe Idealize.SL.Sem Idealize.ShloMosaic.StableHlo Cert.MsgNet

section AnyValues
variable {F : FTy → Type} [FloatOps F]

/-! ## The printed forms of the affine layers and of the message network -/

/-- The input affine layer as printed: a plain product, the bias widened to every row, an addition. -/
def affInR (x : FVec F S50000x16 .f32) (w : FVec F S16x64 .f32) (b : FVec F S64 .f32) : FVec F S50000x64 .f32 :=
  addf (Host.dotGeneral dot_S50000x16_S16x64_S50000x64_1_0_0_1_n_n none x w)
    (broadcastInDim S50000x64 ![0, 1] bcast_S1x64_S50000x64_0_1 (broadcastInDim S1x64 ![1] bcast_S64_S1x64_1 b))

/-- The output affine layer as printed. -/
def affOutR (h : FVec F S50000x64 .f32) (w : FVec F S64x16 .f32) (b : FVec F S16 .f32) : FVec F S50000x16 .f32 :=
  addf (Host.dotGeneral dot_S50000x64_S64x16_S50000x16_1_0_0_1_n_n none h w)
    (broadcastInDim S50000x16 ![0, 1] bcast_S1x16_S50000x16_0_1 (broadcastInDim S1x16 ![1] bcast_S16_S1x16_1 b))

/-- The message network as printed: the two gathered arrays joined along their columns against the full first-layer
    weights, then two more products, a broadcast bias after each product, a maximum with zero after the first two. -/
def mlpR (A C : FVec F S800000x64 .f32) (W0 : FVec F S128x64 .f32) (b0 : FVec F S64 .f32) (W1 : FVec F S64x64 .f32)
    (b1 : FVec F S64 .f32) (W2 : FVec F S64x64 .f32) (b2 : FVec F S64 .f32) : FVec F S800000x64 .f32 :=
  addf (Host.dotGeneral dot_S800000x64_S64x64_S800000x64_1_0_0_1_n_n none
      (maximumf (addf (Host.dotGeneral dot_S800000x64_S64x64_S800000x64_1_0_0_1_n_n none
          (maximumf (addf (Host.dotGeneral dot_S800000x128_S128x64_S800000x64_1_0_0_1_n_n none
              (concatenate S800000x128 1 [⟨S800000x64, A⟩, ⟨S800000x64, C⟩] concatenates_S800000x64_S800000x64_S800000x128_d1) W0)
            (broadcastInDim S800000x64 ![0, 1] bcast_S1x64_S800000x64_0_1 (broadcastInDim S1x64 ![1] bcast_S64_S1x64_1 b0)))
            (broadcastInDim S800000x64 ![] bcast_S_S800000x64 (constant (F := F) S_ .f32 0x00000000#32))) W1)
        (broadcastInDim S800000x64 ![0, 1] bcast_S1x64_S800000x64_0_1 (broadcastInDim S1x64 ![1] bcast_S64_S1x64_1 b1)))
        (broadcastInDim S800000x64 ![] bcast_S_S800000x64 (constant (F := F) S_ .f32 0x00000000#32))) W2)
    (broadcastInDim S800000x64 ![0, 1] bcast_S1x64_S800000x64_0_1 (broadcastInDim S1x64 ![1] bcast_S64_S1x64_1 b2))

/-! ## The outlined rectifier's transports -/

theorem relu_strip0 (X Z : FVec F S800000x64 .f32) :
    (TRef.of main_v31 : TRef sig ⟨S800000x64, .f32⟩).toBuf (Val := Elt F) (maximumf ((TRef.of main_v30 : TRef sig ⟨S800000x64, .f32⟩).ofBuf (Val := Elt F) X) Z)
      = (maximumf X Z : FVec F S800000x64 .f32) := rfl
theorem relu_strip1 (X Z : FVec F S800000x64 .f32) :
    (TRef.of main_v40 : TRef sig ⟨S800000x64, .f32⟩).toBuf (Val := Elt F) (maximumf ((TRef.of main_v39 : TRef sig ⟨S800000x64, .f32⟩).ofBuf (Val := Elt F) X) Z)
      = (maximumf X Z : FVec F S800000x64 .f32) := rfl
theorem relu_strip2 (X Z : FVec F S800000x64 .f32) :
    (TRef.of main_v75 : TRef sig ⟨S800000x64, .f32⟩).toBuf (Val := Elt F) (maximumf ((TRef.of main_v74 : TRef sig ⟨S800000x64, .f32⟩).ofBuf (Val := Elt F) X) Z)
      = (maximumf X Z : FVec F S800000x64 .f32) := rfl
theorem relu_strip3 (X Z : FVec F S800000x64 .f32) :
    (TRef.of main_v84 : TRef sig ⟨S800000x64, .f32⟩).toBuf (Val := Elt F) (maximumf ((TRef.of main_v83 : TRef sig ⟨S800000x64, .f32⟩).ofBuf (Val := Elt F) X) Z)
      = (maximumf X Z : FVec F S800000x64 .f32) := rfl
theorem relu_strip4 (X Z : FVec F S800000x64 .f32) :
    (TRef.of main_v119 : TRef sig ⟨S800000x64, .f32⟩).toBuf (Val := Elt F) (maximumf ((TRef.of main_v118 : TRef sig ⟨S800000x64, .f32⟩).ofBuf (Val := Elt F) X) Z)
      = (maximumf X Z : FVec F S800000x64 .f32) := rfl
theorem relu_strip5 (X Z : FVec F S800000x64 .f32) :
    (TRef.of main_v128 : TRef sig ⟨S800000x64, .f32⟩).toBuf (Val := Elt F) (maximumf ((TRef.of main_v127 : TRef sig ⟨S800000x64, .f32⟩).ofBuf (Val := Elt F) X) Z)
      = (maximumf X Z : FVec F S800000x64 .f32) := rfl
theorem relu_strip6 (X Z : FVec F S800000x64 .f32) :
    (TRef.of main_v163 : TRef sig ⟨S800000x64, .f32⟩).toBuf (Val := Elt F) (maximumf ((TRef.of main_v162 : TRef sig ⟨S800000x64, .f32⟩).ofBuf (Val := Elt F) X) Z)
      = (maximumf X Z : FVec F S800000x64 .f32) := rfl
theorem relu_strip7 (X Z : FVec F S800000x64 .f32) :
    (TRef.of main_v172 : TRef sig ⟨S800000x64, .f32⟩).toBuf (Val := Elt F) (maximumf ((TRef.of main_v171 : TRef sig ⟨S800000x64, .f32⟩).ofBuf (Val := Elt F) X) Z)
      = (maximumf X Z : FVec F S800000x64 .f32) := rfl

variable (m : (ℓ : Loc nD τ sig) → Buf (Elt F) ℓ)

/-! ## The buffer contents after each stretch -/

abbrev R0 (c : Dev nD) : Valuation τ sig (Elt F) := launchContents m c
abbrev R1 (c : Dev nD) : Valuation τ sig (Elt F) := StableHlo.after ops0 (R0 m c)
abbrev R2 (c : Dev nD) : Valuation τ sig (Elt F) := StableHlo.after ops1 (R1 m c)
abbrev R3 (c : Dev nD) : Valuation τ sig (Elt F) := StableHlo.after ops2 (R2 m c)
abbrev R4 (c : Dev nD) : Valuation τ sig (Elt F) := StableHlo.after ops3 (R3 m c)
abbrev R5 (c : Dev nD) : Valuation τ sig (Elt F) := StableHlo.after ops4 (R4 m c)
abbrev R6 (c : Dev nD) : Valuation τ sig (Elt F) := StableHlo.after ops5 (R5 m c)

/-- The fold of the whole list is the fold of its stretches in order. -/
theorem after_ops (c : Dev nD) : StableHlo.after (ops (F := F)) (launchContents m c) = R6 m c := by
  rw [ops_eq]
  simp only [StableHlo.after_append]

/-! ## What a stretch does not write it keeps -/

/-- The buffers stretch 0 writes. -/
def writes0 : List (Ref sig .tc) := [main_v0, main_v1, main_v2, main_v3, main_v4, main_v5, main_v6, main_v7]
theorem sub0 : (ops0 : List (HloOp τ sig (Elt F))).Forall fun op => op.writes ⊆ (writes0.map (Proc.devRef (τ := τ) .tc)).toFinset := by
  simp only [ops0, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer stretch 0 does not write holds after it what it held before. -/
theorem keep1 (c : Dev nD) {b : Ref sig .tc} (hb : b ∉ writes0) : R1 m c (Proc.devRef .tc b) = R0 m c (Proc.devRef .tc b) :=
  StableHlo.after_of_writes_sub ops0 _ sub0 hb

/-- The buffers stretch 1 writes. -/
def writes1 : List (Ref sig .tc) := [main_c, main_v8, main_v9, main_c_0, main_v10, main_v11, main_v12, main_v13, main_v14, main_c_1, main_v15, main_v16, main_c_2, main_v17, main_v18, main_v19, main_v20, main_v21, main_v22, main_v23, main_v24, main_v25, main_v26, main_v27, main_v28, main_v29, main_v30, main_call0_cst, main_call0_v0, main_v31, main_v32, main_v33, main_v34, main_v35, main_v36, main_v37, main_v38, main_v39, main_call1_cst, main_call1_v0, main_v40, main_v41, main_v42, main_v43, main_v44, main_v45, main_v46, main_v47, main_v48, main_cst, main_v49, main_v50, main_v51]
theorem sub1 : (ops1 : List (HloOp τ sig (Elt F))).Forall fun op => op.writes ⊆ (writes1.map (Proc.devRef (τ := τ) .tc)).toFinset := by
  simp only [ops1, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer stretch 1 does not write holds after it what it held before. -/
theorem keep2 (c : Dev nD) {b : Ref sig .tc} (hb : b ∉ writes1) : R2 m c (Proc.devRef .tc b) = R1 m c (Proc.devRef .tc b) :=
  StableHlo.after_of_writes_sub ops1 _ sub1 hb

/-- The buffers stretch 2 writes. -/
def writes2 : List (Ref sig .tc) := [main_c_3, main_v52, main_v53, main_c_4, main_v54, main_v55, main_v56, main_v57, main_v58, main_c_5, main_v59, main_v60, main_c_6, main_v61, main_v62, main_v63, main_v64, main_v65, main_v66, main_v67, main_v68, main_v69, main_v70, main_v71, main_v72, main_v73, main_v74, main_call2_cst, main_call2_v0, main_v75, main_v76, main_v77, main_v78, main_v79, main_v80, main_v81, main_v82, main_v83, main_call3_cst, main_call3_v0, main_v84, main_v85, main_v86, main_v87, main_v88, main_v89, main_v90, main_v91, main_v92, main_cst_7, main_v93, main_v94, main_v95]
theorem sub2 : (ops2 : List (HloOp τ sig (Elt F))).Forall fun op => op.writes ⊆ (writes2.map (Proc.devRef (τ := τ) .tc)).toFinset := by
  simp only [ops2, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer stretch 2 does not write holds after it what it held before. -/
theorem keep3 (c : Dev nD) {b : Ref sig .tc} (hb : b ∉ writes2) : R3 m c (Proc.devRef .tc b) = R2 m c (Proc.devRef .tc b) :=
  StableHlo.after_of_writes_sub ops2 _ sub2 hb

/-- The buffers stretch 3 writes. -/
def writes3 : List (Ref sig .tc) := [main_c_8, main_v96, main_v97, main_c_9, main_v98, main_v99, main_v100, main_v101, main_v102, main_c_10, main_v103, main_v104, main_c_11, main_v105, main_v106, main_v107, main_v108, main_v109, main_v110, main_v111, main_v112, main_v113, main_v114, main_v115, main_v116, main_v117, main_v118, main_call4_cst, main_call4_v0, main_v119, main_v120, main_v121, main_v122, main_v123, main_v124, main_v125, main_v126, main_v127, main_call5_cst, main_call5_v0, main_v128, main_v129, main_v130, main_v131, main_v132, main_v133, main_v134, main_v135, main_v136, main_cst_12, main_v137, main_v138, main_v139]
theorem sub3 : (ops3 : List (HloOp τ sig (Elt F))).Forall fun op => op.writes ⊆ (writes3.map (Proc.devRef (τ := τ) .tc)).toFinset := by
  simp only [ops3, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer stretch 3 does not write holds after it what it held before. -/
theorem keep4 (c : Dev nD) {b : Ref sig .tc} (hb : b ∉ writes3) : R4 m c (Proc.devRef .tc b) = R3 m c (Proc.devRef .tc b) :=
  StableHlo.after_of_writes_sub ops3 _ sub3 hb

/-- The buffers stretch 4 writes. -/
def writes4 : List (Ref sig .tc) := [main_c_13, main_v140, main_v141, main_c_14, main_v142, main_v143, main_v144, main_v145, main_v146, main_c_15, main_v147, main_v148, main_c_16, main_v149, main_v150, main_v151, main_v152, main_v153, main_v154, main_v155, main_v156, main_v157, main_v158, main_v159, main_v160, main_v161, main_v162, main_call6_cst, main_call6_v0, main_v163, main_v164, main_v165, main_v166, main_v167, main_v168, main_v169, main_v170, main_v171, main_call7_cst, main_call7_v0, main_v172, main_v173, main_v174, main_v175, main_v176, main_v177, main_v178, main_v179, main_v180, main_cst_17, main_v181, main_v182, main_v183]
theorem sub4 : (ops4 : List (HloOp τ sig (Elt F))).Forall fun op => op.writes ⊆ (writes4.map (Proc.devRef (τ := τ) .tc)).toFinset := by
  simp only [ops4, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))
/-- A buffer stretch 4 does not write holds after it what it held before. -/
theorem keep5 (c : Dev nD) {b : Ref sig .tc} (hb : b ∉ writes4) : R5 m c (Proc.devRef .tc b) = R4 m c (Proc.devRef .tc b) :=
  StableHlo.after_of_writes_sub ops4 _ sub4 hb

theorem v1_at1 (c : Dev nD) : R1 m c (Proc.devRef .tc main_v1) = R1 m c (Proc.devRef .tc main_v1) := rfl
theorem v1_at2 (c : Dev nD) : R2 m c (Proc.devRef .tc main_v1) = R1 m c (Proc.devRef .tc main_v1) :=
  (keep2 m c (by decide)).trans (v1_at1 m c)
theorem v1_at3 (c : Dev nD) : R3 m c (Proc.devRef .tc main_v1) = R1 m c (Proc.devRef .tc main_v1) :=
  (keep3 m c (by decide)).trans (v1_at2 m c)
theorem v1_at4 (c : Dev nD) : R4 m c (Proc.devRef .tc main_v1) = R1 m c (Proc.devRef .tc main_v1) :=
  (keep4 m c (by decide)).trans (v1_at3 m c)
theorem v3_at1 (c : Dev nD) : R1 m c (Proc.devRef .tc main_v3) = R1 m c (Proc.devRef .tc main_v3) := rfl
theorem v3_at2 (c : Dev nD) : R2 m c (Proc.devRef .tc main_v3) = R1 m c (Proc.devRef .tc main_v3) :=
  (keep2 m c (by decide)).trans (v3_at1 m c)
theorem v3_at3 (c : Dev nD) : R3 m c (Proc.devRef .tc main_v3) = R1 m c (Proc.devRef .tc main_v3) :=
  (keep3 m c (by decide)).trans (v3_at2 m c)
theorem v3_at4 (c : Dev nD) : R4 m c (Proc.devRef .tc main_v3) = R1 m c (Proc.devRef .tc main_v3) :=
  (keep4 m c (by decide)).trans (v3_at3 m c)
theorem arg5_at0 (c : Dev nD) : R0 m c (Proc.devRef .tc main_arg5) = m ((c.tc : Thread nD τ).loc main_arg5) := rfl
theorem arg5_at1 (c : Dev nD) : R1 m c (Proc.devRef .tc main_arg5) = m ((c.tc : Thread nD τ).loc main_arg5) :=
  (keep1 m c (by decide)).trans (arg5_at0 m c)
theorem arg5_at2 (c : Dev nD) : R2 m c (Proc.devRef .tc main_arg5) = m ((c.tc : Thread nD τ).loc main_arg5) :=
  (keep2 m c (by decide)).trans (arg5_at1 m c)
theorem arg5_at3 (c : Dev nD) : R3 m c (Proc.devRef .tc main_arg5) = m ((c.tc : Thread nD τ).loc main_arg5) :=
  (keep3 m c (by decide)).trans (arg5_at2 m c)
theorem arg5_at4 (c : Dev nD) : R4 m c (Proc.devRef .tc main_arg5) = m ((c.tc : Thread nD τ).loc main_arg5) :=
  (keep4 m c (by decide)).trans (arg5_at3 m c)
theorem arg5_at5 (c : Dev nD) : R5 m c (Proc.devRef .tc main_arg5) = m ((c.tc : Thread nD τ).loc main_arg5) :=
  (keep5 m c (by decide)).trans (arg5_at4 m c)
theorem arg6_at0 (c : Dev nD) : R0 m c (Proc.devRef .tc main_arg6) = m ((c.tc : Thread nD τ).loc main_arg6) := rfl
theorem arg6_at1 (c : Dev nD) : R1 m c (Proc.devRef .tc main_arg6) = m ((c.tc : Thread nD τ).loc main_arg6) :=
  (keep1 m c (by decide)).trans (arg6_at0 m c)
theorem arg6_at2 (c : Dev nD) : R2 m c (Proc.devRef .tc main_arg6) = m ((c.tc : Thread nD τ).loc main_arg6) :=
  (keep2 m c (by decide)).trans (arg6_at1 m c)
theorem arg6_at3 (c : Dev nD) : R3 m c (Proc.devRef .tc main_arg6) = m ((c.tc : Thread nD τ).loc main_arg6) :=
  (keep3 m c (by decide)).trans (arg6_at2 m c)
theorem arg6_at4 (c : Dev nD) : R4 m c (Proc.devRef .tc main_arg6) = m ((c.tc : Thread nD τ).loc main_arg6) :=
  (keep4 m c (by decide)).trans (arg6_at3 m c)
theorem arg6_at5 (c : Dev nD) : R5 m c (Proc.devRef .tc main_arg6) = m ((c.tc : Thread nD τ).loc main_arg6) :=
  (keep5 m c (by decide)).trans (arg6_at4 m c)
theorem arg7_at0 (c : Dev nD) : R0 m c (Proc.devRef .tc main_arg7) = m ((c.tc : Thread nD τ).loc main_arg7) := rfl
theorem arg7_at1 (c : Dev nD) : R1 m c (Proc.devRef .tc main_arg7) = m ((c.tc : Thread nD τ).loc main_arg7) :=
  (keep1 m c (by decide)).trans (arg7_at0 m c)
theorem arg7_at2 (c : Dev nD) : R2 m c (Proc.devRef .tc main_arg7) = m ((c.tc : Thread nD τ).loc main_arg7) :=
  (keep2 m c (by decide)).trans (arg7_at1 m c)
theorem arg7_at3 (c : Dev nD) : R3 m c (Proc.devRef .tc main_arg7) = m ((c.tc : Thread nD τ).loc main_arg7) :=
  (keep3 m c (by decide)).trans (arg7_at2 m c)
theorem arg7_at4 (c : Dev nD) : R4 m c (Proc.devRef .tc main_arg7) = m ((c.tc : Thread nD τ).loc main_arg7) :=
  (keep4 m c (by decide)).trans (arg7_at3 m c)
theorem arg7_at5 (c : Dev nD) : R5 m c (Proc.devRef .tc main_arg7) = m ((c.tc : Thread nD τ).loc main_arg7) :=
  (keep5 m c (by decide)).trans (arg7_at4 m c)
theorem arg8_at0 (c : Dev nD) : R0 m c (Proc.devRef .tc main_arg8) = m ((c.tc : Thread nD τ).loc main_arg8) := rfl
theorem arg8_at1 (c : Dev nD) : R1 m c (Proc.devRef .tc main_arg8) = m ((c.tc : Thread nD τ).loc main_arg8) :=
  (keep1 m c (by decide)).trans (arg8_at0 m c)
theorem arg8_at2 (c : Dev nD) : R2 m c (Proc.devRef .tc main_arg8) = m ((c.tc : Thread nD τ).loc main_arg8) :=
  (keep2 m c (by decide)).trans (arg8_at1 m c)
theorem arg8_at3 (c : Dev nD) : R3 m c (Proc.devRef .tc main_arg8) = m ((c.tc : Thread nD τ).loc main_arg8) :=
  (keep3 m c (by decide)).trans (arg8_at2 m c)
theorem arg8_at4 (c : Dev nD) : R4 m c (Proc.devRef .tc main_arg8) = m ((c.tc : Thread nD τ).loc main_arg8) :=
  (keep4 m c (by decide)).trans (arg8_at3 m c)
theorem arg8_at5 (c : Dev nD) : R5 m c (Proc.devRef .tc main_arg8) = m ((c.tc : Thread nD τ).loc main_arg8) :=
  (keep5 m c (by decide)).trans (arg8_at4 m c)
theorem arg9_at0 (c : Dev nD) : R0 m c (Proc.devRef .tc main_arg9) = m ((c.tc : Thread nD τ).loc main_arg9) := rfl
theorem arg9_at1 (c : Dev nD) : R1 m c (Proc.devRef .tc main_arg9) = m ((c.tc : Thread nD τ).loc main_arg9) :=
  (keep1 m c (by decide)).trans (arg9_at0 m c)
theorem arg9_at2 (c : Dev nD) : R2 m c (Proc.devRef .tc main_arg9) = m ((c.tc : Thread nD τ).loc main_arg9) :=
  (keep2 m c (by decide)).trans (arg9_at1 m c)
theorem arg9_at3 (c : Dev nD) : R3 m c (Proc.devRef .tc main_arg9) = m ((c.tc : Thread nD τ).loc main_arg9) :=
  (keep3 m c (by decide)).trans (arg9_at2 m c)
theorem arg9_at4 (c : Dev nD) : R4 m c (Proc.devRef .tc main_arg9) = m ((c.tc : Thread nD τ).loc main_arg9) :=
  (keep4 m c (by decide)).trans (arg9_at3 m c)
theorem arg9_at5 (c : Dev nD) : R5 m c (Proc.devRef .tc main_arg9) = m ((c.tc : Thread nD τ).loc main_arg9) :=
  (keep5 m c (by decide)).trans (arg9_at4 m c)
theorem arg10_at0 (c : Dev nD) : R0 m c (Proc.devRef .tc main_arg10) = m ((c.tc : Thread nD τ).loc main_arg10) := rfl
theorem arg10_at1 (c : Dev nD) : R1 m c (Proc.devRef .tc main_arg10) = m ((c.tc : Thread nD τ).loc main_arg10) :=
  (keep1 m c (by decide)).trans (arg10_at0 m c)
theorem arg10_at2 (c : Dev nD) : R2 m c (Proc.devRef .tc main_arg10) = m ((c.tc : Thread nD τ).loc main_arg10) :=
  (keep2 m c (by decide)).trans (arg10_at1 m c)
theorem arg10_at3 (c : Dev nD) : R3 m c (Proc.devRef .tc main_arg10) = m ((c.tc : Thread nD τ).loc main_arg10) :=
  (keep3 m c (by decide)).trans (arg10_at2 m c)
theorem arg10_at4 (c : Dev nD) : R4 m c (Proc.devRef .tc main_arg10) = m ((c.tc : Thread nD τ).loc main_arg10) :=
  (keep4 m c (by decide)).trans (arg10_at3 m c)
theorem arg10_at5 (c : Dev nD) : R5 m c (Proc.devRef .tc main_arg10) = m ((c.tc : Thread nD τ).loc main_arg10) :=
  (keep5 m c (by decide)).trans (arg10_at4 m c)
theorem arg11_at0 (c : Dev nD) : R0 m c (Proc.devRef .tc main_arg11) = m ((c.tc : Thread nD τ).loc main_arg11) := rfl
theorem arg11_at1 (c : Dev nD) : R1 m c (Proc.devRef .tc main_arg11) = m ((c.tc : Thread nD τ).loc main_arg11) :=
  (keep1 m c (by decide)).trans (arg11_at0 m c)
theorem arg11_at2 (c : Dev nD) : R2 m c (Proc.devRef .tc main_arg11) = m ((c.tc : Thread nD τ).loc main_arg11) :=
  (keep2 m c (by decide)).trans (arg11_at1 m c)
theorem arg11_at3 (c : Dev nD) : R3 m c (Proc.devRef .tc main_arg11) = m ((c.tc : Thread nD τ).loc main_arg11) :=
  (keep3 m c (by decide)).trans (arg11_at2 m c)
theorem arg11_at4 (c : Dev nD) : R4 m c (Proc.devRef .tc main_arg11) = m ((c.tc : Thread nD τ).loc main_arg11) :=
  (keep4 m c (by decide)).trans (arg11_at3 m c)
theorem arg11_at5 (c : Dev nD) : R5 m c (Proc.devRef .tc main_arg11) = m ((c.tc : Thread nD τ).loc main_arg11) :=
  (keep5 m c (by decide)).trans (arg11_at4 m c)
theorem arg12_at0 (c : Dev nD) : R0 m c (Proc.devRef .tc main_arg12) = m ((c.tc : Thread nD τ).loc main_arg12) := rfl
theorem arg12_at1 (c : Dev nD) : R1 m c (Proc.devRef .tc main_arg12) = m ((c.tc : Thread nD τ).loc main_arg12) :=
  (keep1 m c (by decide)).trans (arg12_at0 m c)
theorem arg12_at2 (c : Dev nD) : R2 m c (Proc.devRef .tc main_arg12) = m ((c.tc : Thread nD τ).loc main_arg12) :=
  (keep2 m c (by decide)).trans (arg12_at1 m c)
theorem arg12_at3 (c : Dev nD) : R3 m c (Proc.devRef .tc main_arg12) = m ((c.tc : Thread nD τ).loc main_arg12) :=
  (keep3 m c (by decide)).trans (arg12_at2 m c)
theorem arg12_at4 (c : Dev nD) : R4 m c (Proc.devRef .tc main_arg12) = m ((c.tc : Thread nD τ).loc main_arg12) :=
  (keep4 m c (by decide)).trans (arg12_at3 m c)
theorem arg12_at5 (c : Dev nD) : R5 m c (Proc.devRef .tc main_arg12) = m ((c.tc : Thread nD τ).loc main_arg12) :=
  (keep5 m c (by decide)).trans (arg12_at4 m c)

/-! ## What each stretch computes -/

set_option maxHeartbeats 20000000 in
/-- The sources: row 0 of the edge argument. -/
theorem src_R (c : Dev nD) : R1 m c (Proc.devRef .tc main_v1) = Cert.KernelIdeal.Net.srcOf (m ((c.tc : Thread nD τ).loc main_arg2)) := by
  show StableHlo.after ops0 (R0 m c) (Proc.devRef .tc main_v1) = _
  unfold ops0
  after_results_simp
  rfl

set_option maxHeartbeats 20000000 in
/-- The destinations: row 1 of the edge argument. -/
theorem dst_R (c : Dev nD) : R1 m c (Proc.devRef .tc main_v3) = Cert.KernelIdeal.Net.dstOf (m ((c.tc : Thread nD τ).loc main_arg2)) := by
  show StableHlo.after ops0 (R0 m c) (Proc.devRef .tc main_v3) = _
  unfold ops0
  after_results_simp
  rfl

set_option maxHeartbeats 20000000 in
/-- The input affine layer. -/
theorem feat0_R (c : Dev nD) : R1 m c (Proc.devRef .tc main_v7) = affInR (m ((c.tc : Thread nD τ).loc main_arg0)) (m ((c.tc : Thread nD τ).loc main_arg3)) (m ((c.tc : Thread nD τ).loc main_arg4)) := by
  show StableHlo.after ops0 (R0 m c) (Proc.devRef .tc main_v7) = _
  unfold ops0
  after_results_simp
  rfl

set_option maxHeartbeats 40000000 in
/-- Stretch 1: message-passing block 0 of the reference, from the buffers it reads. -/
theorem block0_R (c : Dev nD) : R2 m c (Proc.devRef .tc main_v51)
    = Cert.KernelIdeal.Net.sumInto (R1 m c (Proc.devRef .tc main_v3))
        (mlpR (Cert.KernelIdeal.Net.rowsAt (R1 m c (Proc.devRef .tc main_v7)) (R1 m c (Proc.devRef .tc main_v1))) (Cert.KernelIdeal.Net.rowsAt (R1 m c (Proc.devRef .tc main_v7)) (R1 m c (Proc.devRef .tc main_v3)))
          (Cert.KernelIdeal.Net.pw0_0 (R1 m c (Proc.devRef .tc main_arg5))) (Cert.KernelIdeal.Net.pb_0 (R1 m c (Proc.devRef .tc main_arg6)))
          (Cert.KernelIdeal.Net.pw_0 (R1 m c (Proc.devRef .tc main_arg7))) (Cert.KernelIdeal.Net.pb_0 (R1 m c (Proc.devRef .tc main_arg8)))
          (Cert.KernelIdeal.Net.pw_0 (R1 m c (Proc.devRef .tc main_arg9))) (Cert.KernelIdeal.Net.pb_0 (R1 m c (Proc.devRef .tc main_arg10)))) := by
  show StableHlo.after ops1 (R1 m c) (Proc.devRef .tc main_v51) = _
  unfold ops1
  after_results_simp
  simp only [TRef.ofBuf_toBuf]
  rw [relu_strip0, relu_strip1]
  generalize R1 m c (Proc.devRef .tc main_v7) = h
  generalize R1 m c (Proc.devRef .tc main_v1) = s
  generalize R1 m c (Proc.devRef .tc main_v3) = d
  generalize R1 m c (Proc.devRef .tc main_arg5) = a5
  generalize R1 m c (Proc.devRef .tc main_arg6) = a6
  generalize R1 m c (Proc.devRef .tc main_arg7) = a7
  generalize R1 m c (Proc.devRef .tc main_arg8) = a8
  generalize R1 m c (Proc.devRef .tc main_arg9) = a9
  generalize R1 m c (Proc.devRef .tc main_arg10) = a10
  rfl

set_option maxHeartbeats 40000000 in
/-- Stretch 2: message-passing block 1 of the reference, from the buffers it reads. -/
theorem block1_R (c : Dev nD) : R3 m c (Proc.devRef .tc main_v95)
    = Cert.KernelIdeal.Net.sumInto (R2 m c (Proc.devRef .tc main_v3))
        (mlpR (Cert.KernelIdeal.Net.rowsAt (R2 m c (Proc.devRef .tc main_v51)) (R2 m c (Proc.devRef .tc main_v1))) (Cert.KernelIdeal.Net.rowsAt (R2 m c (Proc.devRef .tc main_v51)) (R2 m c (Proc.devRef .tc main_v3)))
          (Cert.KernelIdeal.Net.pw0_1 (R2 m c (Proc.devRef .tc main_arg5))) (Cert.KernelIdeal.Net.pb_1 (R2 m c (Proc.devRef .tc main_arg6)))
          (Cert.KernelIdeal.Net.pw_1 (R2 m c (Proc.devRef .tc main_arg7))) (Cert.KernelIdeal.Net.pb_1 (R2 m c (Proc.devRef .tc main_arg8)))
          (Cert.KernelIdeal.Net.pw_1 (R2 m c (Proc.devRef .tc main_arg9))) (Cert.KernelIdeal.Net.pb_1 (R2 m c (Proc.devRef .tc main_arg10)))) := by
  show StableHlo.after ops2 (R2 m c) (Proc.devRef .tc main_v95) = _
  unfold ops2
  after_results_simp
  simp only [TRef.ofBuf_toBuf]
  rw [relu_strip2, relu_strip3]
  generalize R2 m c (Proc.devRef .tc main_v51) = h
  generalize R2 m c (Proc.devRef .tc main_v1) = s
  generalize R2 m c (Proc.devRef .tc main_v3) = d
  generalize R2 m c (Proc.devRef .tc main_arg5) = a5
  generalize R2 m c (Proc.devRef .tc main_arg6) = a6
  generalize R2 m c (Proc.devRef .tc main_arg7) = a7
  generalize R2 m c (Proc.devRef .tc main_arg8) = a8
  generalize R2 m c (Proc.devRef .tc main_arg9) = a9
  generalize R2 m c (Proc.devRef .tc main_arg10) = a10
  rfl

set_option maxHeartbeats 40000000 in
/-- Stretch 3: message-passing block 2 of the reference, from the buffers it reads. -/
theorem block2_R (c : Dev nD) : R4 m c (Proc.devRef .tc main_v139)
    = Cert.KernelIdeal.Net.sumInto (R3 m c (Proc.devRef .tc main_v3))
        (mlpR (Cert.KernelIdeal.Net.rowsAt (R3 m c (Proc.devRef .tc main_v95)) (R3 m c (Proc.devRef .tc main_v1))) (Cert.KernelIdeal.Net.rowsAt (R3 m c (Proc.devRef .tc main_v95)) (R3 m c (Proc.devRef .tc main_v3)))
          (Cert.KernelIdeal.Net.pw0_2 (R3 m c (Proc.devRef .tc main_arg5))) (Cert.KernelIdeal.Net.pb_2 (R3 m c (Proc.devRef .tc main_arg6)))
          (Cert.KernelIdeal.Net.pw_2 (R3 m c (Proc.devRef .tc main_arg7))) (Cert.KernelIdeal.Net.pb_2 (R3 m c (Proc.devRef .tc main_arg8)))
          (Cert.KernelIdeal.Net.pw_2 (R3 m c (Proc.devRef .tc main_arg9))) (Cert.KernelIdeal.Net.pb_2 (R3 m c (Proc.devRef .tc main_arg10)))) := by
  show StableHlo.after ops3 (R3 m c) (Proc.devRef .tc main_v139) = _
  unfold ops3
  after_results_simp
  simp only [TRef.ofBuf_toBuf]
  rw [relu_strip4, relu_strip5]
  generalize R3 m c (Proc.devRef .tc main_v95) = h
  generalize R3 m c (Proc.devRef .tc main_v1) = s
  generalize R3 m c (Proc.devRef .tc main_v3) = d
  generalize R3 m c (Proc.devRef .tc main_arg5) = a5
  generalize R3 m c (Proc.devRef .tc main_arg6) = a6
  generalize R3 m c (Proc.devRef .tc main_arg7) = a7
  generalize R3 m c (Proc.devRef .tc main_arg8) = a8
  generalize R3 m c (Proc.devRef .tc main_arg9) = a9
  generalize R3 m c (Proc.devRef .tc main_arg10) = a10
  rfl

set_option maxHeartbeats 40000000 in
/-- Stretch 4: message-passing block 3 of the reference, from the buffers it reads. -/
theorem block3_R (c : Dev nD) : R5 m c (Proc.devRef .tc main_v183)
    = Cert.KernelIdeal.Net.sumInto (R4 m c (Proc.devRef .tc main_v3))
        (mlpR (Cert.KernelIdeal.Net.rowsAt (R4 m c (Proc.devRef .tc main_v139)) (R4 m c (Proc.devRef .tc main_v1))) (Cert.KernelIdeal.Net.rowsAt (R4 m c (Proc.devRef .tc main_v139)) (R4 m c (Proc.devRef .tc main_v3)))
          (Cert.KernelIdeal.Net.pw0_3 (R4 m c (Proc.devRef .tc main_arg5))) (Cert.KernelIdeal.Net.pb_3 (R4 m c (Proc.devRef .tc main_arg6)))
          (Cert.KernelIdeal.Net.pw_3 (R4 m c (Proc.devRef .tc main_arg7))) (Cert.KernelIdeal.Net.pb_3 (R4 m c (Proc.devRef .tc main_arg8)))
          (Cert.KernelIdeal.Net.pw_3 (R4 m c (Proc.devRef .tc main_arg9))) (Cert.KernelIdeal.Net.pb_3 (R4 m c (Proc.devRef .tc main_arg10)))) := by
  show StableHlo.after ops4 (R4 m c) (Proc.devRef .tc main_v183) = _
  unfold ops4
  after_results_simp
  simp only [TRef.ofBuf_toBuf]
  rw [relu_strip6, relu_strip7]
  generalize R4 m c (Proc.devRef .tc main_v139) = h
  generalize R4 m c (Proc.devRef .tc main_v1) = s
  generalize R4 m c (Proc.devRef .tc main_v3) = d
  generalize R4 m c (Proc.devRef .tc main_arg5) = a5
  generalize R4 m c (Proc.devRef .tc main_arg6) = a6
  generalize R4 m c (Proc.devRef .tc main_arg7) = a7
  generalize R4 m c (Proc.devRef .tc main_arg8) = a8
  generalize R4 m c (Proc.devRef .tc main_arg9) = a9
  generalize R4 m c (Proc.devRef .tc main_arg10) = a10
  rfl

set_option maxHeartbeats 20000000 in
/-- The output affine layer. -/
theorem out_R (c : Dev nD) : R6 m c (Proc.devRef .tc main_v187)
    = affOutR (R5 m c (Proc.devRef .tc main_v183)) (R5 m c (Proc.devRef .tc main_arg11)) (R5 m c (Proc.devRef .tc main_arg12)) := by
  show StableHlo.after ops5 (R5 m c) (Proc.devRef .tc main_v187) = _
  unfold ops5
  after_results_simp
  rfl

end AnyValues

/-! ## At the exact values -/

variable (m : (ℓ : Loc nD τ sig) → Buf (Elt Ideal) ℓ)

theorem affInR_eq (x : FVec Ideal S50000x16 .f32) (w : FVec Ideal S16x64 .f32) (b : FVec Ideal S64 .f32) :
    affInR x w b = affine x w b := RefOps.affine_in x w b
theorem affOutR_eq (h : FVec Ideal S50000x64 .f32) (w : FVec Ideal S64x16 .f32) (b : FVec Ideal S16 .f32) :
    affOutR h w b = affine h w b := RefOps.affine_out h w b
theorem mlpR_eq (A C : FVec Ideal S800000x64 .f32) (W0 : FVec Ideal S128x64 .f32) (b0 : FVec Ideal S64 .f32)
    (W1 : FVec Ideal S64x64 .f32) (b1 : FVec Ideal S64 .f32) (W2 : FVec Ideal S64x64 .f32) (b2 : FVec Ideal S64 .f32) :
    mlpR A C W0 b0 W1 b1 W2 b2 = mlp A C (Cert.KernelIdeal.Net.topHalf W0) (Cert.KernelIdeal.Net.botHalf W0) b0 W1 b1 W2 b2 :=
  RefOps.mlp_ref A C W0 b0 W1 b1 W2 b2

/-- One message-passing block at the exact values is `Net.layer`. -/
theorem layer_eq (src dst : IVec S800000 32) (h : FVec Ideal S50000x64 .f32) (w0 : FVec Ideal S128x64 .f32) (b0 : FVec Ideal S64 .f32)
    (w1 : FVec Ideal S64x64 .f32) (b1 : FVec Ideal S64 .f32) (w2 : FVec Ideal S64x64 .f32) (b2 : FVec Ideal S64 .f32) :
    Cert.KernelIdeal.Net.sumInto dst (mlpR (Cert.KernelIdeal.Net.rowsAt h src) (Cert.KernelIdeal.Net.rowsAt h dst) w0 b0 w1 b1 w2 b2) = Cert.KernelIdeal.Net.layer src dst h w0 b0 w1 b1 w2 b2 := by
  rw [mlpR_eq]; rfl

/-- THE RESULT of the reference program. -/
theorem result (c : Dev nD) :
    StableHlo.after (ops (F := Ideal)) (launchContents m c) (Proc.devRef .tc main_v187)
      = Cert.KernelIdeal.Net.net (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [after_ops, out_R, arg11_at5 m c, arg12_at5 m c, affOutR_eq,
    block3_R, v1_at4 m c, v3_at4 m c, arg5_at4 m c, arg6_at4 m c, arg7_at4 m c, arg8_at4 m c, arg9_at4 m c, arg10_at4 m c, layer_eq,
    block2_R, v1_at3 m c, v3_at3 m c, arg5_at3 m c, arg6_at3 m c, arg7_at3 m c, arg8_at3 m c, arg9_at3 m c, arg10_at3 m c, layer_eq,
    block1_R, v1_at2 m c, v3_at2 m c, arg5_at2 m c, arg6_at2 m c, arg7_at2 m c, arg8_at2 m c, arg9_at2 m c, arg10_at2 m c, layer_eq,
    block0_R, arg5_at1 m c, arg6_at1 m c, arg7_at1 m c, arg8_at1 m c, arg9_at1 m c, arg10_at1 m c, layer_eq,
    feat0_R, affInR_eq, src_R, dst_R]
  rfl

end Cert.ReferenceIdeal.RefChain

end
-- ==== Proof.lean ====
/-
  The certificate of the graph-network kernel against its jnp reference, over the extended reals.

  Both programs compute `out = h₄ · W_out + b_out` where `h₀ = x · W_in + b_in` and, four times,
  `h ↦ Σ_{e : dst e = ·} mlp_k (h (src e), h (dst e))`: a three-layer message network on the concatenated features of an
  edge's two ends, summed into the edge's destination node. The kernel computes the affine layers and the message network
  in pallas_calls tiled by rows, with the first layer's product on the concatenated features written as the sum of two
  products against the weight matrix's upper and lower halves; a sum over 128 terms is the sum of its two halves, so at
  the exact values the two spellings agree, and a row tiling of a row-wise function computes it block by block. The one
  difference between the programs is outside the arithmetic: the kernel gathers rows with jnp.take, which fills a row
  whose node number is out of range, where the reference's indexing clamps. With every node number of the edge argument
  in `0 … 49999` (the added precondition) neither happens and the two gathers are one. The gather and the scatter-add
  themselves are the same host operations in both programs and are never opened.

  The kernel's result is `Net.net` of the arguments (Proof/KChain.lean, over the run of Proof/KRun.lean); the
  reference's is the same function (Proof/RefChain.lean, over the run of Proof/RefRun.lean). The frames of the two
  kernel programs are generated; the reference's frame is its run with the result dropped. The idealization rewrote nothing.
-/
import proofs.«430343_j38053410242952_1_alg».proof.Defs
import proofs.«430343_j38053410242952_1_alg».proof.Proof.Gen.Kernel
import proofs.«430343_j38053410242952_1_alg».proof.Proof.Gen.Kernel.Skeleton
import proofs.«430343_j38053410242952_1_alg».proof.Proof.Gen.Kernel.Launch
import proofs.«430343_j38053410242952_1_alg».proof.Proof.Gen.Kernel.Points
import proofs.«430343_j38053410242952_1_alg».proof.Proof.Gen.Kernel.Frame
import proofs.«430343_j38053410242952_1_alg».proof.Proof.Gen.KernelIdeal
import proofs.«430343_j38053410242952_1_alg».proof.Proof.Gen.KernelIdeal.Skeleton
import proofs.«430343_j38053410242952_1_alg».proof.Proof.Gen.KernelIdeal.Launch
import proofs.«430343_j38053410242952_1_alg».proof.Proof.Gen.KernelIdeal.Points
import proofs.«430343_j38053410242952_1_alg».proof.Proof.Gen.KernelIdeal.Frame
import proofs.«430343_j38053410242952_1_alg».proof.Proof.Gen.ReferenceIdeal
import proofs.«430343_j38053410242952_1_alg».proof.Proof.Gen.Pre_finite_inputs
import proofs.«430343_j38053410242952_1_alg».proof.Proof.KRun
import proofs.«430343_j38053410242952_1_alg».proof.Proof.KChain
import proofs.«430343_j38053410242952_1_alg».proof.Proof.Range
import proofs.«430343_j38053410242952_1_alg».proof.Proof.RefRun
import proofs.«430343_j38053410242952_1_alg».proof.Proof.RefChain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with `Net.net` of the (agreeing) arguments. -/
theorem algebraic : Cert.algebraic_KernelIdeal_ReferenceIdeal := by
  intro m ρ m' ρ' hpre hagree
  have hrange : ∀ c : Dev Cert.KernelIdeal.nD, ∀ i, 0 ≤ ((m ((c.tc : Thread Cert.KernelIdeal.nD Cert.KernelIdeal.τ).loc Cert.KernelIdeal.main_arg2)) i).toInt ∧ ((m ((c.tc : Thread Cert.KernelIdeal.nD Cert.KernelIdeal.τ).loc Cert.KernelIdeal.main_arg2)) i).toInt < 50000 :=
    fun c => Cert.KernelIdeal.Range.edge_range _ _ _ _ _ _ _ _ _ _ _ _ _ (hpre c)
  refine ⟨fun c => Cert.KernelIdeal.Net.net
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Chain.result m ρ c
          (Cert.KernelIdeal.Range.srcOf_range _ (hrange c)) (Cert.KernelIdeal.Range.dstOf_range _ (hrange c))), (h c).2⟩)
      (Cert.KernelIdeal.ValueRun.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12⟩ := hagree c
    rw [Cert.ReferenceIdeal.RefChain.result m' c, e0, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
